-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000 : Shape := ⟨1, ![2000000]⟩
abbrev S1000000 : Shape := ⟨1, ![1000000]⟩
abbrev S512 : Shape := ⟨1, ![512]⟩
abbrev S512x512 : Shape := ⟨2, ![512, 512]⟩
abbrev S_ : Shape := ⟨0, ![]⟩

class Facts : Prop where
  bcast_S_S2000000 : S_.BroadcastsInDim S2000000 (![] : Fin 0 → Fin S2000000.rank)
  reducesTo_S2000000_S_d0 : S2000000.ReducesTo [0] S_
  h_S_ : 0 < S_.numel
  bcast_S_S1000000 : S_.BroadcastsInDim S1000000 (![] : Fin 0 → Fin S1000000.rank)
  reducesTo_S1000000_S_d0 : S1000000.ReducesTo [0] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_

variable [Facts]

def fn_part3 {F : FTy → Type} [FloatOps F] (main_arg11 : FVec F S512x512 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x512 .f32 := Host.absf main_arg11
  let main_cst_20 : FVec F S_ .f32 := constant S_ .f32 0x7F800000#32
  let main_v55 : FVec F S512x512 .f32 := broadcastInDim S512x512 ![] bcast_S_S512x512 main_cst_20
  let main_v56 : IVec S512x512 1 := cmpf .olt main_v54 main_v55
  let main_c_21 : IVec S_ 1 := constantI S_ 1 1#1
  let main_v57 : IVec S_ 1 := (fun x v => Host.reduce IntOp.andi x v reducesTo_S512x512_S_d0_1 h_S_) main_v56 main_c_21
  let main_v58 : IVec S_ 1 := andi main_v53 main_v57
  main_v58

def fn_part2 {F : FTy → Type} [FloatOps F] (main_arg7 : FVec F S1000000 .f32) (main_arg8 : FVec F S1000000 .f32) (main_arg9 : FVec F S512 .f32) (main_arg10 : FVec F S512 .f32) (main_arg11 : FVec F S512x512 .f32) (main_v33 : IVec S_ 1) : IVec S_ 1 :=
  let main_v34 : FVec F S1000000 .f32 := Host.absf main_arg7
  let main_cst_12 : FVec F S_ .f32 := constant S_ .f32 0x7F800000#32
  let main_v35 : FVec F S1000000 .f32 := broadcastInDim S1000000 ![] bcast_S_S1000000 main_cst_12
  let main_v36 : IVec S1000000 1 := cmpf .olt main_v34 main_v35
  let main_c_13 : IVec S_ 1 := constantI S_ 1 1#1
  let main_v37 : IVec S_ 1 := (fun x v => Host.reduce IntOp.andi x v reducesTo_S1000000_S_d0 h_S_) main_v36 main_c_13
  let main_v38 : IVec S_ 1 := andi main_v33 main_v37
  let main_v39 : FVec F S1000000 .f32 := Host.absf main_arg8
  let main_cst_14 : FVec F S_ .f32 := constant S_ .f32 0x7F800000#32
  let main_v40 : FVec F S1000000 .f32 := broadcastInDim S1000000 ![] bcast_S_S1000000 main_cst_14
  let main_v41 : IVec S1000000 1 := cmpf .olt main_v39 main_v40
  let main_c_15 : IVec S_ 1 := constantI S_ 1 1#1
  let main_v42 : IVec S_ 1 := (fun x v => Host.reduce IntOp.andi x v reducesTo_S1000000_S_d0 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_v48 main_v49 main_v50

def fn_part1 {F : FTy → Type} [FloatOps F] (main_arg4 : FVec F S1000000 .f32) (main_arg5 : FVec F S1000000 .f32) (main_arg6 : FVec F S1000000 .f32) (main_arg7 : FVec F S1000000 .f32) (main_arg8 : FVec F S1000000 .f32) (main_arg9 : FVec F S512 .f32) (main_arg10 : FVec F S512 .f32) (main_arg11 : FVec F S512x512 .f32) (main_v13 : IVec S_ 1) (main_v16 : IVec S1000000 1) : IVec S_ 1 :=
  let main_c_5 : IVec S_ 1 := constantI S_ 1 1#1
  let main_v17 : IVec S_ 1 := (fun x v => Host.reduce IntOp.andi x v reducesTo_S1000000_S_d0 h_S_) main_v16 main_c_5
  let main_v18 : IVec S_ 1 := andi main_v13 main_v17
  let main_v19 : FVec F S1000000 .f32 := Host.absf main_arg4
  let main_cst_6 : FVec F S_ .f32 := constant S_ .f32 0x7F800000#32
  let main_v20 : FVec F S1000000 .f32 := broadcastInDim S1000000 ![] bcast_S_S1000000 main_cst_6
  let main_v21 : IVec S1000000 1 := cmpf .olt main_v19 main_v20
  let main_c_7 : IVec S_ 1 := constantI S_ 1 1#1
  let main_v22 : IVec S_ 1 := (fun x v => Host.reduce IntOp.andi x v reducesTo_S1000000_S_d0 h_S_) main_v21 main_c_7
  let main_v23 : IVec S_ 1 := andi main_v18 main_v22
  let main_v24 : FVec F S1000000 .f32 := Host.absf main_arg5
  let main_cst_8 : FVec F S_ .f32 := constant S_ .f32 0x7F800000#32
  let main_v25 : FVec F S1000000 .f32 := broadcastInDim S1000000 ![] bcast_S_S1000000 main_cst_8
  let main_v26 : IVec S1000000 1 := cmpf .olt main_v24 main_v25
  let main_c_9 : IVec S_ 1 := constantI S_ 1 1#1
  let main_v27 : IVec S_ 1 := (fun x v => Host.reduce IntOp.andi x v reducesTo_S1000000_S_d0 h_S_) main_v26 main_c_9
  let main_v28 : IVec S_ 1 := andi main_v23 main_v27
  let main_v29 : FVec F S1000000 .f32 := Host.absf main_arg6
  let main_cst_10 : FVec F S_ .f32 := constant S_ .f32 0x7F800000#32
  let main_v30 : FVec F S1000000 .f32 := broadcastInDim S1000000 ![] bcast_S_S1000000 main_cst_10
  let main_v31 : IVec S1000000 1 := cmpf .olt main_v29 main_v30
  let main_c_11 : IVec S_ 1 := constantI S_ 1 1#1
  let main_v32 : IVec S_ 1 := (fun x v => Host.reduce IntOp.andi x v reducesTo_S1000000_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S2000000 .f32) (main_arg1 : FVec F S1000000 .f32) (main_arg2 : FVec F S1000000 .f32) (main_arg3 : FVec F S1000000 .f32) (main_arg4 : FVec F S1000000 .f32) (main_arg5 : FVec F S1000000 .f32) (main_arg6 : FVec F S1000000 .f32) (main_arg7 : FVec F S1000000 .f32) (main_arg8 : FVec F S1000000 .f32) (main_arg9 : FVec F S512 .f32) (main_arg10 : FVec F S512 .f32) (main_arg11 : FVec F S512x512 .f32) : IVec S_ 1 :=
  let main_v0 : FVec F S2000000 .f32 := Host.absf main_arg0
  let main_cst : FVec F S_ .f32 := constant S_ .f32 0x7F800000#32
  let main_v1 : FVec F S2000000 .f32 := broadcastInDim S2000000 ![] bcast_S_S2000000 main_cst
  let main_v2 : IVec S2000000 1 := cmpf .olt main_v0 main_v1
  let main_c : IVec S_ 1 := constantI S_ 1 1#1
  let main_v3 : IVec S_ 1 := (fun x v => Host.reduce IntOp.andi x v reducesTo_S2000000_S_d0 h_S_) main_v2 main_c
  let main_v4 : FVec F S1000000 .f32 := Host.absf main_arg1
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S1000000 .f32 := Host.absf main_arg2
  let main_cst_2 : FVec F S_ .f32 := constant S_ .f32 0x7F800000#32
  let main_v10 : FVec F S1000000 .f32 := broadcastInDim S1000000 ![] bcast_S_S1000000 main_cst_2
  let main_v11 : IVec S1000000 1 := cmpf .olt main_v9 main_v10
  let main_c_3 : IVec S_ 1 := constantI S_ 1 1#1
  let main_v12 : IVec S_ 1 := (fun x v => Host.reduce IntOp.andi x v reducesTo_S1000000_S_d0 h_S_) main_v11 main_c_3
  let main_v13 : IVec S_ 1 := andi main_v8 main_v12
  let main_v14 : FVec F S1000000 .f32 := Host.absf main_arg3
  let main_cst_4 : FVec F S_ .f32 := constant S_ .f32 0x7F800000#32
  let main_v15 : FVec F S1000000 .f32 := broadcastInDim S1000000 ![] bcast_S_S1000000 main_cst_4
  let main_v16 : IVec S1000000 1 := cmpf .olt main_v14 main_v15
  fn_part1 (F := F) main_arg4 main_arg5 main_arg6 main_arg7 main_arg8 main_arg9 main_arg10 main_arg11 main_v13 main_v16
-- ==== Kernel.lean ====
abbrev S2000000 : Shape := ⟨1, ![2000000]⟩
abbrev S1000000 : Shape := ⟨1, ![1000000]⟩
abbrev S512 : Shape := ⟨1, ![512]⟩
abbrev S512x512 : Shape := ⟨2, ![512, 512]⟩
abbrev S1x1000000 : Shape := ⟨2, ![1, 1000000]⟩
abbrev S10x1000000 : Shape := ⟨2, ![10, 1000000]⟩
abbrev S_ : Shape := ⟨0, ![]⟩
abbrev S10x1003520 : Shape := ⟨2, ![10, 1003520]⟩
abbrev S1x512 : Shape := ⟨2, ![1, 512]⟩
abbrev S2x512x512 : Shape := ⟨3, ![2, 512, 512]⟩
abbrev S10x2048 : Shape := ⟨2, ![10, 2048]⟩
abbrev S1x512x512 : Shape := ⟨3, ![1, 512, 512]⟩
abbrev S1x2048 : Shape := ⟨2, ![1, 2048]⟩
abbrev S2048 : Shape := ⟨1, ![2048]⟩
abbrev S1024 : Shape := ⟨1, ![1024]⟩
abbrev S1024x1 : Shape := ⟨2, ![1024, 1]⟩
abbrev S1024x512 : Shape := ⟨2, ![1024, 512]⟩

abbrev nBuf : Space → Nat
  | .hbm => 40
  | .vmem => 7
  | .smem => 0
  | _ => 0

abbrev bufTy : (tb : Table) → Fin (tcTables nBuf tb) → BufTy
  | .hbm, ⟨0, _⟩ => ⟨S2000000, .f32⟩
  | .hbm, ⟨1, _⟩ => ⟨S1000000, .f32⟩
  | .hbm, ⟨2, _⟩ => ⟨S1000000, .f32⟩
  | .hbm, ⟨3, _⟩ => ⟨S1000000, .f32⟩
  | .hbm, ⟨4, _⟩ => ⟨S1000000, .f32⟩
  | .hbm, ⟨5, _⟩ => ⟨S1000000, .f32⟩
  | .hbm, ⟨6, _⟩ => ⟨S1000000, .f32⟩
  | .hbm, ⟨7, _⟩ => ⟨S1000000, .f32⟩
  | .hbm, ⟨8, _⟩ => ⟨S1000000, .f32⟩
  | .hbm, ⟨9, _⟩ => ⟨S512, .f32⟩
  | .hbm, ⟨10, _⟩ => ⟨S512, .f32⟩
  | .hbm, ⟨11, _⟩ => ⟨S512x512, .f32⟩
  | .hbm, ⟨12, _⟩ => ⟨S1000000, .f32⟩
  | .hbm, ⟨13, _⟩ => ⟨S1000000, .f32⟩
  | .hbm, ⟨14, _⟩ => ⟨S1x1000000, .f32⟩
  | .hbm, ⟨15, _⟩ => ⟨S1x1000000, .f32⟩
  | .hbm, ⟨16, _⟩ => ⟨S1x1000000, .f32⟩
  | .hbm, ⟨17, _⟩ => ⟨S1x1000000, .f32⟩
  | .hbm, ⟨18, _⟩ => ⟨S1x1000000, .f32⟩
  | .hbm, ⟨19, _⟩ => ⟨S1x1000000, .f32⟩
  | .hbm, ⟨20, _⟩ => ⟨S1x1000000, .f32⟩
  | .hbm, ⟨21, _⟩ => ⟨S1x1000000, .f32⟩
  | .hbm, ⟨22, _⟩ => ⟨S1x1000000, .f32⟩
  | .hbm, ⟨23, _⟩ => ⟨S1x1000000, .f32⟩
  | .hbm, ⟨24, _⟩ => ⟨S10x1000000, .f32⟩
  | .hbm, ⟨25, _⟩ => ⟨S_, .i32⟩
  | .hbm, ⟨26, _⟩ => ⟨S_, .f32⟩
  | .hbm, ⟨27, _⟩ => ⟨S10x1003520, .f32⟩
  | .hbm, ⟨28, _⟩ => ⟨S1x512, .f32⟩
  | .hbm, ⟨29, _⟩ => ⟨S1x512, .f32⟩
  | .hbm, ⟨30, _⟩ => ⟨S2x512x512, .f32⟩
  | .hbm, ⟨31, _⟩ => ⟨S_, .f32⟩
  | .hbm, ⟨32, _⟩ => ⟨S512x512, .f32⟩
  | .hbm, ⟨33, _⟩ => ⟨S512x512, .f32⟩
  | .hbm, ⟨34, _⟩ => ⟨S_, .f32⟩
  | .hbm, ⟨35, _⟩ => ⟨S512x512, .f32⟩
  | .hbm, ⟨36, _⟩ => ⟨S512x512, .f32⟩
  | .hbm, ⟨37, _⟩ => ⟨S512x512, .f32⟩
  | .hbm, ⟨38, _⟩ => ⟨S_, .f32⟩
  | .hbm, ⟨39, _⟩ => ⟨S_, .f32⟩
  | .local _ .vmem, ⟨0, _⟩ => ⟨S10x2048, .f32⟩
  | .local _ .vmem, ⟨1, _⟩ => ⟨S10x2048, .f32⟩
  | .local _ .vmem, ⟨2, _⟩ => ⟨S1x512, .f32⟩
  | .local _ .vmem, ⟨3, _⟩ => ⟨S1x512, .f32⟩
  | .local _ .vmem, ⟨4, _⟩ => ⟨S1x512x512, .f32⟩
  | .local _ .vmem, ⟨5, _⟩ => ⟨S1x512x512, .f32⟩
  | .local _ .vmem, ⟨6, _⟩ => ⟨S512x512, .f32⟩
  | _, _ => ⟨S2000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_call0_v0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst : Ref sig .tc := ⟨.hbm, 31, rfl⟩
abbrev main_v17 : Ref sig .tc := ⟨.hbm, 32, rfl⟩
abbrev main_v18 : Ref sig .tc := ⟨.hbm, 33, rfl⟩
abbrev main_cst_0 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_1 : Ref sig .tc := ⟨.hbm, 38, rfl⟩
abbrev main_v22 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 245], ![false, false]⟩

def k0_cond2 (i : grid0.Coords) : BitVec 1 :=
  let arg1 : BitVec 32 := BitVec.ofNat 32 (i 1).val
  let c244_i32 : BitVec 32 := 244#32
  let v359 : BitVec 1 := Scalar.cmpi .eq arg1 c244_i32
  let v360 : BitVec 32 := Scalar.extui v359
  let c0_i32_78 : BitVec 32 := 0#32
  let v361 : BitVec 1 := Scalar.cmpi .ne v360 c0_i32_78
  v361

def cc0_transform_0 (i : grid0.Coords) : Fin 2 → Nat :=
  let arg0 : BitVec 32 := BitVec.ofNat 32 (i 0).val
  let arg1 : BitVec 32 := BitVec.ofNat 32 (i 1).val
  let c245_i32 : BitVec 32 := 245#32
  let v0 : BitVec 32 := Scalar.muli arg0 c245_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S10x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  slices_S2000000_S1000000_0 : S2000000.Slices ![0] S1000000
  slices_S2000000_S1000000_1000000 : S2000000.Slices ![1000000] S1000000
  bcast_S1000000_S1x1000000_1 : S1000000.BroadcastsInDim S1x1000000 (![1] : Fin 1 → Fin S1x1000000.rank)
  concatenates_S1x1000000_S1x1000000_S1x1000000_S1x1000000_S1x1000000_S1x1000000_S1x1000000_S1x1000000_S1x1000000_S1x1000000_S10x1000000_d0 : Shape.Concatenates [S1x1000000, S1x1000000, S1x1000000, S1x1000000, S1x1000000, S1x1000000, S1x1000000, S1x1000000, S1x1000000, S1x1000000] S10x1000000 0
  pads_S10x1000000_S10x1003520_000_035200 : S10x1000000.Pads (![0, 0] : Fin 2 → Nat) ![0, 3520] ![0, 0] S10x1003520
  h_S_ : 0 < S_.numel
  shapeCasts_S512_S1x512 : S512.ShapeCasts S1x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S10x2048_S1x2048_0_0 : ∀ a, (![0, 0] : Fin 2 → Nat) a + S1x2048.size a ≤ S10x2048.size a
  h_S1x2048 : 0 < S1x2048.numel
  shapeCasts_S1x2048_S2048 : S1x2048.ShapeCasts S2048
  inb_S10x2048_S1x2048_1_0 : ∀ a, (![1, 0] : Fin 2 → Nat) a + S1x2048.size a ≤ S10x2048.size a
  inb_S10x2048_S1x2048_2_0 : ∀ a, (![2, 0] : Fin 2 → Nat) a + S1x2048.size a ≤ S10x2048.size a
  inb_S10x2048_S1x2048_3_0 : ∀ a, (![3, 0] : Fin 2 → Nat) a + S1x2048.size a ≤ S10x2048.size a
  inb_S10x2048_S1x2048_4_0 : ∀ a, (![4, 0] : Fin 2 → Nat) a + S1x2048.size a ≤ S10x2048.size a
  inb_S10x2048_S1x2048_5_0 : ∀ a, (![5, 0] : Fin 2 → Nat) a + S1x2048.size a ≤ S10x2048.size a
  inb_S10x2048_S1x2048_6_0 : ∀ a, (![6, 0] : Fin 2 → Nat) a + S1x2048.size a ≤ S10x2048.size a
  inb_S10x2048_S1x2048_7_0 : ∀ a, (![7, 0] : Fin 2 → Nat) a + S1x2048.size a ≤ S10x2048.size a
  inb_S10x2048_S1x2048_8_0 : ∀ a, (![8, 0] : Fin 2 → Nat) a + S1x2048.size a ≤ S10x2048.size a
  inb_S10x2048_S1x2048_9_0 : ∀ a, (![9, 0] : Fin 2 → Nat) a + S1x2048.size a ≤ S10x2048.size a
  slices_S2048_o0_S1024 : S2048.Slices ![0] S1024
  iota_S1024x1_d0_w32 : S1024x1.Iotas .tc 32 [0]
  natLt_1_32 : 1 < 32
  shapeCasts_S1024_S1024x1 : S1024.ShapeCasts S1024x1
  iota_S1x512_d1_w32 : S1x512.Iotas .tc 32 [1]
  broadcasts_S1024x1_S1024x512 : S1024x1.Broadcasts S1024x512
  broadcasts_S1x512_S1024x512 : S1x512.Broadcasts S1024x512
  bitsLt_bf16_f32 : FTy.bits .bf16 < FTy.bits .f32
  slices_S2048_o1024_S1024 : S2048.Slices ![1024] S1024
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  reducesTo_S2x512x512_S512x512_d0 : S2x512x512.ReducesTo [0] S512x512
  bcast_S_S512x512 : S_.BroadcastsInDim S512x512 (![] : Fin 0 → Fin S512x512.rank)
  reducesTo_S512x512_S_d0_1 : S512x512.ReducesTo [0, 1] S_
  dot_S1024x512_S1024x512_S512x512_0_0_1_1_n_n_wf : DotDims.WF S1024x512 S1024x512 S512x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10x2048.size a ≤ S10x1003520.size a
  hwx0_0 : ∀ i : grid0.Coords, EltTy.bits .f32 = 32 ∨ (Rect.block (s := S10x1003520) S10x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x512.size a
  hwx0_1 : ∀ i : grid0.Coords, EltTy.bits .f32 = 32 ∨ (Rect.block (s := S1x512) S1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S2x512x512.size a
  hwx0_3 : ∀ i : grid0.Coords, EltTy.bits .f32 = 32 ∨ (Rect.block (s := S2x512x512) S1x512x512.size (cc0_transform_3 i) (hinb0_3 i)).WholeWords (EltTy.packing .f32)

variable [Facts₀]

def dot_S1024x512_S1024x512_S512x512_0_0_1_1_n_n : DotDims S1024x512 S1024x512 S512x512 where
  lhsContracting := [0]
  rhsContracting := [0]
  lhsNonContracting := [1]
  rhsNonContracting := [1]
  lhsBatch := []
  rhsBatch := []
  wf := dot_S1024x512_S1024x512_S512x512_0_0_1_1_n_n_wf

abbrev win0_0 : Pipeline.Window sig grid0 :=
  Pipeline.Window.ofSpec (Memref.whole main_v13) S10x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2000000 : Shape := ⟨1, ![2000000]⟩
abbrev S1000000 : Shape := ⟨1, ![1000000]⟩
abbrev S512 : Shape := ⟨1, ![512]⟩
abbrev S512x512 : Shape := ⟨2, ![512, 512]⟩
abbrev S_ : Shape := ⟨0, ![]⟩
abbrev S1000000x1 : Shape := ⟨2, ![1000000, 1]⟩
abbrev S5 : Shape := ⟨1, ![5]⟩
abbrev S1x5 : Shape := ⟨2, ![1, 5]⟩
abbrev S1000000x5 : Shape := ⟨2, ![1000000, 5]⟩
abbrev S1000000x5x1 : Shape := ⟨3, ![1000000, 5, 1]⟩
abbrev S1000000x1x5 : Shape := ⟨3, ![1000000, 1, 5]⟩
abbrev S1000000x5x5 : Shape := ⟨3, ![1000000, 5, 5]⟩
abbrev S25000000 : Shape := ⟨1, ![25000000]⟩
abbrev S262144 : Shape := ⟨1, ![262144]⟩
abbrev S25000000x1 : Shape := ⟨2, ![25000000, 1]⟩

abbrev nBuf : Space → Nat
  | .hbm => 208
  | .vmem => 0
  | .smem => 0
  | _ => 0

abbrev hbmTy0_0 (i : Nat) : BufTy := match i % 128 with
  | 0 => ⟨S2000000, .f32⟩
  | 1 => ⟨S1000000, .f32⟩
  | 2 => ⟨S1000000, .f32⟩
  | 3 => ⟨S1000000, .f32⟩
  | 4 => ⟨S1000000, .f32⟩
  | 5 => ⟨S1000000, .f32⟩
  | 6 => ⟨S1000000, .f32⟩
  | 7 => ⟨S1000000, .f32⟩
  | 8 => ⟨S1000000, .f32⟩
  | 9 => ⟨S512, .f32⟩
  | 10 => ⟨S512, .f32⟩
  | 11 => ⟨S512x512, .f32⟩
  | 12 => ⟨S1000000, .f32⟩
  | 13 => ⟨S1000000, .f32⟩
  | 14 => ⟨S_, .f32⟩
  | 15 => ⟨S1000000, .f32⟩
  | 16 => ⟨S1000000, .f32⟩
  | 17 => ⟨S1000000, .f32⟩
  | 18 => ⟨S_, .f32⟩
  | 19 => ⟨S1000000, .f32⟩
  | 20 => ⟨S1000000, .f32⟩
  | 21 => ⟨S_, .f32⟩
  | 22 => ⟨S1000000, .f32⟩
  | 23 => ⟨S1000000, .f32⟩
  | 24 => ⟨S_, .f32⟩
  | 25 => ⟨S1000000, .f32⟩
  | 26 => ⟨S1000000, .f32⟩
  | 27 => ⟨S1000000, .f32⟩
  | 28 => ⟨S1000000, .i32⟩
  | 29 => ⟨S_, .i32⟩
  | 30 => ⟨S_, .i32⟩
  | 31 => ⟨S_, .i32⟩
  | 32 => ⟨S1000000, .i32⟩
  | 33 => ⟨S1000000, .i32⟩
  | 34 => ⟨S_, .i32⟩
  | 35 => ⟨S1000000, .i32⟩
  | 36 => ⟨S1000000, .i32⟩
  | 37 => ⟨S1000000x1, .i32⟩
  | 38 => ⟨S5, .i32⟩
  | 39 => ⟨S1x5, .i32⟩
  | 40 => ⟨S1000000x5, .i32⟩
  | 41 => ⟨S1000000x5, .i32⟩
  | 42 => ⟨S1000000x5, .i32⟩
  | 43 => ⟨S1000000x1, .f32⟩
  | 44 => ⟨S_, .i32⟩
  | 45 => ⟨S1000000x5, .i32⟩
  | 46 => ⟨S1000000x5, .i1⟩
  | 47 => ⟨S_, .i32⟩
  | 48 => ⟨S1000000x5, .i32⟩
  | 49 => ⟨S1000000x5, .i32⟩
  | 50 => ⟨S1000000x5, .i32⟩
  | 51 => ⟨S1000000x5x1, .i32⟩
  | 52 => ⟨S1000000x5, .f32⟩
  | 53 => ⟨S1000000x5, .f32⟩
  | 54 => ⟨S1000000x5, .f32⟩
  | 55 => ⟨S1000000x5, .f32⟩
  | 56 => ⟨S_, .f32⟩
  | 57 => ⟨S1000000, .f32⟩
  | 58 => ⟨S1000000, .f32⟩
  | 59 => ⟨S_, .f32⟩
  | 60 => ⟨S1000000, .f32⟩
  | 61 => ⟨S1000000, .f32⟩
  | 62 => ⟨S1000000x1, .f32⟩
  | 63 => ⟨S_, .f32⟩
  | 64 => ⟨S1000000, .f32⟩
  | 65 => ⟨S1000000, .f32⟩
  | 66 => ⟨S_, .f32⟩
  | 67 => ⟨S1000000, .f32⟩
  | 68 => ⟨S1000000, .f32⟩
  | 69 => ⟨S1000000x1, .f32⟩
  | 70 => ⟨S1000000x5, .f32⟩
  | 71 => ⟨S1000000x5, .i1⟩
  | 72 => ⟨S1000000x1, .f32⟩
  | 73 => ⟨S1000000x1, .f32⟩
  | 74 => ⟨S1000000x5, .f32⟩
  | 75 => ⟨S1000000x5, .f32⟩
  | 76 => ⟨S1000000x5, .f32⟩
  | 77 => ⟨S_, .f32⟩
  | 78 => ⟨S1000000x5, .f32⟩
  | 79 => ⟨S1000000x5, .f32⟩
  | 80 => ⟨S1000000x5, .f32⟩
  | 81 => ⟨S1000000x5, .f32⟩
  | 82 => ⟨S1000000x5, .f32⟩
  | 83 => ⟨S1000000x5, .i1⟩
  | 84 => ⟨S1000000, .f32⟩
  | 85 => ⟨S1000000x1, .f32⟩
  | 86 => ⟨S1000000x5, .f32⟩
  | 87 => ⟨S1000000x5, .f32⟩
  | 88 => ⟨S1000000x5, .f32⟩
  | 89 => ⟨S1000000x5, .f32⟩
  | 90 => ⟨S1000000x5, .f32⟩
  | 91 => ⟨S_, .f32⟩
  | 92 => ⟨S1000000x5, .f32⟩
  | 93 => ⟨S1000000x5, .f32⟩
  | 94 => ⟨S1000000x5, .f32⟩
  | 95 => ⟨S_, .f32⟩
  | 96 => ⟨S1000000, .f32⟩
  | 97 => ⟨S1000000, .f32⟩
  | 98 => ⟨S1000000, .f32⟩
  | 99 => ⟨S_, .f32⟩
  | 100 => ⟨S1000000, .f32⟩
  | 101 => ⟨S1000000, .f32⟩
  | 102 => ⟨S_, .f32⟩
  | 103 => ⟨S1000000, .f32⟩
  | 104 => ⟨S1000000, .f32⟩
  | 105 => ⟨S_, .f32⟩
  | 106 => ⟨S1000000, .f32⟩
  | 107 => ⟨S1000000, .f32⟩
  | 108 => ⟨S1000000, .f32⟩
  | 109 => ⟨S1000000, .i32⟩
  | 110 => ⟨S_, .i32⟩
  | 111 => ⟨S_, .i32⟩
  | 112 => ⟨S_, .i32⟩
  | 113 => ⟨S1000000, .i32⟩
  | 114 => ⟨S1000000, .i32⟩
  | 115 => ⟨S_, .i32⟩
  | 116 => ⟨S1000000, .i32⟩
  | 117 => ⟨S1000000, .i32⟩
  | 118 => ⟨S1000000x1, .i32⟩
  | 119 => ⟨S5, .i32⟩
  | 120 => ⟨S1x5, .i32⟩
  | 121 => ⟨S1000000x5, .i32⟩
  | 122 => ⟨S1000000x5, .i32⟩
  | 123 => ⟨S1000000x5, .i32⟩
  | 124 => ⟨S1000000x1, .f32⟩
  | 125 => ⟨S_, .i32⟩
  | 126 => ⟨S1000000x5, .i32⟩
  | 127 => ⟨S1000000x5, .i1⟩
  | _ => ⟨S2000000, .f32⟩

abbrev hbmTy0_1 (i : Nat) : BufTy := match i % 128 with
  | 0 => ⟨S_, .i32⟩
  | 1 => ⟨S1000000x5, .i32⟩
  | 2 => ⟨S1000000x5, .i32⟩
  | 3 => ⟨S1000000x5, .i32⟩
  | 4 => ⟨S1000000x5x1, .i32⟩
  | 5 => ⟨S1000000x5, .f32⟩
  | 6 => ⟨S1000000x5, .f32⟩
  | 7 => ⟨S1000000x5, .f32⟩
  | 8 => ⟨S1000000x5, .f32⟩
  | 9 => ⟨S_, .f32⟩
  | 10 => ⟨S1000000, .f32⟩
  | 11 => ⟨S1000000, .f32⟩
  | 12 => ⟨S_, .f32⟩
  | 13 => ⟨S1000000, .f32⟩
  | 14 => ⟨S1000000, .f32⟩
  | 15 => ⟨S1000000x1, .f32⟩
  | 16 => ⟨S_, .f32⟩
  | 17 => ⟨S1000000, .f32⟩
  | 18 => ⟨S1000000, .f32⟩
  | 19 => ⟨S_, .f32⟩
  | 20 => ⟨S1000000, .f32⟩
  | 21 => ⟨S1000000, .f32⟩
  | 22 => ⟨S1000000x1, .f32⟩
  | 23 => ⟨S1000000x5, .f32⟩
  | 24 => ⟨S1000000x5, .i1⟩
  | 25 => ⟨S1000000x1, .f32⟩
  | 26 => ⟨S1000000x1, .f32⟩
  | 27 => ⟨S1000000x5, .f32⟩
  | 28 => ⟨S1000000x5, .f32⟩
  | 29 => ⟨S1000000x5, .f32⟩
  | 30 => ⟨S_, .f32⟩
  | 31 => ⟨S1000000x5, .f32⟩
  | 32 => ⟨S1000000x5, .f32⟩
  | 33 => ⟨S1000000x5, .f32⟩
  | 34 => ⟨S1000000x5, .f32⟩
  | 35 => ⟨S1000000x5, .f32⟩
  | 36 => ⟨S1000000x5, .i1⟩
  | 37 => ⟨S1000000, .f32⟩
  | 38 => ⟨S1000000x1, .f32⟩
  | 39 => ⟨S1000000x5, .f32⟩
  | 40 => ⟨S1000000x5, .f32⟩
  | 41 => ⟨S1000000x5, .f32⟩
  | 42 => ⟨S1000000x5, .f32⟩
  | 43 => ⟨S1000000x5, .f32⟩
  | 44 => ⟨S_, .f32⟩
  | 45 => ⟨S1000000x5, .f32⟩
  | 46 => ⟨S1000000x5, .f32⟩
  | 47 => ⟨S1000000x5, .f32⟩
  | 48 => ⟨S1000000x5x1, .i32⟩
  | 49 => ⟨S_, .i32⟩
  | 50 => ⟨S1000000x5x1, .i32⟩
  | 51 => ⟨S1000000x5x1, .i32⟩
  | 52 => ⟨S1000000x1x5, .i32⟩
  | 53 => ⟨S1000000x5x5, .i32⟩
  | 54 => ⟨S1000000x5x5, .i32⟩
  | 55 => ⟨S1000000x5x5, .i32⟩
  | 56 => ⟨S25000000, .i32⟩
  | 57 => ⟨S1000000x5x1, .f32⟩
  | 58 => ⟨S1000000x1x5, .f32⟩
  | 59 => ⟨S1000000x5x5, .f32⟩
  | 60 => ⟨S1000000x5x5, .f32⟩
  | 61 => ⟨S1000000x5x5, .f32⟩
  | 62 => ⟨S25000000, .f32⟩
  | 63 => ⟨S262144, .f32⟩
  | 64 => ⟨S_, .i32⟩
  | 65 => ⟨S25000000, .i32⟩
  | 66 => ⟨S25000000, .i1⟩
  | 67 => ⟨S_, .i32⟩
  | 68 => ⟨S25000000, .i32⟩
  | 69 => ⟨S25000000, .i32⟩
  | 70 => ⟨S25000000, .i32⟩
  | 71 => ⟨S25000000x1, .i32⟩
  | 72 => ⟨S262144, .f32⟩
  | 73 => ⟨S512x512, .f32⟩
  | 74 => ⟨S_, .f32⟩
  | 75 => ⟨S512x512, .f32⟩
  | 76 => ⟨S512x512, .f32⟩
  | 77 => ⟨S512x512, .f32⟩
  | 78 => ⟨S_, .f32⟩
  | 79 => ⟨S_, .f32⟩
  | _ => ⟨S2000000, .f32⟩

abbrev hbmTy (i : Nat) : BufTy := match i / 128 with
  | 0 => hbmTy0_0 i
  | 1 => hbmTy0_1 i
  | _ => ⟨S2000000, .f32⟩

abbrev bufTy : (tb : Table) → Fin (tcTables nBuf tb) → BufTy
  | .hbm, ⟨i, _⟩ => hbmTy i
  | _, _ => ⟨S2000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_c_3 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c_4 : Ref sig .tc := ⟨.hbm, 44, rfl⟩
abbrev main_v21 : Ref sig .tc := ⟨.hbm, 45, rfl⟩
abbrev main_v22 : Ref sig .tc := ⟨.hbm, 46, rfl⟩
abbrev main_c_5 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_6 : Ref sig .tc := ⟨.hbm, 56, rfl⟩
abbrev main_v31 : Ref sig .tc := ⟨.hbm, 57, rfl⟩
abbrev main_v32 : Ref sig .tc := ⟨.hbm, 58, rfl⟩
abbrev main_cst_7 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_8 : Ref sig .tc := ⟨.hbm, 63, rfl⟩
abbrev main_v36 : Ref sig .tc := ⟨.hbm, 64, rfl⟩
abbrev main_v37 : Ref sig .tc := ⟨.hbm, 65, rfl⟩
abbrev main_cst_9 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_10 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_11 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_12 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_13 : Ref sig .tc := ⟨.hbm, 99, rfl⟩
abbrev main_v67 : Ref sig .tc := ⟨.hbm, 100, rfl⟩
abbrev main_v68 : Ref sig .tc := ⟨.hbm, 101, rfl⟩
abbrev main_cst_14 : Ref sig .tc := ⟨.hbm, 102, rfl⟩
abbrev main_v69 : Ref sig .tc := ⟨.hbm, 103, rfl⟩
abbrev main_v70 : Ref sig .tc := ⟨.hbm, 104, rfl⟩
abbrev main_cst_15 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_c_16 : Ref sig .tc := ⟨.hbm, 110, rfl⟩
abbrev main_c_17 : Ref sig .tc := ⟨.hbm, 111, rfl⟩
abbrev main_call3_v0 : Ref sig .tc := ⟨.hbm, 112, rfl⟩
abbrev main_call3_v1 : Ref sig .tc := ⟨.hbm, 113, rfl⟩
abbrev main_call3_v2 : Ref sig .tc := ⟨.hbm, 114, rfl⟩
abbrev main_call3_v3 : Ref sig .tc := ⟨.hbm, 115, rfl⟩
abbrev main_call3_v4 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_c_18 : Ref sig .tc := ⟨.hbm, 125, rfl⟩
abbrev main_v83 : Ref sig .tc := ⟨.hbm, 126, rfl⟩
abbrev main_v84 : Ref sig .tc := ⟨.hbm, 127, rfl⟩
abbrev main_c_19 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_cst_20 : Ref sig .tc := ⟨.hbm, 137, rfl⟩
abbrev main_v93 : Ref sig .tc := ⟨.hbm, 138, rfl⟩
abbrev main_v94 : Ref sig .tc := ⟨.hbm, 139, rfl⟩
abbrev main_cst_21 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_cst_22 : Ref sig .tc := ⟨.hbm, 144, rfl⟩
abbrev main_v98 : Ref sig .tc := ⟨.hbm, 145, rfl⟩
abbrev main_v99 : Ref sig .tc := ⟨.hbm, 146, rfl⟩
abbrev main_cst_23 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_cst_24 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_cst_25 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_c_26 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_c_27 : Ref sig .tc := ⟨.hbm, 192, rfl⟩
abbrev main_v141 : Ref sig .tc := ⟨.hbm, 193, rfl⟩
abbrev main_v142 : Ref sig .tc := ⟨.hbm, 194, rfl⟩
abbrev main_c_28 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_cst_29 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_cst_30 : Ref sig .tc := ⟨.hbm, 206, rfl⟩
abbrev main_v152 : Ref sig .tc := ⟨.hbm, 207, rfl⟩

abbrev nD : Nat := 1
abbrev τ : Topo := Topo.v7x

variable {F : FTy → Type} [FloatOps F]

class Facts₀ : Prop where
  slices_S2000000_S1000000_0 : S2000000.Slices ![0] S1000000
  slices_S2000000_S1000000_1000000 : S2000000.Slices ![1000000] S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S5_S1x5_1 : S5.BroadcastsInDim S1x5 (![1] : Fin 1 → Fin S1x5.rank)
  bcast_S1000000x1_S1000000x5_0_1 : S1000000x1.BroadcastsInDim S1000000x5 (![0, 1] : Fin 2 → Fin S1000000x5.rank)
  bcast_S1x5_S1000000x5_0_1 : S1x5.BroadcastsInDim S1000000x5 (![0, 1] : Fin 2 → Fin S1000000x5.rank)
  bcast_S_S1000000x5 : S_.BroadcastsInDim S1000000x5 (![] : Fin 0 → Fin S1000000x5.rank)
  bcast_S1000000x5_S1000000x5x1_0_1 : S1000000x5.BroadcastsInDim S1000000x5x1 (![0, 1] : Fin 2 → Fin S1000000x5x1.rank)
  bcast_S_S1000000x5x1 : S_.BroadcastsInDim S1000000x5x1 (![] : Fin 0 → Fin S1000000x5x1.rank)
  bcast_S1000000x5_S1000000x1x5_0_2 : S1000000x5.BroadcastsInDim S1000000x1x5 (![0, 2] : Fin 2 → Fin S1000000x1x5.rank)
  bcast_S1000000x5x1_S1000000x5x5_0_1_2 : S1000000x5x1.BroadcastsInDim S1000000x5x5 (![0, 1, 2] : Fin 3 → Fin S1000000x5x5.rank)
  bcast_S1000000x1x5_S1000000x5x5_0_1_2 : S1000000x1x5.BroadcastsInDim S1000000x5x5 (![0, 1, 2] : Fin 3 → Fin S1000000x5x5.rank)
  shapeCasts_S1000000x5x5_S25000000 : S1000000x5x5.ShapeCasts S25000000
  shapeCasts_S512x512_S262144 : S512x512.ShapeCasts S262144
  bcast_S_S25000000 : S_.BroadcastsInDim S25000000 (![] : Fin 0 → Fin S25000000.rank)
  bcast_S25000000_S25000000x1_0 : S25000000.BroadcastsInDim S25000000x1 (![0] : Fin 1 → Fin S25000000x1.rank)
  shapeCasts_S262144_S512x512 : S262144.ShapeCasts S512x512
  bcast_S_S512x512 : S_.BroadcastsInDim S512x512 (![] : Fin 0 → Fin S512x512.rank)
  reducesTo_S512x512_S_d0_1 : S512x512.ReducesTo [0, 1] S_
  h_S_ : 0 < S_.numel
  gather_S512_S1000000x5x1_S1000000x5_n_0_n_n_0_2_1_wf : GatherDims.WF S512 S1000000x5x1 S1000000x5 [] [0] [] [0] [] 2 ![1]
  scatter_S262144_S25000000x1_S25000000_n_0_0_1_wf : ScatterDims.WF S262144 S25000000x1 S25000000 [] [0] [0] 1

variable [Facts₀]

def gather_S512_S1000000x5x1_S1000000x5_n_0_n_n_0_2_1 : GatherDims S512 S1000000x5x1 S1000000x5 where
  offsetDims := []
  collapsedSliceDims := [0]
  operandBatchingDims := []
  startIndicesBatchingDims := []
  startIndexMap := [0]
  indexVectorDim := 2
  sliceSizes := ![1]
  wf := gather_S512_S1000000x5x1_S1000000x5_n_0_n_n_0_2_1_wf
def scatter_S262144_S25000000x1_S25000000_n_0_0_1 : ScatterDims S262144 S25000000x1 S25000000 where
  updateWindowDims := []
  insertedWindowDims := [0]
  scatterDimsToOperandDims := [0]
  indexVectorDim := 1
  wf := scatter_S262144_S25000000x1_S25000000_n_0_0_1_wf

class Facts : Prop extends Facts₀ where

variable [Facts]
-- ==== Proof.K.Kit.lean ====
/-
  The frame of the program around its one region: the host operations before the region (the two halves of
  the position array and the eight per-node arrays stacked into ten rows and padded to a whole number of
  chunks, the two bin-centre rows reshaped), the region, and the host operations after it (the two cores'
  partial maps summed, the initial map added, the target subtracted, squared and summed). Here: what the
  region finds in each buffer, that the program is those three stretches, that the stretch after the region
  touches no window array and leaves the arguments alone, each input window's block at a grid point, the
  two branch conditions of the body in closed form (the accumulator is reset at the first point of a
  core's row of 245 points, the block is stored out at the last), and where the output window is idle.
-/
import proofs.«406928_j20959440404551_3_alg».proof.Proof.Gen.Kernel.Launch
import proofs.«406928_j20959440404551_3_alg».proof.Proof.Gen.Kernel.Skeleton
import proofs.«406928_j20959440404551_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core `c`'s buffer contents when the region is entered: after the three stretches of host operations before it. -/
abbrev V0 (c : Dev nD) : Valuation τ sig (Elt F) := StableHlo.after (List.flatten [hostOps0, hostOps0_1, hostOps0_2]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host stretches before the region, the region, and the stretch after it: it reduces to the
    region continued by the later stretch, at the contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    ⟨hostOps0_sub, hostOps0_1_sub, hostOps0_2_sub⟩ ⟨hostOps0_fresh, hostOps0_1_fresh, hostOps0_2_fresh⟩ main_chain

/-- The stretch after the region touches the windows' arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of a window: each operation writes its own result buffer, which is none of them. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, StableHlo.TRef.unary, StableHlo.TRef.binary, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, StableHlo.TRef.unary, StableHlo.TRef.binary, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, StableHlo.TRef.unary, StableHlo.TRef.binary, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, StableHlo.TRef.unary, StableHlo.TRef.binary, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, StableHlo.TRef.unary, StableHlo.TRef.binary, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, StableHlo.TRef.unary, StableHlo.TRef.binary, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, StableHlo.TRef.unary, StableHlo.TRef.binary, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, StableHlo.TRef.unary, StableHlo.TRef.binary, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, StableHlo.TRef.unary, StableHlo.TRef.binary, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, StableHlo.TRef.unary, StableHlo.TRef.binary, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, StableHlo.TRef.unary, StableHlo.TRef.binary, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, StableHlo.TRef.unary, StableHlo.TRef.binary, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- A buffer that is no window's array and that the stretch after the region does not write holds, at the end,
    what the region found in it. -/
theorem tail_keeps (dats : (p : Fin 1) → (c : Dev nD) → Dat τ (Elt F) Unit ℕ (UR sig nD τ) ℕ (cfgs p) c) (c : Dev nD) (b : Ref sig .tc)
    (hw : ∀ op ∈ (hostOps1 : List (HloOp τ sig (Elt F))), Proc.devRef .tc b ∉ op.writes := by
      simp only [hostOps1, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))
    (ha : ∀ w, Pipeline.arrRef spec0 w ≠ b) :
    Pipeline.afterTail₀ cfgs dats 0 (V0 m) [hostOps1] c b = V m c b := by
  unfold Pipeline.afterTail₀
  show StableHlo.after hostOps1 _ (Proc.devRef .tc b) = _
  rw [StableHlo.after_of_forall_not_mem _ _ hw, Pipeline.withArrays_of_ne _ c (V0 m c) _ b ha]

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The arguments at the end -/

theorem tail_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) :=
  (tail_keeps m dats c main_arg0 (ha := by intro w; fin_cases w <;> decide)).trans (V_main_arg0 m c)
theorem tail_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) :=
  (tail_keeps m dats c main_arg1 (ha := by intro w; fin_cases w <;> decide)).trans (V_main_arg1 m c)
theorem tail_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) :=
  (tail_keeps m dats c main_arg2 (ha := by intro w; fin_cases w <;> decide)).trans (V_main_arg2 m c)
theorem tail_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) :=
  (tail_keeps m dats c main_arg3 (ha := by intro w; fin_cases w <;> decide)).trans (V_main_arg3 m c)
theorem tail_main_arg4 (dats : (p : Fin 1) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) :=
  (tail_keeps m dats c main_arg4 (ha := by intro w; fin_cases w <;> decide)).trans (V_main_arg4 m c)
theorem tail_main_arg5 (dats : (p : Fin 1) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) :=
  (tail_keeps m dats c main_arg5 (ha := by intro w; fin_cases w <;> decide)).trans (V_main_arg5 m c)
theorem tail_main_arg6 (dats : (p : Fin 1) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) :=
  (tail_keeps m dats c main_arg6 (ha := by intro w; fin_cases w <;> decide)).trans (V_main_arg6 m c)
theorem tail_main_arg7 (dats : (p : Fin 1) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) :=
  (tail_keeps m dats c main_arg7 (ha := by intro w; fin_cases w <;> decide)).trans (V_main_arg7 m c)
theorem tail_main_arg8 (dats : (p : Fin 1) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) :=
  (tail_keeps m dats c main_arg8 (ha := by intro w; fin_cases w <;> decide)).trans (V_main_arg8 m c)
theorem tail_main_arg9 (dats : (p : Fin 1) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) :=
  (tail_keeps m dats c main_arg9 (ha := by intro w; fin_cases w <;> decide)).trans (V_main_arg9 m c)
theorem tail_main_arg10 (dats : (p : Fin 1) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) :=
  (tail_keeps m dats c main_arg10 (ha := by intro w; fin_cases w <;> decide)).trans (V_main_arg10 m c)
theorem tail_main_arg11 (dats : (p : Fin 1) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) :=
  (tail_keeps m dats c main_arg11 (ha := by intro w; fin_cases w <;> decide)).trans (V_main_arg11 m c)

/-! ## The body's two branch conditions -/

/-- The accumulator is reset: the point is the first of its core's row. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 245 = 0 :=
  (by decide +kernel : ∀ t : Fin grid0.N, cond0_0 (grid0.coords t) ↔ t.val % 245 = 0)

/-- The accumulator is stored out: the point is the last of its core's row. -/
abbrev cond0_1 (i : grid0.Coords) : Prop := k0_cond2 i = 1#1
theorem hcond0_1 : ∀ t : Fin cfg0.N, cond0_1 (grid0.coords t) ↔ t.val % 245 = 244 :=
  (by decide +kernel : ∀ t : Fin grid0.N, cond0_1 (grid0.coords t) ↔ t.val % 245 = 244)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from a row's last point the body stores nothing into the output window, and the block is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At a row's last point it is live. -/
theorem liveAt0_3 : ∀ t : Fin cfg0.N, cond0_1 (grid0.coords t) → cfg0.idle 3 (grid0.coords t) = false := by decide +kernel

/-! ## The staging and scratch memrefs -/

/-- One staging buffer of the output window, through which its contents are stated. -/
abbrev VO0_3 : View sig .tc .vmem S1x512x512 .f32 := (Memref.whole cc0_stg3_0 : Memref sig .tc .vmem S1x512x512 .f32).view
abbrev ms0_0 (t : Fin cfg0.N) : Memref sig .tc .vmem S10x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x512 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0_0 : Memref sig .tc .vmem S512x512 .f32 := Memref.whole cc0_scratch0
abbrev VS0_0 : View sig .tc .vmem S512x512 .f32 := scM0_0.view

/-- The region invariant of the class with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Gen

end
-- ==== Proof.K.Runs.lean ====
/-
  The kernel body at one grid point, run on whole staging buffers, in each of the three cases of its two
  conditionals. At the first point of a core's row the accumulator is zeroed first; at every point the two
  half-chunks' products are added into it one after the other; at the last point of the row it is copied to the
  output block. Each run ends holding the input buffers as they were, the accumulator with the pieces the body
  stored into it (last first), and the output block either untouched or with its one piece.
-/
import proofs.«406928_j20959440404551_3_alg».proof.Proof.Gen.Kernel.Launch
import proofs.«406928_j20959440404551_3_alg».proof.Proof.Gen.Kernel.Skeleton
import proofs.«406928_j20959440404551_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first point of a row: the accumulator, at anything before, is zeroed and the two products are added;
    nothing is stored into the output block, which is handed back as it came. -/
noncomputable def kernelRun0_A (c : Dev nD) (i : grid0.Coords) (arg2 : Memref sig .tc .vmem S10x2048 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512x512 .f32) (harg5 : arg5.IsWhole) (arg6 : Memref sig .tc .vmem S512x512 .f32) (harg6 : arg6.IsWhole) (hc0 : (Scalar.cmpi .ne (Scalar.extui (Scalar.cmpi .eq (BitVec.ofNat 32 (i 1).val) 0#32)) 0#32) = 1#1) (hc1 : ¬k0_cond2 i = 1#1)
    (x0 : Vec F S10x2048 .f32) (x1 : Vec F S1x512 .f32) (x2 : Vec F S1x512 .f32) :
    Σ' (L3 : List (View.Piece (Elt F) S1x512x512 .f32)), { LS0 : List (View.Piece (Elt F) S512x512 .f32) //
      ∀ (xi3 : Vec F S1x512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__density_kernel i arg2 harg2 arg3 harg3 arg4 harg4 arg5 harg5 arg6 harg6) K } := by
  refine ⟨[], ?_, fun xi3 E K => ?run⟩
  case run =>
    simp only [cc0__density_kernel_eq_skeleton]; unfold cc0__density_kernel_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- A point inside a row: the two products are added into the accumulator, which holds `xs0` before; the output block
    is handed back as it came. -/
noncomputable def kernelRun0_B (c : Dev nD) (i : grid0.Coords) (arg2 : Memref sig .tc .vmem S10x2048 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512x512 .f32) (harg5 : arg5.IsWhole) (arg6 : Memref sig .tc .vmem S512x512 .f32) (harg6 : arg6.IsWhole) (hc0 : ¬(Scalar.cmpi .ne (Scalar.extui (Scalar.cmpi .eq (BitVec.ofNat 32 (i 1).val) 0#32)) 0#32) = 1#1) (hc1 : ¬k0_cond2 i = 1#1)
    (x0 : Vec F S10x2048 .f32) (x1 : Vec F S1x512 .f32) (x2 : Vec F S1x512 .f32) (xs0 : Vec F S512x512 .f32) :
    Σ' (L3 : List (View.Piece (Elt F) S1x512x512 .f32)), { LS0 : List (View.Piece (Elt F) S512x512 .f32) //
      ∀ (xi3 : Vec F S1x512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__density_kernel i arg2 harg2 arg3 harg3 arg4 harg4 arg5 harg5 arg6 harg6) K } := by
  refine ⟨[], ?_, fun xi3 E K => ?run⟩
  case run =>
    simp only [cc0__density_kernel_eq_skeleton]; unfold cc0__density_kernel_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- The last point of a row: the two products are added into the accumulator, which holds `xs0` before, and the
    accumulator is copied to the output block, which held anything. -/
noncomputable def kernelRun0_C (c : Dev nD) (i : grid0.Coords) (arg2 : Memref sig .tc .vmem S10x2048 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512x512 .f32) (harg5 : arg5.IsWhole) (arg6 : Memref sig .tc .vmem S512x512 .f32) (harg6 : arg6.IsWhole) (hc0 : ¬(Scalar.cmpi .ne (Scalar.extui (Scalar.cmpi .eq (BitVec.ofNat 32 (i 1).val) 0#32)) 0#32) = 1#1) (hc1 : k0_cond2 i = 1#1)
    (x0 : Vec F S10x2048 .f32) (x1 : Vec F S1x512 .f32) (x2 : Vec F S1x512 .f32) (xs0 : Vec F S512x512 .f32) :
    Σ' (L3 : List (View.Piece (Elt F) S1x512x512 .f32)), { LS0 : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__density_kernel i arg2 harg2 arg3 harg3 arg4 harg4 arg5 harg5 arg6 harg6) K } := by
  refine ⟨?_, ?_, fun E K => ?run⟩
  case run =>
    simp only [cc0__density_kernel_eq_skeleton]; unfold cc0__density_kernel_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS0

end Cert.Kernel.Gen

end
-- ==== Proof.K.Frame.lean ====
/-
  The frame of the region. What each case of the body leaves in the accumulator and in the output block; what they
  hold after each grid point, by recursion on the point (the accumulator of a point inside a row is built on what the
  point before left); the region invariant that carries the accumulator from point to point; the proof data; the
  body obligation at every point, case by case; and the run of the whole program: every execution terminates, the
  output array holds what the row-ends stored, and every other buffer is as the host operations leave it.
-/
import proofs.«406928_j20959440404551_3_alg».proof.Proof.K.Kit
import proofs.«406928_j20959440404551_3_alg».proof.Proof.K.Runs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves (its stored pieces read back) -/

def out0_A_3 (c : Dev nD) (i : grid0.Coords) (arg2 : Memref sig .tc .vmem S10x2048 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512x512 .f32) (harg5 : arg5.IsWhole) (arg6 : Memref sig .tc .vmem S512x512 .f32) (harg6 : arg6.IsWhole) (hc0 : cond0_0 i) (hc1 : ¬cond0_1 i)
    (x0 : Vec F S10x2048 .f32) (x1 : Vec F S1x512 .f32) (x2 : Vec F S1x512 .f32) : Vec F S1x512x512 .f32 :=
  VO0_3.read (Elt F) (VO0_3.writes (Elt F) VO0_3.junk (kernelRun0_A c i arg2 harg2 arg3 harg3 arg4 harg4 arg5 harg5 arg6 harg6 hc0 hc1 x0 x1 x2).1)

theorem scover0_A_0 (c : Dev nD) (i : grid0.Coords) (arg2 : Memref sig .tc .vmem S10x2048 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512x512 .f32) (harg5 : arg5.IsWhole) (arg6 : Memref sig .tc .vmem S512x512 .f32) (harg6 : arg6.IsWhole) (hc0 : cond0_0 i) (hc1 : ¬cond0_1 i)
    (x0 : Vec F S10x2048 .f32) (x1 : Vec F S1x512 .f32) (x2 : Vec F S1x512 .f32) (y : S512x512.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S512x512.size (by sl_kernel_rfl) y

def sout0_A_0 (c : Dev nD) (i : grid0.Coords) (arg2 : Memref sig .tc .vmem S10x2048 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512x512 .f32) (harg5 : arg5.IsWhole) (arg6 : Memref sig .tc .vmem S512x512 .f32) (harg6 : arg6.IsWhole) (hc0 : cond0_0 i) (hc1 : ¬cond0_1 i)
    (x0 : Vec F S10x2048 .f32) (x1 : Vec F S1x512 .f32) (x2 : Vec F S1x512 .f32) : Vec F S512x512 .f32 :=
  VS0_0.read (Elt F) (VS0_0.writes (Elt F) VS0_0.junk (kernelRun0_A c i arg2 harg2 arg3 harg3 arg4 harg4 arg5 harg5 arg6 harg6 hc0 hc1 x0 x1 x2).2.1)

def out0_B_3 (c : Dev nD) (i : grid0.Coords) (arg2 : Memref sig .tc .vmem S10x2048 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512x512 .f32) (harg5 : arg5.IsWhole) (arg6 : Memref sig .tc .vmem S512x512 .f32) (harg6 : arg6.IsWhole) (hc0 : ¬cond0_0 i) (hc1 : ¬cond0_1 i)
    (x0 : Vec F S10x2048 .f32) (x1 : Vec F S1x512 .f32) (x2 : Vec F S1x512 .f32) (xs0 : Vec F S512x512 .f32) : Vec F S1x512x512 .f32 :=
  VO0_3.read (Elt F) (VO0_3.writes (Elt F) VO0_3.junk (kernelRun0_B c i arg2 harg2 arg3 harg3 arg4 harg4 arg5 harg5 arg6 harg6 hc0 hc1 x0 x1 x2 xs0).1)

theorem scover0_B_0 (c : Dev nD) (i : grid0.Coords) (arg2 : Memref sig .tc .vmem S10x2048 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512x512 .f32) (harg5 : arg5.IsWhole) (arg6 : Memref sig .tc .vmem S512x512 .f32) (harg6 : arg6.IsWhole) (hc0 : ¬cond0_0 i) (hc1 : ¬cond0_1 i)
    (x0 : Vec F S10x2048 .f32) (x1 : Vec F S1x512 .f32) (x2 : Vec F S1x512 .f32) (xs0 : Vec F S512x512 .f32) (y : S512x512.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S512x512.size (by sl_kernel_rfl) y

def sout0_B_0 (c : Dev nD) (i : grid0.Coords) (arg2 : Memref sig .tc .vmem S10x2048 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512x512 .f32) (harg5 : arg5.IsWhole) (arg6 : Memref sig .tc .vmem S512x512 .f32) (harg6 : arg6.IsWhole) (hc0 : ¬cond0_0 i) (hc1 : ¬cond0_1 i)
    (x0 : Vec F S10x2048 .f32) (x1 : Vec F S1x512 .f32) (x2 : Vec F S1x512 .f32) (xs0 : Vec F S512x512 .f32) : Vec F S512x512 .f32 :=
  VS0_0.read (Elt F) (VS0_0.writes (Elt F) VS0_0.junk (kernelRun0_B c i arg2 harg2 arg3 harg3 arg4 harg4 arg5 harg5 arg6 harg6 hc0 hc1 x0 x1 x2 xs0).2.1)

def out0_C_3 (c : Dev nD) (i : grid0.Coords) (arg2 : Memref sig .tc .vmem S10x2048 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512x512 .f32) (harg5 : arg5.IsWhole) (arg6 : Memref sig .tc .vmem S512x512 .f32) (harg6 : arg6.IsWhole) (hc0 : ¬cond0_0 i) (hc1 : cond0_1 i)
    (x0 : Vec F S10x2048 .f32) (x1 : Vec F S1x512 .f32) (x2 : Vec F S1x512 .f32) (xs0 : Vec F S512x512 .f32) : Vec F S1x512x512 .f32 :=
  VO0_3.read (Elt F) (VO0_3.writes (Elt F) VO0_3.junk (kernelRun0_C c i arg2 harg2 arg3 harg3 arg4 harg4 arg5 harg5 arg6 harg6 hc0 hc1 x0 x1 x2 xs0).1)

theorem scover0_C_0 (c : Dev nD) (i : grid0.Coords) (arg2 : Memref sig .tc .vmem S10x2048 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512x512 .f32) (harg5 : arg5.IsWhole) (arg6 : Memref sig .tc .vmem S512x512 .f32) (harg6 : arg6.IsWhole) (hc0 : ¬cond0_0 i) (hc1 : cond0_1 i)
    (x0 : Vec F S10x2048 .f32) (x1 : Vec F S1x512 .f32) (x2 : Vec F S1x512 .f32) (xs0 : Vec F S512x512 .f32) (y : S512x512.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S512x512.size (by sl_kernel_rfl) y

def sout0_C_0 (c : Dev nD) (i : grid0.Coords) (arg2 : Memref sig .tc .vmem S10x2048 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512x512 .f32) (harg5 : arg5.IsWhole) (arg6 : Memref sig .tc .vmem S512x512 .f32) (harg6 : arg6.IsWhole) (hc0 : ¬cond0_0 i) (hc1 : cond0_1 i)
    (x0 : Vec F S10x2048 .f32) (x1 : Vec F S1x512 .f32) (x2 : Vec F S1x512 .f32) (xs0 : Vec F S512x512 .f32) : Vec F S512x512 .f32 :=
  VS0_0.read (Elt F) (VS0_0.writes (Elt F) VS0_0.junk (kernelRun0_C c i arg2 harg2 arg3 harg3 arg4 harg4 arg5 harg5 arg6 harg6 hc0 hc1 x0 x1 x2 xs0).2.1)

/-- At a row's last point the one store into the output block covers it. -/
theorem cover0_C_3 (c : Dev nD) (i : grid0.Coords) (arg2 : Memref sig .tc .vmem S10x2048 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512x512 .f32) (harg5 : arg5.IsWhole) (arg6 : Memref sig .tc .vmem S512x512 .f32) (harg6 : arg6.IsWhole) (hc0 : ¬cond0_0 i) (hc1 : cond0_1 i)
    (x0 : Vec F S10x2048 .f32) (x1 : Vec F S1x512 .f32) (x2 : Vec F S1x512 .f32) (xs0 : Vec F S512x512 .f32) (y : S1x512x512.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S1x512x512.size (by sl_kernel_rfl) y

/-! ## What the output block and the accumulator hold after each point -/

/-- THE ACCUMULATION: the pair (output block, accumulator) after the body at position `n`: the case the point is in,
    run at the point's buffers and input blocks, the accumulator of a point inside a row on what the point before left. -/
def outsAt0 (c : Dev nD) : (n : ℕ) → n < cfg0.N → Vec F S1x512x512 .f32 × Vec F S512x512 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 245 = 0 then
      if h1 : (n + 1) % 245 = 244 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : (n + 1) % 245 = 244 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2)

theorem outsAt0_A (c : Dev nD) (t : Fin cfg0.N) (h0 : t.val % 245 = 0) (h1 : ¬t.val % 245 = 244) :
    outsAt0 m c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 245 = 0) (h1 : ¬t.val % 245 = 244) :
    outsAt0 m c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 245 = 0) (h1 : t.val % 245 = 244) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (the accumulator at anything);
    afterwards the accumulator at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

/-- The arrays as the region finds them; after the body at point `t` each input's buffer at its block and the output's at
    the accumulation's first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 8000000 in
/-- The body at any point: the inputs' buffers hold their blocks; the closed forms of the two conditions say which case
    the point is in, and that case's run applies; the invariant hands the body the accumulator at what the point before
    left (at anything at the very first point) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 490 := lt_of_lt_of_eq t.isLt (show cfg0.N = 490 from N_0)
  by_cases h0 : t.val % 245 = 0
  · by_cases h1 : t.val % 245 = 244
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3 t (fun h => h1 ((hcond0_1 t).mp h))) (noFlush0_3 t (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk m c 0 t) (iblk m c 1 t) (iblk m c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ )
          iexact Hg
        isplitl [Ho]; · iexact Ho
        isplitl [H0]; · iexact H0
        isplitl [H1]; · iexact H1
        isplitl [H2]; · iexact H2
        iexists _; iexact H3
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk m c 0 t) (iblk m c 1 t) (iblk m c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ )
          iexact Hg
        isplitl [Ho]; · iexact Ho
        isplitl [H0]; · iexact H0
        isplitl [H1]; · iexact H1
        isplitl [H2]; · iexact H2
        iexists _; iexact H3
  · by_cases h1 : t.val % 245 = 244
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t ((hcond0_1 t).mpr h1)], after0_3]
      rw [outsAt0_C m c t h0 h1]
      unfold out0_C_3 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_C c (grid0.coords t) _ _ _ _ _ _ _ _ _ _ (fun h => h0 ((hcond0_0 t).mp h)) ((hcond0_1 t).mpr h1) (iblk m c 0 t) (iblk m c 1 t) (iblk m c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ )
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C_3 c _ _ _ _ _ _ _ _ _ _ _ _ _ _ _ _ _ )
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3 t (fun h => h1 ((hcond0_1 t).mp h))) (noFlush0_3 t (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_B c (grid0.coords t) _ _ _ _ _ _ _ _ _ _ (fun h => h0 ((hcond0_0 t).mp h)) (fun h => h1 ((hcond0_1 t).mp h)) (iblk m c 0 t) (iblk m c 1 t) (iblk m c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ )
          iexact Hg
        isplitl [Ho]; · iexact Ho
        isplitl [H0]; · iexact H0
        isplitl [H1]; · iexact H1
        isplitl [H2]; · iexact H2
        iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 490 := N_0; omega)

/-! ## The run -/

set_option backward.isDefEq.respectTransparency.types false in
/-- From any memory with zero counters every execution of the program terminates, and at the end every window's array
    holds what the library computes from the proof data and every other unscoped buffer what the host operations after
    the region leave in it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

end Cert.Kernel.Gen

end
-- ==== Proof.K.FrameClaim.lean ====
/-
  The frame of the program, for any reading of the floats: every execution terminates and the twelve argument
  arrays end as they were launched — none is a window's array, and no host operation before or after the region
  writes one.
-/
import proofs.«406928_j20959440404551_3_alg».proof.Proof.K.Frame

set_option maxRecDepth 16384

noncomputable section

namespace Cert.Kernel.Gen

open Idealize.ShloMosaic Idealize.ShloMosaic.TcCoe Idealize.SL.Sem
open Idealize.ShloMosaic.Pipeline (Dat)

variable {F : FTy → Type} [FloatOps F] [∀ e, Nonempty (Elt F e)]
variable (m : (ℓ : Loc nD τ sig) → Buf (Elt F) ℓ) (ρ : Dev nD → PrngReg)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨((h c).2 main_arg0 (Pipeline.mem_restRefs_of main_arg0 rfl (fun w => by fin_cases w <;> decide))).trans (tail_main_arg0 m (dats m) c),
      ((h c).2 main_arg1 (Pipeline.mem_restRefs_of main_arg1 rfl (fun w => by fin_cases w <;> decide))).trans (tail_main_arg1 m (dats m) c),
      ((h c).2 main_arg2 (Pipeline.mem_restRefs_of main_arg2 rfl (fun w => by fin_cases w <;> decide))).trans (tail_main_arg2 m (dats m) c),
      ((h c).2 main_arg3 (Pipeline.mem_restRefs_of main_arg3 rfl (fun w => by fin_cases w <;> decide))).trans (tail_main_arg3 m (dats m) c),
      ((h c).2 main_arg4 (Pipeline.mem_restRefs_of main_arg4 rfl (fun w => by fin_cases w <;> decide))).trans (tail_main_arg4 m (dats m) c),
      ((h c).2 main_arg5 (Pipeline.mem_restRefs_of main_arg5 rfl (fun w => by fin_cases w <;> decide))).trans (tail_main_arg5 m (dats m) c),
      ((h c).2 main_arg6 (Pipeline.mem_restRefs_of main_arg6 rfl (fun w => by fin_cases w <;> decide))).trans (tail_main_arg6 m (dats m) c),
      ((h c).2 main_arg7 (Pipeline.mem_restRefs_of main_arg7 rfl (fun w => by fin_cases w <;> decide))).trans (tail_main_arg7 m (dats m) c),
      ((h c).2 main_arg8 (Pipeline.mem_restRefs_of main_arg8 rfl (fun w => by fin_cases w <;> decide))).trans (tail_main_arg8 m (dats m) c),
      ((h c).2 main_arg9 (Pipeline.mem_restRefs_of main_arg9 rfl (fun w => by fin_cases w <;> decide))).trans (tail_main_arg9 m (dats m) c),
      ((h c).2 main_arg10 (Pipeline.mem_restRefs_of main_arg10 rfl (fun w => by fin_cases w <;> decide))).trans (tail_main_arg10 m (dats m) c),
      ((h c).2 main_arg11 (Pipeline.mem_restRefs_of main_arg11 rfl (fun w => by fin_cases w <;> decide))).trans (tail_main_arg11 m (dats m) c)⟩) (run_main m ρ)

end Cert.Kernel.Gen

end
-- ==== Proof.KI.Kit.lean ====
/-
  The frame of the program around its one region: the host operations before the region (the two halves of
  the position array and the eight per-node arrays stacked into ten rows and padded to a whole number of
  chunks, the two bin-centre rows reshaped), the region, and the host operations after it (the two cores'
  partial maps summed, the initial map added, the target subtracted, squared and summed). Here: what the
  region finds in each buffer, that the program is those three stretches, that the stretch after the region
  touches no window array and leaves the arguments alone, each input window's block at a grid point, the
  two branch conditions of the body in closed form (the accumulator is reset at the first point of a
  core's row of 245 points, the block is stored out at the last), and where the output window is idle.
-/
import proofs.«406928_j20959440404551_3_alg».proof.Proof.Gen.KernelIdeal.Launch
import proofs.«406928_j20959440404551_3_alg».proof.Proof.Gen.KernelIdeal.Skeleton
import proofs.«406928_j20959440404551_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core `c`'s buffer contents when the region is entered: after the three stretches of host operations before it. -/
abbrev V0 (c : Dev nD) : Valuation τ sig (Elt F) := StableHlo.after (List.flatten [hostOps0, hostOps0_1, hostOps0_2]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host stretches before the region, the region, and the stretch after it: it reduces to the
    region continued by the later stretch, at the contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    ⟨hostOps0_sub, hostOps0_1_sub, hostOps0_2_sub⟩ ⟨hostOps0_fresh, hostOps0_1_fresh, hostOps0_2_fresh⟩ main_chain

/-- The stretch after the region touches the windows' arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of a window: each operation writes its own result buffer, which is none of them. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, StableHlo.TRef.unary, StableHlo.TRef.binary, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, StableHlo.TRef.unary, StableHlo.TRef.binary, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, StableHlo.TRef.unary, StableHlo.TRef.binary, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, StableHlo.TRef.unary, StableHlo.TRef.binary, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, StableHlo.TRef.unary, StableHlo.TRef.binary, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, StableHlo.TRef.unary, StableHlo.TRef.binary, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, StableHlo.TRef.unary, StableHlo.TRef.binary, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, StableHlo.TRef.unary, StableHlo.TRef.binary, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, StableHlo.TRef.unary, StableHlo.TRef.binary, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, StableHlo.TRef.unary, StableHlo.TRef.binary, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, StableHlo.TRef.unary, StableHlo.TRef.binary, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, StableHlo.TRef.unary, StableHlo.TRef.binary, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- A buffer that is no window's array and that the stretch after the region does not write holds, at the end,
    what the region found in it. -/
theorem tail_keeps (dats : (p : Fin 1) → (c : Dev nD) → Dat τ (Elt F) Unit ℕ (UR sig nD τ) ℕ (cfgs p) c) (c : Dev nD) (b : Ref sig .tc)
    (hw : ∀ op ∈ (hostOps1 : List (HloOp τ sig (Elt F))), Proc.devRef .tc b ∉ op.writes := by
      simp only [hostOps1, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))
    (ha : ∀ w, Pipeline.arrRef spec0 w ≠ b) :
    Pipeline.afterTail₀ cfgs dats 0 (V0 m) [hostOps1] c b = V m c b := by
  unfold Pipeline.afterTail₀
  show StableHlo.after hostOps1 _ (Proc.devRef .tc b) = _
  rw [StableHlo.after_of_forall_not_mem _ _ hw, Pipeline.withArrays_of_ne _ c (V0 m c) _ b ha]

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The arguments at the end -/

theorem tail_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) :=
  (tail_keeps m dats c main_arg0 (ha := by intro w; fin_cases w <;> decide)).trans (V_main_arg0 m c)
theorem tail_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) :=
  (tail_keeps m dats c main_arg1 (ha := by intro w; fin_cases w <;> decide)).trans (V_main_arg1 m c)
theorem tail_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) :=
  (tail_keeps m dats c main_arg2 (ha := by intro w; fin_cases w <;> decide)).trans (V_main_arg2 m c)
theorem tail_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) :=
  (tail_keeps m dats c main_arg3 (ha := by intro w; fin_cases w <;> decide)).trans (V_main_arg3 m c)
theorem tail_main_arg4 (dats : (p : Fin 1) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) :=
  (tail_keeps m dats c main_arg4 (ha := by intro w; fin_cases w <;> decide)).trans (V_main_arg4 m c)
theorem tail_main_arg5 (dats : (p : Fin 1) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) :=
  (tail_keeps m dats c main_arg5 (ha := by intro w; fin_cases w <;> decide)).trans (V_main_arg5 m c)
theorem tail_main_arg6 (dats : (p : Fin 1) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) :=
  (tail_keeps m dats c main_arg6 (ha := by intro w; fin_cases w <;> decide)).trans (V_main_arg6 m c)
theorem tail_main_arg7 (dats : (p : Fin 1) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) :=
  (tail_keeps m dats c main_arg7 (ha := by intro w; fin_cases w <;> decide)).trans (V_main_arg7 m c)
theorem tail_main_arg8 (dats : (p : Fin 1) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) :=
  (tail_keeps m dats c main_arg8 (ha := by intro w; fin_cases w <;> decide)).trans (V_main_arg8 m c)
theorem tail_main_arg9 (dats : (p : Fin 1) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) :=
  (tail_keeps m dats c main_arg9 (ha := by intro w; fin_cases w <;> decide)).trans (V_main_arg9 m c)
theorem tail_main_arg10 (dats : (p : Fin 1) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) :=
  (tail_keeps m dats c main_arg10 (ha := by intro w; fin_cases w <;> decide)).trans (V_main_arg10 m c)
theorem tail_main_arg11 (dats : (p : Fin 1) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) :=
  (tail_keeps m dats c main_arg11 (ha := by intro w; fin_cases w <;> decide)).trans (V_main_arg11 m c)

/-! ## The body's two branch conditions -/

/-- The accumulator is reset: the point is the first of its core's row. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 245 = 0 :=
  (by decide +kernel : ∀ t : Fin grid0.N, cond0_0 (grid0.coords t) ↔ t.val % 245 = 0)

/-- The accumulator is stored out: the point is the last of its core's row. -/
abbrev cond0_1 (i : grid0.Coords) : Prop := k0_cond2 i = 1#1
theorem hcond0_1 : ∀ t : Fin cfg0.N, cond0_1 (grid0.coords t) ↔ t.val % 245 = 244 :=
  (by decide +kernel : ∀ t : Fin grid0.N, cond0_1 (grid0.coords t) ↔ t.val % 245 = 244)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from a row's last point the body stores nothing into the output window, and the block is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At a row's last point it is live. -/
theorem liveAt0_3 : ∀ t : Fin cfg0.N, cond0_1 (grid0.coords t) → cfg0.idle 3 (grid0.coords t) = false := by decide +kernel

/-! ## The staging and scratch memrefs -/

/-- One staging buffer of the output window, through which its contents are stated. -/
abbrev VO0_3 : View sig .tc .vmem S1x512x512 .f32 := (Memref.whole cc0_stg3_0 : Memref sig .tc .vmem S1x512x512 .f32).view
abbrev ms0_0 (t : Fin cfg0.N) : Memref sig .tc .vmem S10x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x512 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0_0 : Memref sig .tc .vmem S512x512 .f32 := Memref.whole cc0_scratch0
abbrev VS0_0 : View sig .tc .vmem S512x512 .f32 := scM0_0.view

/-- The region invariant of the class with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Gen

end
-- ==== Proof.KI.Runs.lean ====
/-
  The kernel body at one grid point, run on whole staging buffers, in each of the three cases of its two
  conditionals. At the first point of a core's row the accumulator is zeroed first; at every point the two
  half-chunks' products are added into it one after the other; at the last point of the row it is copied to the
  output block. Each run ends holding the input buffers as they were, the accumulator with the pieces the body
  stored into it (last first), and the output block either untouched or with its one piece.
-/
import proofs.«406928_j20959440404551_3_alg».proof.Proof.Gen.KernelIdeal.Launch
import proofs.«406928_j20959440404551_3_alg».proof.Proof.Gen.KernelIdeal.Skeleton
import proofs.«406928_j20959440404551_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first point of a row: the accumulator, at anything before, is zeroed and the two products are added;
    nothing is stored into the output block, which is handed back as it came. -/
noncomputable def kernelRun0_A (c : Dev nD) (i : grid0.Coords) (arg2 : Memref sig .tc .vmem S10x2048 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512x512 .f32) (harg5 : arg5.IsWhole) (arg6 : Memref sig .tc .vmem S512x512 .f32) (harg6 : arg6.IsWhole) (hc0 : (Scalar.cmpi .ne (Scalar.extui (Scalar.cmpi .eq (BitVec.ofNat 32 (i 1).val) 0#32)) 0#32) = 1#1) (hc1 : ¬k0_cond2 i = 1#1)
    (x0 : Vec F S10x2048 .f32) (x1 : Vec F S1x512 .f32) (x2 : Vec F S1x512 .f32) :
    Σ' (L3 : List (View.Piece (Elt F) S1x512x512 .f32)), { LS0 : List (View.Piece (Elt F) S512x512 .f32) //
      ∀ (xi3 : Vec F S1x512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__density_kernel i arg2 harg2 arg3 harg3 arg4 harg4 arg5 harg5 arg6 harg6) K } := by
  refine ⟨[], ?_, fun xi3 E K => ?run⟩
  case run =>
    simp only [cc0__density_kernel_eq_skeleton]; unfold cc0__density_kernel_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- A point inside a row: the two products are added into the accumulator, which holds `xs0` before; the output block
    is handed back as it came. -/
noncomputable def kernelRun0_B (c : Dev nD) (i : grid0.Coords) (arg2 : Memref sig .tc .vmem S10x2048 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512x512 .f32) (harg5 : arg5.IsWhole) (arg6 : Memref sig .tc .vmem S512x512 .f32) (harg6 : arg6.IsWhole) (hc0 : ¬(Scalar.cmpi .ne (Scalar.extui (Scalar.cmpi .eq (BitVec.ofNat 32 (i 1).val) 0#32)) 0#32) = 1#1) (hc1 : ¬k0_cond2 i = 1#1)
    (x0 : Vec F S10x2048 .f32) (x1 : Vec F S1x512 .f32) (x2 : Vec F S1x512 .f32) (xs0 : Vec F S512x512 .f32) :
    Σ' (L3 : List (View.Piece (Elt F) S1x512x512 .f32)), { LS0 : List (View.Piece (Elt F) S512x512 .f32) //
      ∀ (xi3 : Vec F S1x512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__density_kernel i arg2 harg2 arg3 harg3 arg4 harg4 arg5 harg5 arg6 harg6) K } := by
  refine ⟨[], ?_, fun xi3 E K => ?run⟩
  case run =>
    simp only [cc0__density_kernel_eq_skeleton]; unfold cc0__density_kernel_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- The last point of a row: the two products are added into the accumulator, which holds `xs0` before, and the
    accumulator is copied to the output block, which held anything. -/
noncomputable def kernelRun0_C (c : Dev nD) (i : grid0.Coords) (arg2 : Memref sig .tc .vmem S10x2048 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512x512 .f32) (harg5 : arg5.IsWhole) (arg6 : Memref sig .tc .vmem S512x512 .f32) (harg6 : arg6.IsWhole) (hc0 : ¬(Scalar.cmpi .ne (Scalar.extui (Scalar.cmpi .eq (BitVec.ofNat 32 (i 1).val) 0#32)) 0#32) = 1#1) (hc1 : k0_cond2 i = 1#1)
    (x0 : Vec F S10x2048 .f32) (x1 : Vec F S1x512 .f32) (x2 : Vec F S1x512 .f32) (xs0 : Vec F S512x512 .f32) :
    Σ' (L3 : List (View.Piece (Elt F) S1x512x512 .f32)), { LS0 : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__density_kernel i arg2 harg2 arg3 harg3 arg4 harg4 arg5 harg5 arg6 harg6) K } := by
  refine ⟨?_, ?_, fun E K => ?run⟩
  case run =>
    simp only [cc0__density_kernel_eq_skeleton]; unfold cc0__density_kernel_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS0

end Cert.KernelIdeal.Gen

end
-- ==== Proof.KI.Frame.lean ====
/-
  The frame of the region. What each case of the body leaves in the accumulator and in the output block; what they
  hold after each grid point, by recursion on the point (the accumulator of a point inside a row is built on what the
  point before left); the region invariant that carries the accumulator from point to point; the proof data; the
  body obligation at every point, case by case; and the run of the whole program: every execution terminates, the
  output array holds what the row-ends stored, and every other buffer is as the host operations leave it.
-/
import proofs.«406928_j20959440404551_3_alg».proof.Proof.KI.Kit
import proofs.«406928_j20959440404551_3_alg».proof.Proof.KI.Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves (its stored pieces read back) -/

def out0_A_3 (c : Dev nD) (i : grid0.Coords) (arg2 : Memref sig .tc .vmem S10x2048 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512x512 .f32) (harg5 : arg5.IsWhole) (arg6 : Memref sig .tc .vmem S512x512 .f32) (harg6 : arg6.IsWhole) (hc0 : cond0_0 i) (hc1 : ¬cond0_1 i)
    (x0 : Vec F S10x2048 .f32) (x1 : Vec F S1x512 .f32) (x2 : Vec F S1x512 .f32) : Vec F S1x512x512 .f32 :=
  VO0_3.read (Elt F) (VO0_3.writes (Elt F) VO0_3.junk (kernelRun0_A c i arg2 harg2 arg3 harg3 arg4 harg4 arg5 harg5 arg6 harg6 hc0 hc1 x0 x1 x2).1)

theorem scover0_A_0 (c : Dev nD) (i : grid0.Coords) (arg2 : Memref sig .tc .vmem S10x2048 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512x512 .f32) (harg5 : arg5.IsWhole) (arg6 : Memref sig .tc .vmem S512x512 .f32) (harg6 : arg6.IsWhole) (hc0 : cond0_0 i) (hc1 : ¬cond0_1 i)
    (x0 : Vec F S10x2048 .f32) (x1 : Vec F S1x512 .f32) (x2 : Vec F S1x512 .f32) (y : S512x512.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S512x512.size (by sl_kernel_rfl) y

def sout0_A_0 (c : Dev nD) (i : grid0.Coords) (arg2 : Memref sig .tc .vmem S10x2048 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512x512 .f32) (harg5 : arg5.IsWhole) (arg6 : Memref sig .tc .vmem S512x512 .f32) (harg6 : arg6.IsWhole) (hc0 : cond0_0 i) (hc1 : ¬cond0_1 i)
    (x0 : Vec F S10x2048 .f32) (x1 : Vec F S1x512 .f32) (x2 : Vec F S1x512 .f32) : Vec F S512x512 .f32 :=
  VS0_0.read (Elt F) (VS0_0.writes (Elt F) VS0_0.junk (kernelRun0_A c i arg2 harg2 arg3 harg3 arg4 harg4 arg5 harg5 arg6 harg6 hc0 hc1 x0 x1 x2).2.1)

def out0_B_3 (c : Dev nD) (i : grid0.Coords) (arg2 : Memref sig .tc .vmem S10x2048 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512x512 .f32) (harg5 : arg5.IsWhole) (arg6 : Memref sig .tc .vmem S512x512 .f32) (harg6 : arg6.IsWhole) (hc0 : ¬cond0_0 i) (hc1 : ¬cond0_1 i)
    (x0 : Vec F S10x2048 .f32) (x1 : Vec F S1x512 .f32) (x2 : Vec F S1x512 .f32) (xs0 : Vec F S512x512 .f32) : Vec F S1x512x512 .f32 :=
  VO0_3.read (Elt F) (VO0_3.writes (Elt F) VO0_3.junk (kernelRun0_B c i arg2 harg2 arg3 harg3 arg4 harg4 arg5 harg5 arg6 harg6 hc0 hc1 x0 x1 x2 xs0).1)

theorem scover0_B_0 (c : Dev nD) (i : grid0.Coords) (arg2 : Memref sig .tc .vmem S10x2048 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512x512 .f32) (harg5 : arg5.IsWhole) (arg6 : Memref sig .tc .vmem S512x512 .f32) (harg6 : arg6.IsWhole) (hc0 : ¬cond0_0 i) (hc1 : ¬cond0_1 i)
    (x0 : Vec F S10x2048 .f32) (x1 : Vec F S1x512 .f32) (x2 : Vec F S1x512 .f32) (xs0 : Vec F S512x512 .f32) (y : S512x512.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S512x512.size (by sl_kernel_rfl) y

def sout0_B_0 (c : Dev nD) (i : grid0.Coords) (arg2 : Memref sig .tc .vmem S10x2048 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512x512 .f32) (harg5 : arg5.IsWhole) (arg6 : Memref sig .tc .vmem S512x512 .f32) (harg6 : arg6.IsWhole) (hc0 : ¬cond0_0 i) (hc1 : ¬cond0_1 i)
    (x0 : Vec F S10x2048 .f32) (x1 : Vec F S1x512 .f32) (x2 : Vec F S1x512 .f32) (xs0 : Vec F S512x512 .f32) : Vec F S512x512 .f32 :=
  VS0_0.read (Elt F) (VS0_0.writes (Elt F) VS0_0.junk (kernelRun0_B c i arg2 harg2 arg3 harg3 arg4 harg4 arg5 harg5 arg6 harg6 hc0 hc1 x0 x1 x2 xs0).2.1)

def out0_C_3 (c : Dev nD) (i : grid0.Coords) (arg2 : Memref sig .tc .vmem S10x2048 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512x512 .f32) (harg5 : arg5.IsWhole) (arg6 : Memref sig .tc .vmem S512x512 .f32) (harg6 : arg6.IsWhole) (hc0 : ¬cond0_0 i) (hc1 : cond0_1 i)
    (x0 : Vec F S10x2048 .f32) (x1 : Vec F S1x512 .f32) (x2 : Vec F S1x512 .f32) (xs0 : Vec F S512x512 .f32) : Vec F S1x512x512 .f32 :=
  VO0_3.read (Elt F) (VO0_3.writes (Elt F) VO0_3.junk (kernelRun0_C c i arg2 harg2 arg3 harg3 arg4 harg4 arg5 harg5 arg6 harg6 hc0 hc1 x0 x1 x2 xs0).1)

theorem scover0_C_0 (c : Dev nD) (i : grid0.Coords) (arg2 : Memref sig .tc .vmem S10x2048 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512x512 .f32) (harg5 : arg5.IsWhole) (arg6 : Memref sig .tc .vmem S512x512 .f32) (harg6 : arg6.IsWhole) (hc0 : ¬cond0_0 i) (hc1 : cond0_1 i)
    (x0 : Vec F S10x2048 .f32) (x1 : Vec F S1x512 .f32) (x2 : Vec F S1x512 .f32) (xs0 : Vec F S512x512 .f32) (y : S512x512.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S512x512.size (by sl_kernel_rfl) y

def sout0_C_0 (c : Dev nD) (i : grid0.Coords) (arg2 : Memref sig .tc .vmem S10x2048 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512x512 .f32) (harg5 : arg5.IsWhole) (arg6 : Memref sig .tc .vmem S512x512 .f32) (harg6 : arg6.IsWhole) (hc0 : ¬cond0_0 i) (hc1 : cond0_1 i)
    (x0 : Vec F S10x2048 .f32) (x1 : Vec F S1x512 .f32) (x2 : Vec F S1x512 .f32) (xs0 : Vec F S512x512 .f32) : Vec F S512x512 .f32 :=
  VS0_0.read (Elt F) (VS0_0.writes (Elt F) VS0_0.junk (kernelRun0_C c i arg2 harg2 arg3 harg3 arg4 harg4 arg5 harg5 arg6 harg6 hc0 hc1 x0 x1 x2 xs0).2.1)

/-- At a row's last point the one store into the output block covers it. -/
theorem cover0_C_3 (c : Dev nD) (i : grid0.Coords) (arg2 : Memref sig .tc .vmem S10x2048 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512x512 .f32) (harg5 : arg5.IsWhole) (arg6 : Memref sig .tc .vmem S512x512 .f32) (harg6 : arg6.IsWhole) (hc0 : ¬cond0_0 i) (hc1 : cond0_1 i)
    (x0 : Vec F S10x2048 .f32) (x1 : Vec F S1x512 .f32) (x2 : Vec F S1x512 .f32) (xs0 : Vec F S512x512 .f32) (y : S1x512x512.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S1x512x512.size (by sl_kernel_rfl) y

/-! ## What the output block and the accumulator hold after each point -/

/-- THE ACCUMULATION: the pair (output block, accumulator) after the body at position `n`: the case the point is in,
    run at the point's buffers and input blocks, the accumulator of a point inside a row on what the point before left. -/
def outsAt0 (c : Dev nD) : (n : ℕ) → n < cfg0.N → Vec F S1x512x512 .f32 × Vec F S512x512 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 245 = 0 then
      if h1 : (n + 1) % 245 = 244 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : (n + 1) % 245 = 244 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2)

theorem outsAt0_A (c : Dev nD) (t : Fin cfg0.N) (h0 : t.val % 245 = 0) (h1 : ¬t.val % 245 = 244) :
    outsAt0 m c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 245 = 0) (h1 : ¬t.val % 245 = 244) :
    outsAt0 m c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 245 = 0) (h1 : t.val % 245 = 244) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (the accumulator at anything);
    afterwards the accumulator at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

/-- The arrays as the region finds them; after the body at point `t` each input's buffer at its block and the output's at
    the accumulation's first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 8000000 in
/-- The body at any point: the inputs' buffers hold their blocks; the closed forms of the two conditions say which case
    the point is in, and that case's run applies; the invariant hands the body the accumulator at what the point before
    left (at anything at the very first point) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 490 := lt_of_lt_of_eq t.isLt (show cfg0.N = 490 from N_0)
  by_cases h0 : t.val % 245 = 0
  · by_cases h1 : t.val % 245 = 244
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3 t (fun h => h1 ((hcond0_1 t).mp h))) (noFlush0_3 t (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk m c 0 t) (iblk m c 1 t) (iblk m c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ )
          iexact Hg
        isplitl [Ho]; · iexact Ho
        isplitl [H0]; · iexact H0
        isplitl [H1]; · iexact H1
        isplitl [H2]; · iexact H2
        iexists _; iexact H3
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk m c 0 t) (iblk m c 1 t) (iblk m c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ )
          iexact Hg
        isplitl [Ho]; · iexact Ho
        isplitl [H0]; · iexact H0
        isplitl [H1]; · iexact H1
        isplitl [H2]; · iexact H2
        iexists _; iexact H3
  · by_cases h1 : t.val % 245 = 244
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t ((hcond0_1 t).mpr h1)], after0_3]
      rw [outsAt0_C m c t h0 h1]
      unfold out0_C_3 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_C c (grid0.coords t) _ _ _ _ _ _ _ _ _ _ (fun h => h0 ((hcond0_0 t).mp h)) ((hcond0_1 t).mpr h1) (iblk m c 0 t) (iblk m c 1 t) (iblk m c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ )
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C_3 c _ _ _ _ _ _ _ _ _ _ _ _ _ _ _ _ _ )
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3 t (fun h => h1 ((hcond0_1 t).mp h))) (noFlush0_3 t (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_B c (grid0.coords t) _ _ _ _ _ _ _ _ _ _ (fun h => h0 ((hcond0_0 t).mp h)) (fun h => h1 ((hcond0_1 t).mp h)) (iblk m c 0 t) (iblk m c 1 t) (iblk m c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ )
          iexact Hg
        isplitl [Ho]; · iexact Ho
        isplitl [H0]; · iexact H0
        isplitl [H1]; · iexact H1
        isplitl [H2]; · iexact H2
        iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 490 := N_0; omega)

/-! ## The run -/

set_option backward.isDefEq.respectTransparency.types false in
/-- From any memory with zero counters every execution of the program terminates, and at the end every window's array
    holds what the library computes from the proof data and every other unscoped buffer what the host operations after
    the region leave in it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

end Cert.KernelIdeal.Gen

end
-- ==== Proof.KI.FrameClaim.lean ====
/-
  The frame of the program, for any reading of the floats: every execution terminates and the twelve argument
  arrays end as they were launched — none is a window's array, and no host operation before or after the region
  writes one.
-/
import proofs.«406928_j20959440404551_3_alg».proof.Proof.KI.Frame

set_option maxRecDepth 16384

noncomputable section

namespace Cert.KernelIdeal.Gen

open Idealize.ShloMosaic Idealize.ShloMosaic.TcCoe Idealize.SL.Sem
open Idealize.ShloMosaic.Pipeline (Dat)

variable {F : FTy → Type} [FloatOps F] [∀ e, Nonempty (Elt F e)]
variable (m : (ℓ : Loc nD τ sig) → Buf (Elt F) ℓ) (ρ : Dev nD → PrngReg)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨((h c).2 main_arg0 (Pipeline.mem_restRefs_of main_arg0 rfl (fun w => by fin_cases w <;> decide))).trans (tail_main_arg0 m (dats m) c),
      ((h c).2 main_arg1 (Pipeline.mem_restRefs_of main_arg1 rfl (fun w => by fin_cases w <;> decide))).trans (tail_main_arg1 m (dats m) c),
      ((h c).2 main_arg2 (Pipeline.mem_restRefs_of main_arg2 rfl (fun w => by fin_cases w <;> decide))).trans (tail_main_arg2 m (dats m) c),
      ((h c).2 main_arg3 (Pipeline.mem_restRefs_of main_arg3 rfl (fun w => by fin_cases w <;> decide))).trans (tail_main_arg3 m (dats m) c),
      ((h c).2 main_arg4 (Pipeline.mem_restRefs_of main_arg4 rfl (fun w => by fin_cases w <;> decide))).trans (tail_main_arg4 m (dats m) c),
      ((h c).2 main_arg5 (Pipeline.mem_restRefs_of main_arg5 rfl (fun w => by fin_cases w <;> decide))).trans (tail_main_arg5 m (dats m) c),
      ((h c).2 main_arg6 (Pipeline.mem_restRefs_of main_arg6 rfl (fun w => by fin_cases w <;> decide))).trans (tail_main_arg6 m (dats m) c),
      ((h c).2 main_arg7 (Pipeline.mem_restRefs_of main_arg7 rfl (fun w => by fin_cases w <;> decide))).trans (tail_main_arg7 m (dats m) c),
      ((h c).2 main_arg8 (Pipeline.mem_restRefs_of main_arg8 rfl (fun w => by fin_cases w <;> decide))).trans (tail_main_arg8 m (dats m) c),
      ((h c).2 main_arg9 (Pipeline.mem_restRefs_of main_arg9 rfl (fun w => by fin_cases w <;> decide))).trans (tail_main_arg9 m (dats m) c),
      ((h c).2 main_arg10 (Pipeline.mem_restRefs_of main_arg10 rfl (fun w => by fin_cases w <;> decide))).trans (tail_main_arg10 m (dats m) c),
      ((h c).2 main_arg11 (Pipeline.mem_restRefs_of main_arg11 rfl (fun w => by fin_cases w <;> decide))).trans (tail_main_arg11 m (dats m) c)⟩) (run_main m ρ)

end Cert.KernelIdeal.Gen

end
-- ==== Proof.KI.BodyFn.lean ====
/-
  The kernel body's arithmetic as pure functions of what it loads: the chunk coordinate (a 32-bit word), the two
  bin-centre rows, the ten rows of the node block, and the accumulator's contents. The first half-chunk's product is
  added into the accumulator (`accHalf0`), then the second's (`accHalf1`); `accBody` is both. These are the
  payloads the kernel's stores carry, composed along the body's data flow.
-/
import proofs.«406928_j20959440404551_3_alg».proof.Proof.Gen.KernelIdeal.Skeleton

noncomputable section

namespace Cert.KernelIdeal.Gen

open Idealize.ShloMosaic Idealize.SL.Sem

variable {F : FTy → Type} [FloatOps F]

/-- The accumulator after the first half-chunk (rows 0 … 1023 of the block) is added. -/
def accHalf0 (v4 : BitVec 32) (v5 v7 : Vec F S1x512 .f32) (v9 v11 v13 v15 v17 v19 v21 v23 v25 v27 : Vec F S1x2048 .f32) (prev : Vec F S512x512 .f32) : FVec F S512x512 .f32 :=
  let v6 := k0_pay4 v5
  let v8 := k0_pay5 v7
  let v12 := k0_pay7 v11
  let v14 := k0_pay8 v13
  let v16 := k0_pay9 v15
  let v18 := k0_pay10 v17
  let v20 := k0_pay11 v19
  let v22 := k0_pay12 v21
  let v24 := k0_pay13 v23
  let v26 := k0_pay14 v25
  let v28 := k0_pay15 v27
  let v29 := k0_pay16 v9
  let v30 := k0_pay17 v12
  let v32 := k0_pay19 v16
  let v33 := k0_pay20 v18
  let v34 := k0_pay21 v20
  let v35 := k0_pay22 v22
  let v36 := k0_pay23 v24
  let v37 := k0_pay24 v26
  let v38 := k0_pay25 v28
  let v47 := k0_pay26 (F := F) v4
  let v50 := k0_pay27 v14 v29
  let v64 := k0_pay28 v29
  let v69 := k0_pay29 v14
  let v74 := k0_pay30 v14
  let v76 := k0_pay31 (F := F)
  let v115 := k0_pay32 v6 v33 v34 v35 v50 v64 v69 v74 v76
  let v118 := k0_pay33 v30 v32
  let v126 := k0_pay34 v30
  let v127 := k0_pay35
  let v159 := k0_pay39 v8 v36 v38 v118
  let v165 := k0_pay40 v8 v32 v37 v38 v118
  let v177 := k0_pay42 v8 v32 v118 v126 507#32 v127
  let v180 := k0_pay43 v8 v32 v118 v126 507#32 v127
  k0_pay44 v47 v115 v159 v165 v177 v180 (Scalar.ofBits .f32 0x00000000#32) prev

/-- The accumulator after the second half-chunk (rows 1024 … 2047 of the block) is added. -/
def accHalf1 (v4 : BitVec 32) (v5 v7 : Vec F S1x512 .f32) (v9 v11 v13 v15 v17 v19 v21 v23 v25 v27 : Vec F S1x2048 .f32) (mid : Vec F S512x512 .f32) : FVec F S512x512 .f32 :=
  let v6 := k0_pay4 v5
  let v8 := k0_pay5 v7
  let v10 := k0_pay6 v9
  let v12 := k0_pay7 v11
  let v14 := k0_pay8 v13
  let v16 := k0_pay9 v15
  let v18 := k0_pay10 v17
  let v20 := k0_pay11 v19
  let v22 := k0_pay12 v21
  let v24 := k0_pay13 v23
  let v26 := k0_pay14 v25
  let v28 := k0_pay15 v27
  let v195 := k0_pay46 v12
  let v196 := k0_pay47 v14
  let v197 := k0_pay48 v16
  let v198 := k0_pay49 v18
  let v199 := k0_pay50 v20
  let v200 := k0_pay51 v22
  let v201 := k0_pay52 v24
  let v202 := k0_pay53 v26
  let v203 := k0_pay54 v28
  let v212 := k0_pay55 (F := F) v4
  let v215 := k0_pay56 v10 v14
  let v225 := k0_pay57 v10
  let v256 := k0_pay61 v6 v198 v200 v215
  let v262 := k0_pay62 v6 v196 v199 v200 v215
  let v274 := k0_pay64 v6 v196 v215 507#32 v225
  let v277 := k0_pay65 v6 v196 v215 507#32 v225
  let v278 := k0_pay66 (F := F)
  let v280 := k0_pay67 v256 v262 v274 v277 v278
  let v297 := k0_pay68 v195
  let v302 := k0_pay69 v197
  let v307 := k0_pay70 v197
  let v309 := k0_pay71 (F := F)
  let v314 := k0_pay72 v8 v195 v197
  let v324 := k0_pay74 v8 v195 v197 v201 v203
  let v326 := k0_pay75 v8 v195 v197
  let v327 := k0_pay76 v202 v203
  k0_pay1 v212 v280 v297 v302 v307 v309 v314 v324 v326 v327 mid

/-- One grid point's whole update of the accumulator. -/
def accBody (v4 : BitVec 32) (v5 v7 : Vec F S1x512 .f32) (v9 v11 v13 v15 v17 v19 v21 v23 v25 v27 : Vec F S1x2048 .f32) (prev : Vec F S512x512 .f32) : FVec F S512x512 .f32 :=
  accHalf1 v4 v5 v7 v9 v11 v13 v15 v17 v19 v21 v23 v25 v27 (accHalf0 v4 v5 v7 v9 v11 v13 v15 v17 v19 v21 v23 v25 v27 prev)

end Cert.KernelIdeal.Gen

end
-- ==== Proof.KI.Pieces.lean ====
/-
  What the stored pieces of each case read back as. At a point inside a row the accumulator ends at the body's
  update (both half-chunks' products added) of what the point before left; at a row's first point, of the zero
  array the reset stored; and at a row's last point the output block is the accumulator's final contents reshaped.
  A load through a staging buffer that holds a block reads the block.
-/
import proofs.«406928_j20959440404551_3_alg».proof.Proof.KI.Frame
import proofs.«406928_j20959440404551_3_alg».proof.Proof.KI.BodyFn
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

/-- The chunk a grid point handles, as the body computes it: first coordinate times 245 plus the second. -/
abbrev chunkW (i : grid0.Coords) : BitVec 32 :=
  Scalar.addi (Scalar.muli (BitVec.ofNat 32 (i 0).val) 245#32) (BitVec.ofNat 32 (i 1).val)

/-- A bin-centre row as the body's load reads it through its staging buffer. -/
abbrev ldBin (arg : Memref sig .tc .vmem S1x512 .f32) (harg : arg.IsWhole) (x : Vec F S1x512 .f32) : Vec F S1x512 .f32 :=
  View.readAt (Elt F) arg.view (Rect.unit (s := S1x512) ![0, 0] S1x512.size inb_S1x512_S1x512_0_0).toLoadRect (harg.unread x)
/-- Row 0 of the node block, as the body's load reads it through the staging buffer. -/
abbrev ldRow0 (arg2 : Memref sig .tc .vmem S10x2048 .f32) (harg2 : arg2.IsWhole) (x0 : Vec F S10x2048 .f32) : Vec F S1x2048 .f32 :=
  View.readAt (Elt F) arg2.view (Rect.unit (s := S10x2048) ![0, 0] S1x2048.size inb_S10x2048_S1x2048_0_0).toLoadRect (harg2.unread x0)
/-- Row 1 of the node block, as the body's load reads it through the staging buffer. -/
abbrev ldRow1 (arg2 : Memref sig .tc .vmem S10x2048 .f32) (harg2 : arg2.IsWhole) (x0 : Vec F S10x2048 .f32) : Vec F S1x2048 .f32 :=
  View.readAt (Elt F) arg2.view (Rect.unit (s := S10x2048) ![1, 0] S1x2048.size inb_S10x2048_S1x2048_1_0).toLoadRect (harg2.unread x0)
/-- Row 2 of the node block, as the body's load reads it through the staging buffer. -/
abbrev ldRow2 (arg2 : Memref sig .tc .vmem S10x2048 .f32) (harg2 : arg2.IsWhole) (x0 : Vec F S10x2048 .f32) : Vec F S1x2048 .f32 :=
  View.readAt (Elt F) arg2.view (Rect.unit (s := S10x2048) ![2, 0] S1x2048.size inb_S10x2048_S1x2048_2_0).toLoadRect (harg2.unread x0)
/-- Row 3 of the node block, as the body's load reads it through the staging buffer. -/
abbrev ldRow3 (arg2 : Memref sig .tc .vmem S10x2048 .f32) (harg2 : arg2.IsWhole) (x0 : Vec F S10x2048 .f32) : Vec F S1x2048 .f32 :=
  View.readAt (Elt F) arg2.view (Rect.unit (s := S10x2048) ![3, 0] S1x2048.size inb_S10x2048_S1x2048_3_0).toLoadRect (harg2.unread x0)
/-- Row 4 of the node block, as the body's load reads it through the staging buffer. -/
abbrev ldRow4 (arg2 : Memref sig .tc .vmem S10x2048 .f32) (harg2 : arg2.IsWhole) (x0 : Vec F S10x2048 .f32) : Vec F S1x2048 .f32 :=
  View.readAt (Elt F) arg2.view (Rect.unit (s := S10x2048) ![4, 0] S1x2048.size inb_S10x2048_S1x2048_4_0).toLoadRect (harg2.unread x0)
/-- Row 5 of the node block, as the body's load reads it through the staging buffer. -/
abbrev ldRow5 (arg2 : Memref sig .tc .vmem S10x2048 .f32) (harg2 : arg2.IsWhole) (x0 : Vec F S10x2048 .f32) : Vec F S1x2048 .f32 :=
  View.readAt (Elt F) arg2.view (Rect.unit (s := S10x2048) ![5, 0] S1x2048.size inb_S10x2048_S1x2048_5_0).toLoadRect (harg2.unread x0)
/-- Row 6 of the node block, as the body's load reads it through the staging buffer. -/
abbrev ldRow6 (arg2 : Memref sig .tc .vmem S10x2048 .f32) (harg2 : arg2.IsWhole) (x0 : Vec F S10x2048 .f32) : Vec F S1x2048 .f32 :=
  View.readAt (Elt F) arg2.view (Rect.unit (s := S10x2048) ![6, 0] S1x2048.size inb_S10x2048_S1x2048_6_0).toLoadRect (harg2.unread x0)
/-- Row 7 of the node block, as the body's load reads it through the staging buffer. -/
abbrev ldRow7 (arg2 : Memref sig .tc .vmem S10x2048 .f32) (harg2 : arg2.IsWhole) (x0 : Vec F S10x2048 .f32) : Vec F S1x2048 .f32 :=
  View.readAt (Elt F) arg2.view (Rect.unit (s := S10x2048) ![7, 0] S1x2048.size inb_S10x2048_S1x2048_7_0).toLoadRect (harg2.unread x0)
/-- Row 8 of the node block, as the body's load reads it through the staging buffer. -/
abbrev ldRow8 (arg2 : Memref sig .tc .vmem S10x2048 .f32) (harg2 : arg2.IsWhole) (x0 : Vec F S10x2048 .f32) : Vec F S1x2048 .f32 :=
  View.readAt (Elt F) arg2.view (Rect.unit (s := S10x2048) ![8, 0] S1x2048.size inb_S10x2048_S1x2048_8_0).toLoadRect (harg2.unread x0)
/-- Row 9 of the node block, as the body's load reads it through the staging buffer. -/
abbrev ldRow9 (arg2 : Memref sig .tc .vmem S10x2048 .f32) (harg2 : arg2.IsWhole) (x0 : Vec F S10x2048 .f32) : Vec F S1x2048 .f32 :=
  View.readAt (Elt F) arg2.view (Rect.unit (s := S10x2048) ![9, 0] S1x2048.size inb_S10x2048_S1x2048_9_0).toLoadRect (harg2.unread x0)

/-- A load through the whole-shape rectangle, of what a LIST of stores left whose last store was through the whole
    shape, reads that last store's payload, whatever the earlier stores were. -/
theorem readCov_cons_whole {Val : EltTy → Type} [∀ e, Nonempty (Val e)] {sig' : RefSig} {κ : Kind} {sp : Space} {S : Shape} {e : EltTy}
    (v : View sig' κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

theorem hz2 : (![0, 0] : Fin 2 → Nat) = fun _ => 0 := by funext a; fin_cases a <;> rfl
theorem hz3 : (![0, 0, 0] : Fin 3 → Nat) = fun _ => 0 := by funext a; fin_cases a <;> rfl

/-- A point inside a row: the accumulator ends at the body's update of what the point before left. -/
theorem sout0_B_0_eq (c : Dev nD) (i : grid0.Coords) (arg2 : Memref sig .tc .vmem S10x2048 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512x512 .f32) (harg5 : arg5.IsWhole) (arg6 : Memref sig .tc .vmem S512x512 .f32) (harg6 : arg6.IsWhole) (hc0 : ¬cond0_0 i) (hc1 : ¬cond0_1 i)
    (x0 : Vec F S10x2048 .f32) (x1 : Vec F S1x512 .f32) (x2 : Vec F S1x512 .f32) (xs0 : Vec F S512x512 .f32) :
    sout0_B_0 c i arg2 harg2 arg3 harg3 arg4 harg4 arg5 harg5 arg6 harg6 hc0 hc1 x0 x1 x2 xs0 = accBody (chunkW i) (ldBin arg3 harg3 x1) (ldBin arg4 harg4 x2) (ldRow0 arg2 harg2 x0) (ldRow1 arg2 harg2 x0) (ldRow2 arg2 harg2 x0) (ldRow3 arg2 harg2 x0) (ldRow4 arg2 harg2 x0) (ldRow5 arg2 harg2 x0) (ldRow6 arg2 harg2 x0) (ldRow7 arg2 harg2 x0) (ldRow8 arg2 harg2 x0) (ldRow9 arg2 harg2 x0) xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_cons_unit_zero (S := S512x512) hz2, View.readCov_unit_zero (S := S512x512) _ hz2]
  simp only [View.readAt_eq_ld, harg6.read_unread, View.ld_unit_zero (S := S512x512) hz2]
  rfl

/-- A row's last point: the same. -/
theorem sout0_C_0_eq (c : Dev nD) (i : grid0.Coords) (arg2 : Memref sig .tc .vmem S10x2048 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512x512 .f32) (harg5 : arg5.IsWhole) (arg6 : Memref sig .tc .vmem S512x512 .f32) (harg6 : arg6.IsWhole) (hc0 : ¬cond0_0 i) (hc1 : cond0_1 i)
    (x0 : Vec F S10x2048 .f32) (x1 : Vec F S1x512 .f32) (x2 : Vec F S1x512 .f32) (xs0 : Vec F S512x512 .f32) :
    sout0_C_0 c i arg2 harg2 arg3 harg3 arg4 harg4 arg5 harg5 arg6 harg6 hc0 hc1 x0 x1 x2 xs0 = accBody (chunkW i) (ldBin arg3 harg3 x1) (ldBin arg4 harg4 x2) (ldRow0 arg2 harg2 x0) (ldRow1 arg2 harg2 x0) (ldRow2 arg2 harg2 x0) (ldRow3 arg2 harg2 x0) (ldRow4 arg2 harg2 x0) (ldRow5 arg2 harg2 x0) (ldRow6 arg2 harg2 x0) (ldRow7 arg2 harg2 x0) (ldRow8 arg2 harg2 x0) (ldRow9 arg2 harg2 x0) xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_cons_unit_zero (S := S512x512) hz2, View.readCov_unit_zero (S := S512x512) _ hz2]
  simp only [View.readAt_eq_ld, harg6.read_unread, View.ld_unit_zero (S := S512x512) hz2]
  rfl

/-- A row's first point: the body's update of the zero array the reset stored. -/
theorem sout0_A_0_eq (c : Dev nD) (i : grid0.Coords) (arg2 : Memref sig .tc .vmem S10x2048 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512x512 .f32) (harg5 : arg5.IsWhole) (arg6 : Memref sig .tc .vmem S512x512 .f32) (harg6 : arg6.IsWhole) (hc0 : cond0_0 i) (hc1 : ¬cond0_1 i)
    (x0 : Vec F S10x2048 .f32) (x1 : Vec F S1x512 .f32) (x2 : Vec F S1x512 .f32) :
    sout0_A_0 c i arg2 harg2 arg3 harg3 arg4 harg4 arg5 harg5 arg6 harg6 hc0 hc1 x0 x1 x2 = accBody (chunkW i) (ldBin arg3 harg3 x1) (ldBin arg4 harg4 x2) (ldRow0 arg2 harg2 x0) (ldRow1 arg2 harg2 x0) (ldRow2 arg2 harg2 x0) (ldRow3 arg2 harg2 x0) (ldRow4 arg2 harg2 x0) (ldRow5 arg2 harg2 x0) (ldRow6 arg2 harg2 x0) (ldRow7 arg2 harg2 x0) (ldRow8 arg2 harg2 x0) (ldRow9 arg2 harg2 x0) (k0_pay3 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S512x512) hz2, readCov_cons_whole (S := S512x512) _ hz2,
    View.readCov_unit_zero (S := S512x512) _ hz2]
  rfl

/-- A row's last point: the output block is the accumulator's final contents, reshaped. -/
theorem out0_C_3_eq (c : Dev nD) (i : grid0.Coords) (arg2 : Memref sig .tc .vmem S10x2048 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512x512 .f32) (harg5 : arg5.IsWhole) (arg6 : Memref sig .tc .vmem S512x512 .f32) (harg6 : arg6.IsWhole) (hc0 : ¬cond0_0 i) (hc1 : cond0_1 i)
    (x0 : Vec F S10x2048 .f32) (x1 : Vec F S1x512 .f32) (x2 : Vec F S1x512 .f32) (xs0 : Vec F S512x512 .f32) :
    out0_C_3 c i arg2 harg2 arg3 harg3 arg4 harg4 arg5 harg5 arg6 harg6 hc0 hc1 x0 x1 x2 xs0 = k0_pay2 (accBody (chunkW i) (ldBin arg3 harg3 x1) (ldBin arg4 harg4 x2) (ldRow0 arg2 harg2 x0) (ldRow1 arg2 harg2 x0) (ldRow2 arg2 harg2 x0) (ldRow3 arg2 harg2 x0) (ldRow4 arg2 harg2 x0) (ldRow5 arg2 harg2 x0) (ldRow6 arg2 harg2 x0) (ldRow7 arg2 harg2 x0) (ldRow8 arg2 harg2 x0) (ldRow9 arg2 harg2 x0) xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero (S := S1x512x512) hz3, readCov_cons_whole (S := S512x512) _ hz2,
    View.readCov_unit_zero (S := S512x512) _ hz2]
  simp only [View.readAt_eq_ld, harg6.read_unread, View.ld_unit_zero (S := S512x512) hz2]
  rfl

end Cert.KernelIdeal.Gen

end
-- ==== Proof.Spec.lean ====
/-
  The density map as ONE function of the argument arrays, over the extended reals.

  A node n has a lower-left corner (x n, y n), sizes (sx n, sy n) and bell coefficients (a, b, c) per axis.
  On each axis its potential is supported on the window of five bins that begins at
  start = clamp (⌊coord - 2⌋) to [0, 507]; at a bin with centre bc the value is the bell branch
  c · (1 - a · d²) where the distance d = |coord + size/2 - bc| is below size/2 + 1, the tail branch
  c · b · (d - (size/2 + 2))² where d is below size/2 + 2, and zero otherwise. The density at bin (p, q) is the
  initial map plus the sum over the nodes of the product of the node's two axis potentials, and the cost is
  the sum over the bins of (density - target)².

  The dense form (`potDense`) is a function of the bin p that vanishes outside the window; the windowed form
  (`potSlot`) is a function of the slot k < 5 of the window. They agree where the bin is the slot's
  (`potSlot_eq_potDense`), and the dense form is zero at a bin no slot names (`potDense_eq_zero`).
-/
import Idealize.ShloMosaic.PureOps.Ideal
import Idealize.ShloMosaic.PureOps.Vector
import Idealize.ShloMosaic.Lib.ValueIdx
import Idealize.ShloMosaic.Lib.IdealHost

noncomputable section

namespace Cert.Density

open Idealize.ShloMosaic

/-- The float literals both programs print, as extended reals: their words are never evaluated. -/
abbrev half : EReal := Ideal.ofBits .f32 0x3F000000#32
abbrev one : EReal := Ideal.ofBits .f32 0x3F800000#32
abbrev two : EReal := Ideal.ofBits .f32 0x40000000#32
abbrev five : EReal := Ideal.ofBits .f32 0x40A00000#32
abbrev zero : EReal := Ideal.ofBits .f32 0x00000000#32
abbrev target : EReal := Ideal.ofBits .f32 0x3F666666#32

/-- The first bin of a node's window on one axis: ⌊(coord - 2 - 0) / 1⌋ as a 32-bit integer, clamped to [0, 507]. -/
def start (coord : EReal) : BitVec 32 :=
  IntOp.minsi 507#32 (IntOp.maxsi 0#32
    (Ideal.fptosi 32 (Ideal.liftRound Int.floor (Ideal.div ((coord - two) - zero) one))))

/-- The distance of the node's centre from a bin centre. -/
def dist (coord size bc : EReal) : EReal := max ((coord + half * size) - bc) (-((coord + half * size) - bc))

def p1 (size : EReal) : EReal := half * size + one
def p2 (size : EReal) : EReal := half * size + two

/-- The bell branch. -/
def bell (a c d : EReal) : EReal := c * (one - a * d * d)
/-- The tail branch as the kernel multiplies it out, ((c·b)·δ)·δ, -/
def tailL (b c size d : EReal) : EReal := c * b * (d - p2 size) * (d - p2 size)
/-- and as the reference does, (c·b)·(δ·δ). -/
def tailR (b c size d : EReal) : EReal := c * b * ((d - p2 size) * (d - p2 size))

/-- Bin `p` as the float the kernel compares against the window's start. -/
def binF (p : Fin 512) : EReal := (((BitVec.ofNat 32 p.val).toInt : ℝ) : EReal)
/-- The window's start as a float. -/
def startF (coord : EReal) : EReal := ((((start coord)).toInt : ℝ) : EReal)

/-- Whether bin `p` lies in the node's window, as the kernel decides it: two float comparisons. -/
def inWindow (coord : EReal) (p : Fin 512) : BitVec 1 :=
  IntOp.andi (Ideal.cmp .oge (binF p) (startF coord)) (Ideal.cmp .olt (binF p) (startF coord + five))

/-- THE DENSE FORM: the node's axis potential at bin `p` whose centre is `bc`, zero outside the window. -/
def potDense (coord size a b c bc : EReal) (p : Fin 512) : EReal :=
  Scalar.select (IntOp.andi (inWindow coord p) (Ideal.cmp .olt (dist coord size bc) (p1 size))) (bell a c (dist coord size bc))
    (Scalar.select (IntOp.andi (inWindow coord p) (Ideal.cmp .olt (dist coord size bc) (p2 size))) (tailL b c size (dist coord size bc)) zero)

/-- THE WINDOWED FORM: the node's axis potential at a bin of its window whose centre is `bc`. -/
def potSlot (coord size a b c bc : EReal) : EReal :=
  Scalar.select (Ideal.cmp .olt (dist coord size bc) (p1 size)) (bell a c (dist coord size bc))
    (Scalar.select (Ideal.cmp .olt (dist coord size bc) (p2 size)) (tailR b c size (dist coord size bc)) zero)

/-- The bin a slot names: start + k, as the reference's 32-bit sum. -/
def slotBin (coord : EReal) (k : Fin 5) : BitVec 32 := IntOp.addi (start coord) (BitVec.ofNat 32 k.val)

/-! ## Facts about the window (integer arithmetic on 32-bit words) -/

/-- The literal five is the real five. -/
theorem five_eq : five = ((5 : ℝ) : EReal) := by
  simp [five, Ideal.ofBits, Ideal.ieee, -EReal.coe_mul]; norm_num

/-- Clamping any word to [0, 507] leaves a signed word in that range. -/
theorem clamp_range (w : BitVec 32) :
    0 ≤ (IntOp.minsi 507#32 (IntOp.maxsi 0#32 w)).toInt ∧
      (IntOp.minsi 507#32 (IntOp.maxsi 0#32 w)).toInt ≤ 507 := by
  have h0 : (0#32 : BitVec 32).toInt = 0 := by decide
  have h507 : (507#32 : BitVec 32).toInt = 507 := by decide
  unfold IntOp.minsi IntOp.maxsi
  split_ifs with h1 h2 h2 <;> simp only [BitVec.slt_eq_decide, decide_eq_true_eq, h0, h507] at * <;> omega

/-- The start is a signed word in [0, 507]. -/
theorem start_range (coord : EReal) : 0 ≤ (start coord).toInt ∧ (start coord).toInt ≤ 507 :=
  clamp_range _

/-- The start as a natural number is its signed value, at most 507. -/
theorem start_toNat (coord : EReal) :
    ((start coord).toNat : ℤ) = (start coord).toInt ∧ (start coord).toNat ≤ 507 := by
  obtain ⟨h0, h1⟩ := start_range coord
  have hlt : (start coord).toNat < 2 ^ 32 := (start coord).isLt
  rw [BitVec.toInt_eq_toNat_cond] at h0 h1 ⊢
  split_ifs at h0 h1 ⊢ <;> omega

/-- A slot's bin is start + k without wrapping, in [0, 511]. -/
theorem slotBin_toNat (coord : EReal) (k : Fin 5) :
    (slotBin coord k).toNat = (start coord).toNat + k.val ∧ (slotBin coord k).toNat < 512 := by
  obtain ⟨_, h1⟩ := start_toNat coord
  have hk : k.val < 5 := k.isLt
  unfold slotBin IntOp.addi
  rw [BitVec.toNat_add, BitVec.toNat_ofNat]
  omega

/-- A slot's bin is not negative as a signed word (the reference's wrap of negative indices leaves it alone). -/
theorem slotBin_not_neg (coord : EReal) (k : Fin 5) : IntOp.cmpi .slt (slotBin coord k) 0#32 = 0#1 := by
  obtain ⟨_, h1⟩ := slotBin_toNat coord k
  have h0 : (0#32 : BitVec 32).toInt = 0 := by decide
  have hs : (slotBin coord k).slt 0#32 = false := by
    rw [BitVec.slt_eq_decide, decide_eq_false_iff_not, h0,
      BitVec.toInt_eq_toNat_of_lt (by omega)]
    omega
  unfold IntOp.cmpi
  simp only [hs]
  rfl

/-- Bin `p` is in the window exactly when it is start + k for a slot k. -/
theorem inWindow_iff (coord : EReal) (p : Fin 512) :
    inWindow coord p = 1#1 ↔ ∃ k : Fin 5, p.val = (start coord).toNat + k.val := by
  obtain ⟨hs, _⟩ := start_toNat coord
  have hp : p.val < 512 := p.isLt
  have hb : (BitVec.ofNat 32 p.val).toInt = (p.val : ℤ) := by
    rw [BitVec.toInt_eq_toNat_of_lt (by rw [BitVec.toNat_ofNat]; omega), BitVec.toNat_ofNat]
    omega
  have hge : startF coord ≤ binF p ↔ (start coord).toNat ≤ p.val := by
    unfold startF binF
    rw [hb, ← hs, EReal.coe_le_coe_iff]
    exact_mod_cast Iff.rfl
  have hlt : binF p < startF coord + five ↔ p.val < (start coord).toNat + 5 := by
    unfold startF binF
    rw [hb, ← hs, five_eq, ← EReal.coe_add, EReal.coe_lt_coe_iff]
    exact_mod_cast Iff.rfl
  have hand : inWindow coord p = 1#1 ↔ (startF coord ≤ binF p ∧ binF p < startF coord + five) := by
    unfold inWindow IntOp.andi Ideal.cmp
    simp only
    by_cases h1 : startF coord ≤ binF p <;> by_cases h2 : binF p < startF coord + five <;>
      simp [h1, h2]
  rw [hand, hge, hlt]
  constructor
  · rintro ⟨h1, h2⟩
    exact ⟨⟨p.val - (start coord).toNat, by omega⟩, by simp only; omega⟩
  · rintro ⟨k, hk⟩
    have := k.isLt
    omega

/-- The extended reals' product is associative, so the two tails are one. -/
theorem tailL_eq_tailR (b c size d : EReal) : tailL b c size d = tailR b c size d := by
  unfold tailL tailR; exact mul_assoc _ _ _

/-- At a bin of the window the dense form is the windowed form. -/
theorem potSlot_eq_potDense (coord size a b c bc : EReal) (p : Fin 512) (k : Fin 5)
    (hp : p.val = (start coord).toNat + k.val) :
    potDense coord size a b c bc p = potSlot coord size a b c bc := by
  have hw : inWindow coord p = 1#1 := (inWindow_iff coord p).mpr ⟨k, hp⟩
  have hone : ∀ b : BitVec 1, IntOp.andi 1#1 b = b := by decide
  unfold potDense potSlot
  rw [hw, hone, hone, tailL_eq_tailR]

/-- Outside the window the dense form is zero. -/
theorem potDense_eq_zero (coord size a b c bc : EReal) (p : Fin 512)
    (hp : ¬ ∃ k : Fin 5, p.val = (start coord).toNat + k.val) :
    potDense coord size a b c bc p = zero := by
  have hw : inWindow coord p = 0#1 := ValueIdx.eq_zero_of_ne_one (fun h => hp ((inWindow_iff coord p).mp h))
  have hzero : ∀ b : BitVec 1, IntOp.andi 0#1 b = 0#1 := by decide
  unfold potDense
  rw [hw, hzero, hzero, ValueIdx.select_zero, ValueIdx.select_zero]

/-- The literal zero is the extended reals' zero. -/
theorem zero_eq : zero = (0 : EReal) := Ideal.ofBits_zero_f32

/-! ## The arrays -/

/-- The twelve argument arrays, as plain functions of plain indices. -/
structure Args where
  pos : Fin 2000000 → EReal
  sx : Fin 1000000 → EReal
  sy : Fin 1000000 → EReal
  ax : Fin 1000000 → EReal
  bx : Fin 1000000 → EReal
  cx : Fin 1000000 → EReal
  ay : Fin 1000000 → EReal
  by_ : Fin 1000000 → EReal
  cy : Fin 1000000 → EReal
  binx : Fin 512 → EReal
  biny : Fin 512 → EReal
  init : Fin 512 → Fin 512 → EReal

/-- Node `n`'s corner: the first half of `pos` is x, the second y. -/
def Args.x (A : Args) (n : Fin 1000000) : EReal := A.pos ⟨n.val, by omega⟩
def Args.y (A : Args) (n : Fin 1000000) : EReal := A.pos ⟨1000000 + n.val, by omega⟩

/-- Node `n`'s potential at bin `p` of the x axis, dense form; -/
def Args.px (A : Args) (n : Fin 1000000) (p : Fin 512) : EReal :=
  potDense (A.x n) (A.sx n) (A.ax n) (A.bx n) (A.cx n) (A.binx p) p
/-- and at bin `q` of the y axis. -/
def Args.py (A : Args) (n : Fin 1000000) (q : Fin 512) : EReal :=
  potDense (A.y n) (A.sy n) (A.ay n) (A.by_ n) (A.cy n) (A.biny q) q

/-- THE DENSITY MAP: the initial map plus every node's separable contribution. -/
def Args.density (A : Args) (p q : Fin 512) : EReal :=
  A.init p q + ∑ n : Fin 1000000, A.px n p * A.py n q

end Cert.Density

end
-- ==== Proof.SpecK.lean ====
/-
  The kernel's arrangement of the density sum. The ten per-node arrays are stacked as ten rows and padded with
  zeros from 1,000,000 to 1,003,520 = 490 · 2048 columns; grid point g (of 490) handles columns
  g·2048 … g·2048 + 2047 in two halves of 1024 rows; a row's product of dense potentials is multiplied by 1 when its
  column is a node (below 1,000,000) and by 0 when it is padding. Summed over all points, halves and rows this is
  the sum over the nodes.
-/
import proofs.«406928_j20959440404551_3_alg».proof.Proof.Spec

noncomputable section

namespace Cert.Density

open Idealize.ShloMosaic

/-- Whether row `r` of the half-chunk beginning at column `g·2048 + off` is a node, as the float the kernel multiplies by:
    the signed comparison of the 32-bit column with 1,000,000, zero-extended, converted. -/
def validF (g off : BitVec 32) (r : Fin 1024) : EReal :=
  (((((IntOp.cmpi .slt (IntOp.addi (IntOp.addi (IntOp.muli g 2048#32) off) (BitVec.ofNat 32 r.val)) 1000000#32).setWidth 32 : BitVec 32).toInt : ℝ)) : EReal)

/-- One row's term of a half-chunk's product at bin (p, q): the x potential times the validity factor, times the y
    potential, from the ten values of the row (corner, sizes, coefficients) and the two bin centres. -/
def rowTerm (x y sx sy ax bx cx ay by_ cy : EReal) (bcx bcy : EReal) (valid : EReal) (p q : Fin 512) : EReal :=
  (potDense x sx ax bx cx bcx p * valid) * potDense y sy ay by_ cy bcy q

/-- The stacked, padded array: row k of column n is the k-th per-node array at n for a node, and zero for padding. -/
def Args.nodes (A : Args) (k : Fin 10) (n : Fin 1003520) : EReal :=
  if h : n.val < 1000000 then
    (match k with
      | ⟨0, _⟩ => A.x ⟨n.val, h⟩ | ⟨1, _⟩ => A.y ⟨n.val, h⟩ | ⟨2, _⟩ => A.sx ⟨n.val, h⟩ | ⟨3, _⟩ => A.sy ⟨n.val, h⟩
      | ⟨4, _⟩ => A.ax ⟨n.val, h⟩ | ⟨5, _⟩ => A.bx ⟨n.val, h⟩ | ⟨6, _⟩ => A.cx ⟨n.val, h⟩ | ⟨7, _⟩ => A.ay ⟨n.val, h⟩
      | ⟨8, _⟩ => A.by_ ⟨n.val, h⟩ | ⟨_ + 9, _⟩ => A.cy ⟨n.val, h⟩)
  else 0

/-- Column of row `r` of half `s` of point `g`. -/
def col (g : Fin 490) (s : Fin 2) (r : Fin 1024) : Fin 1003520 := ⟨g.val * 2048 + s.val * 1024 + r.val, by omega⟩

/-- Point `g`'s contribution to bin (p, q): both halves' rows. -/
def Args.pointTerm (A : Args) (g : Fin 490) (p q : Fin 512) : EReal :=
  ∑ s : Fin 2, ∑ r : Fin 1024,
    rowTerm (A.nodes 0 (col g s r)) (A.nodes 1 (col g s r)) (A.nodes 2 (col g s r)) (A.nodes 3 (col g s r)) (A.nodes 4 (col g s r))
      (A.nodes 5 (col g s r)) (A.nodes 6 (col g s r)) (A.nodes 7 (col g s r)) (A.nodes 8 (col g s r)) (A.nodes 9 (col g s r))
      (A.binx p) (A.biny q) (validF (BitVec.ofNat 32 g.val) (BitVec.ofNat 32 (s.val * 1024)) r) p q

/-! ## The column word and the validity factor -/

/-- The 32-bit column word g·2048 + s·1024 + r does not wrap: it is the column. -/
theorem colWord (g : Fin 490) (s : Fin 2) (r : Fin 1024) :
    IntOp.addi (IntOp.addi (IntOp.muli (BitVec.ofNat 32 g.val) 2048#32) (BitVec.ofNat 32 (s.val * 1024)))
      (BitVec.ofNat 32 r.val) = BitVec.ofNat 32 (col g s r).val := by
  have hg := g.isLt
  have hs := s.isLt
  have hr := r.isLt
  apply BitVec.eq_of_toNat_eq
  unfold IntOp.addi IntOp.muli col
  simp only [BitVec.toNat_add, BitVec.toNat_mul, BitVec.toNat_ofNat, Nat.reducePow, Nat.reduceMod]
  omega

/-- The validity factor is 1 at a node's column and 0 at a padding column: the column is below 2³¹, so the signed
    comparison of the words is the comparison of the naturals. -/
theorem validF_col (g : Fin 490) (s : Fin 2) (r : Fin 1024) :
    validF (BitVec.ofNat 32 g.val) (BitVec.ofNat 32 (s.val * 1024)) r
      = if (col g s r).val < 1000000 then (1 : EReal) else 0 := by
  have hn : (col g s r).val < 1003520 := (col g s r).isLt
  have hw : (BitVec.ofNat 32 (col g s r).val).toInt = ((col g s r).val : ℤ) := by
    rw [BitVec.toInt_eq_toNat_of_lt (by rw [BitVec.toNat_ofNat]; omega), BitVec.toNat_ofNat]
    omega
  have hm : (1000000#32 : BitVec 32).toInt = 1000000 := by decide
  have h1 : ((BitVec.ofBool true).setWidth 32 : BitVec 32).toInt = 1 := by decide
  have h0 : ((BitVec.ofBool false).setWidth 32 : BitVec 32).toInt = 0 := by decide
  unfold validF
  rw [colWord]
  unfold IntOp.cmpi
  simp only [BitVec.slt_eq_decide, hw, hm]
  by_cases h : (col g s r).val < 1000000
  · have hd : decide (((col g s r).val : ℤ) < 1000000) = true := decide_eq_true (by exact_mod_cast h)
    rw [hd, if_pos h, h1]
    simp
  · have hd : decide (((col g s r).val : ℤ) < 1000000) = false := decide_eq_false (by exact_mod_cast h)
    rw [hd, if_neg h, h0]
    simp

/-! ## A row's term as a function of its column -/

/-- The dense product of the node at column n, and zero at a padding column. -/
def nodeTerm (A : Args) (p q : Fin 512) (n : Fin 1003520) : EReal :=
  if h : n.val < 1000000 then A.px ⟨n.val, h⟩ p * A.py ⟨n.val, h⟩ q else 0

/-- A row's term is that function at the row's column: at a node the factor is 1, at padding the factor 0 kills the
    product. -/
theorem rowTerm_col (A : Args) (p q : Fin 512) (g : Fin 490) (s : Fin 2) (r : Fin 1024) :
    rowTerm (A.nodes 0 (col g s r)) (A.nodes 1 (col g s r)) (A.nodes 2 (col g s r)) (A.nodes 3 (col g s r)) (A.nodes 4 (col g s r))
      (A.nodes 5 (col g s r)) (A.nodes 6 (col g s r)) (A.nodes 7 (col g s r)) (A.nodes 8 (col g s r)) (A.nodes 9 (col g s r))
      (A.binx p) (A.biny q) (validF (BitVec.ofNat 32 g.val) (BitVec.ofNat 32 (s.val * 1024)) r) p q
      = nodeTerm A p q (col g s r) := by
  rw [validF_col]
  unfold nodeTerm
  by_cases h : (col g s r).val < 1000000
  · rw [if_pos h, dif_pos h]
    unfold rowTerm Args.nodes Args.px Args.py
    simp only [dif_pos h, mul_one]
  · rw [if_neg h, dif_neg h]
    unfold rowTerm
    rw [mul_zero, zero_mul]

/-! ## The reindexing -/

/-- (g, s, r) ↦ g·2048 + s·1024 + r is a bijection onto the 1,003,520 columns: quotient and remainders by 2048 and 1024. -/
def colEquiv : Fin 490 × Fin 2 × Fin 1024 ≃ Fin 1003520 where
  toFun x := col x.1 x.2.1 x.2.2
  invFun n := (⟨n.val / 2048, by omega⟩, ⟨n.val % 2048 / 1024, by omega⟩, ⟨n.val % 1024, by omega⟩)
  left_inv := by
    rintro ⟨g, s, r⟩
    have hg := g.isLt
    have hs := s.isLt
    have hr := r.isLt
    refine Prod.ext (Fin.ext ?_) (Prod.ext (Fin.ext ?_) (Fin.ext ?_)) <;> simp only [col] <;> omega
  right_inv := by
    intro n
    apply Fin.ext
    simp only [col]
    omega

/-- Summing over points, halves and rows is summing over the columns. -/
theorem sum_col (f : Fin 1003520 → EReal) :
    ∑ g : Fin 490, ∑ s : Fin 2, ∑ r : Fin 1024, f (col g s r) = ∑ n : Fin 1003520, f n := by
  rw [← Fintype.sum_equiv colEquiv (fun x => f (col x.1 x.2.1 x.2.2)) f (fun _ => rfl)]
  rw [Fintype.sum_prod_type]
  refine Finset.sum_congr rfl (fun g _ => ?_)
  rw [Fintype.sum_prod_type]

/-- The padding columns contribute nothing: the sum over the columns is the sum over the nodes. -/
theorem nodeTerm_sum (A : Args) (p q : Fin 512) :
    ∑ n : Fin 1003520, nodeTerm A p q n = ∑ n : Fin 1000000, A.px n p * A.py n q := by
  symm
  refine Fintype.sum_of_injective (Fin.castLE (by omega)) (Fin.castLE_injective _) _ _ ?_ ?_
  · intro n hn
    unfold nodeTerm
    rw [dif_neg]
    intro h
    exact hn ⟨⟨n.val, h⟩, Fin.ext rfl⟩
  · intro n
    unfold nodeTerm
    rw [dif_pos (show (Fin.castLE (by omega) n : Fin 1003520).val < 1000000 from n.isLt)]
    rfl

/-- THE REARRANGEMENT: all points' contributions are the nodes' dense products. -/
theorem pointTerm_sum (A : Args) (p q : Fin 512) :
    ∑ g : Fin 490, A.pointTerm g p q = ∑ n : Fin 1000000, A.px n p * A.py n q := by
  unfold Args.pointTerm
  rw [← nodeTerm_sum, ← sum_col (nodeTerm A p q)]
  exact Finset.sum_congr rfl (fun g _ => Finset.sum_congr rfl (fun s _ => Finset.sum_congr rfl (fun r _ =>
    rowTerm_col A p q g s r)))

end Cert.Density

end
-- ==== Proof.KI.BodyValue.lean ====
/-
  The body's update of the accumulator read at a bin (p, q), over the extended reals: each half-chunk adds to the
  accumulator's entry the sum over its 1024 rows of the row's term — the x potential at bin p times the row's validity
  factor, times the y potential at bin q — the matrix unit's product of the two dense 1024 × 512 matrices contracted
  over the rows, onto a zero accumulator.

  In outline: each layout operation is read at explicit coordinates (a vector cast to a column, a column or a row of bins
  broadcast to the 1024 × 512 matrix, a loaded row cast to a vector, its two halves, the two counters); the matrix
  unit's product at (p, q) is the sum over the rows r of the left operand at (r, p) times the right at (r, q); the
  dense matrices at (r, p) and (r, q) are the specification's dense potentials of row r's data, and the validity
  column at r is the specification's validity factor; the format change to sixteen bits is the identity on extended
  reals, and the zero accumulator adds nothing.
-/
import proofs.«406928_j20959440404551_3_alg».proof.Proof.KI.BodyFn
import proofs.«406928_j20959440404551_3_alg».proof.Proof.SpecK
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Gen

open Idealize.ShloMosaic Idealize.ShloMosaic.ValueIdx Cert.Density

/-- Row `r` of the first half of a 2048-row block, and of the second. -/
abbrev loRow (r : Fin 1024) : Fin 2048 := ⟨r.val, by omega⟩
abbrev hiRow (r : Fin 1024) : Fin 2048 := ⟨1024 + r.val, by omega⟩

/-! ## Layout operations at explicit coordinates -/

section Layout
variable {α : Type}

/-- A vector of 1024 entries cast to a column reads, at row r, the entry r. -/
theorem col_apply (x : S1024.Idx → α) (h : S1024.ShapeCasts S1024x1) (r : Fin 1024) (u : Fin 1) :
    shapeCast S1024x1 x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column broadcast over 512 bins reads, at (r, p), the column's row r. -/
theorem bcol_apply (x : S1024x1.Idx → α) (h : S1024x1.Broadcasts S1024x512) (r : Fin 1024) (p : Fin 512) :
    broadcastTo S1024x512 x h (ix2 r p) = x (ix2 r (0 : Fin 1)) := by
  refine broadcastTo_apply x h (ix2 r p) (ix2 r (0 : Fin 1)) fun ax => ?_
  match ax with
  | ⟨0, _⟩ => rfl
  | ⟨1, _⟩ => rfl

/-- A row of 512 bins broadcast over 1024 rows reads, at (r, p), the row's bin p. -/
theorem brow_apply (x : S1x512.Idx → α) (h : S1x512.Broadcasts S1024x512) (r : Fin 1024) (p : Fin 512) :
    broadcastTo S1024x512 x h (ix2 r p) = x (ix2 (0 : Fin 1) p) :=
  broadcastTo_1b_ab_apply x h r p

/-- A loaded row of 2048 columns cast to a vector reads, at column c, the row's column c. -/
theorem row_apply (x : S1x2048.Idx → α) (h : S1x2048.ShapeCasts S2048) (c : Fin 2048) :
    shapeCast S2048 x h (ix1 c) = x (ix2 (0 : Fin 1) c) :=
  shapeCast_1a_a_apply x h c

/-- The first half of a 2048-vector reads, at r, the entry r, -/
theorem lo_apply (x : S2048.Idx → α) (h : S2048.Slices ![0] S1024) (r : Fin 1024) :
    extractStridedSlice S1024 ![0] x h (ix1 r) = x (ix1 (loRow r)) :=
  extractStridedSlice_apply _ x h _ _ (fun a => by
    match a with
    | ⟨0, _⟩ => show r.val = 0 + r.val; omega)

/-- and the second half the entry 1024 + r. -/
theorem hi_apply (x : S2048.Idx → α) (h : S2048.Slices ![1024] S1024) (r : Fin 1024) :
    extractStridedSlice S1024 ![1024] x h (ix1 r) = x (ix1 (hiRow r)) :=
  extractStridedSlice_apply _ x h _ _ (fun a => by
    match a with
    | ⟨0, _⟩ => rfl)

/-- The row counter of a column is the row. -/
theorem iota_col_apply (h : S1024x1.Iotas .tc 32 [0]) (r : Fin 1024) (u : Fin 1) :
    iota .tc S1024x1 32 [0] h (ix2 r u) = BitVec.ofNat 32 r.val := by
  show BitVec.ofNat 32 (0 * 1024 + r.val) = _
  rw [Nat.zero_mul, Nat.zero_add]

/-- The bin counter of a row is the bin. -/
theorem iota_row_apply (h : S1x512.Iotas .tc 32 [1]) (u : Fin 1) (p : Fin 512) :
    iota .tc S1x512 32 [1] h (ix2 u p) = BitVec.ofNat 32 p.val := by
  show BitVec.ofNat 32 (0 * 512 + p.val) = _
  rw [Nat.zero_mul, Nat.zero_add]

end Layout

/-! ## The matrix unit's product read at a bin

The record contracts axis 0 of both operands (the rows) and keeps axis 1 of each (the bins): the result at (p, q) is the
sum over the rows r of the left operand at (r, p) times the right at (r, q). -/

theorem lhs_dot_0 (i : S512x512.Idx) (k : dot_S1024x512_S1024x512_S512x512_0_0_1_1_n_n.contr.Idx) :
    (dot_S1024x512_S1024x512_S512x512_0_0_1_1_n_n.lhsIdx i k 0).val = (k ⟨0, by decide⟩).val :=
  dot_S1024x512_S1024x512_S512x512_0_0_1_1_n_n.lhsIdx_val_of_single rfl i k

theorem lhs_dot_1 (i : S512x512.Idx) (k : dot_S1024x512_S1024x512_S512x512_0_0_1_1_n_n.contr.Idx) :
    (dot_S1024x512_S1024x512_S512x512_0_0_1_1_n_n.lhsIdx i k 1).val = (i 0).val := by
  unfold DotDims.lhsIdx
  rw [dif_neg (show ¬(1 : Fin S1024x512.rank) ∈ dot_S1024x512_S1024x512_S512x512_0_0_1_1_n_n.lhsBatch by decide), dif_pos (show (1 : Fin S1024x512.rank) ∈ dot_S1024x512_S1024x512_S512x512_0_0_1_1_n_n.lhsNonContracting by decide)]
  rfl

theorem rhs_dot_0 (i : S512x512.Idx) (k : dot_S1024x512_S1024x512_S512x512_0_0_1_1_n_n.contr.Idx) :
    (dot_S1024x512_S1024x512_S512x512_0_0_1_1_n_n.rhsIdx i k 0).val = (k ⟨0, by decide⟩).val :=
  dot_S1024x512_S1024x512_S512x512_0_0_1_1_n_n.rhsIdx_val_of_single rfl i k

theorem rhs_dot_1 (i : S512x512.Idx) (k : dot_S1024x512_S1024x512_S512x512_0_0_1_1_n_n.contr.Idx) :
    (dot_S1024x512_S1024x512_S512x512_0_0_1_1_n_n.rhsIdx i k 1).val = (i 1).val := by
  unfold DotDims.rhsIdx
  rw [dif_neg (show ¬(1 : Fin S1024x512.rank) ∈ dot_S1024x512_S1024x512_S512x512_0_0_1_1_n_n.rhsBatch by decide), dif_pos (show (1 : Fin S1024x512.rank) ∈ dot_S1024x512_S1024x512_S512x512_0_0_1_1_n_n.rhsNonContracting by decide)]
  rfl

theorem dot_apply (lhs rhs : FVec Ideal S1024x512 .bf16) (p q : Fin 512) :
    matmul dot_S1024x512_S1024x512_S512x512_0_0_1_1_n_n none lhs rhs (constant (F := Ideal) S512x512 .f32 0x00000000#32) (ix2 p q)
      = ∑ r : Fin 1024, lhs (ix2 r p) * rhs (ix2 r q) := by
  simp only [matmul]
  rw [Ideal.matmul_constant_zero_apply, ← Equiv.sum_comp (contrEquiv1 dot_S1024x512_S1024x512_S512x512_0_0_1_1_n_n 1024 rfl rfl).symm]
  refine Finset.sum_congr rfl fun k _ => ?_
  have hk := contrEquiv1_symm_val dot_S1024x512_S1024x512_S512x512_0_0_1_1_n_n 1024 rfl rfl k
  have el : dot_S1024x512_S1024x512_S512x512_0_0_1_1_n_n.lhsIdx (ix2 p q) ((contrEquiv1 dot_S1024x512_S1024x512_S512x512_0_0_1_1_n_n 1024 rfl rfl).symm k) = ix2 k p := funext fun a => Fin.ext (by
    match a with
    | ⟨0, _⟩ => exact (lhs_dot_0 _ _).trans hk
    | ⟨1, _⟩ => exact lhs_dot_1 _ _)
  have er : dot_S1024x512_S1024x512_S512x512_0_0_1_1_n_n.rhsIdx (ix2 p q) ((contrEquiv1 dot_S1024x512_S1024x512_S512x512_0_0_1_1_n_n 1024 rfl rfl).symm k) = ix2 k q := funext fun a => Fin.ext (by
    match a with
    | ⟨0, _⟩ => exact (rhs_dot_0 _ _).trans hk
    | ⟨1, _⟩ => exact rhs_dot_1 _ _)
  rw [el, er]

/-! ## Elementwise operations at an index (definitional) -/

section Pointwise
variable {s : Shape} {w : Nat}

theorem absf_at (a : FVec Ideal s .f32) (i : s.Idx) : absf a i = max (a i) (-(a i)) := rfl
theorem floor_at (a : FVec Ideal s .f32) (i : s.Idx) : floor a i = Ideal.liftRound Int.floor (a i) := rfl
theorem fptosi_at (a : FVec Ideal s .f32) (i : s.Idx) : fptosi 32 a i = Ideal.fptosi 32 (a i) := rfl
theorem sitofp_at (a : IVec s 32) (i : s.Idx) : (sitofp .f32 a : FVec Ideal s .f32) i = (((a i).toInt : ℝ) : EReal) := rfl
theorem andi_at (a b : IVec s w) (i : s.Idx) : andi a b i = IntOp.andi (a i) (b i) := rfl
theorem addi_at (a b : IVec s w) (i : s.Idx) : addi a b i = IntOp.addi (a i) (b i) := rfl
theorem maxsi_at (a b : IVec s w) (i : s.Idx) : maxsi a b i = IntOp.maxsi (a i) (b i) := rfl
theorem minsi_at (a b : IVec s w) (i : s.Idx) : minsi a b i = IntOp.minsi (a i) (b i) := rfl
theorem cmpi_at (p : CmpIPredicate) (a b : IVec s w) (i : s.Idx) : cmpi p a b i = IntOp.cmpi p (a i) (b i) := rfl
theorem cmpf_at (p : CmpFPredicate) (a b : FVec Ideal s .f32) (i : s.Idx) : cmpf p a b i = Ideal.cmp p (a i) (b i) := rfl

end Pointwise

/-! ## The two stores' payloads as the accumulator plus a sum over the rows -/

/-- The first half's product: whatever the dense matrices and conditions are, the stored value at (p, q) is the loaded
    accumulator plus the sum over the rows of (x matrix · validity) times the selected y matrix. -/
theorem pay44_apply (v47 : FVec Ideal S1024x1 .f32) (v115 v159 v165 : FVec Ideal S1024x512 .f32)
    (v177 v180 : IVec S1024x512 1) (cst : Ideal .f32) (prev : Vec Ideal S512x512 .f32) (p q : Fin 512) :
    k0_pay44 v47 v115 v159 v165 v177 v180 cst prev (ix2 p q)
      = prev (ix2 p q) + ∑ r : Fin 1024, (v115 (ix2 r p) * v47 (ix2 r (0 : Fin 1)))
          * Scalar.select (v177 (ix2 r q)) (v159 (ix2 r q)) (Scalar.select (v180 (ix2 r q)) (v165 (ix2 r q)) cst) := by
  unfold k0_pay44
  refine (congrFun (shapeCast_self _ _) _).trans ?_
  refine congrArg (prev (ix2 p q) + ·) ((dot_apply _ _ p q).trans (Finset.sum_congr rfl fun r _ => ?_))
  show v115 (ix2 r p) * broadcastTo S1024x512 v47 broadcasts_S1024x1_S1024x512 (ix2 r p) * _ = _
  rw [bcol_apply]
  rfl

/-! ## The dense matrices of the first half -/

/-- The first half's x matrix at (r, p) is the dense potential of row r's x data at bin p. -/
theorem xmat0_apply (v5 : Vec Ideal S1x512 .f32) (v9 v13 v17 v19 v21 : Vec Ideal S1x2048 .f32) (r : Fin 1024) (p : Fin 512) :
    k0_pay32 (k0_pay4 v5) (k0_pay20 (k0_pay10 v17)) (k0_pay21 (k0_pay11 v19)) (k0_pay22 (k0_pay12 v21))
        (k0_pay27 (k0_pay8 v13) (k0_pay16 v9)) (k0_pay28 (k0_pay16 v9)) (k0_pay29 (k0_pay8 v13)) (k0_pay30 (k0_pay8 v13))
        (k0_pay31 (F := Ideal)) (ix2 r p)
      = potDense (v9 (ix2 0 (loRow r))) (v13 (ix2 0 (loRow r))) (v17 (ix2 0 (loRow r))) (v19 (ix2 0 (loRow r)))
          (v21 (ix2 0 (loRow r))) (v5 (ix2 0 p)) p := by
  unfold k0_pay32 k0_pay4 k0_pay20 k0_pay10 k0_pay21 k0_pay11 k0_pay22 k0_pay12 k0_pay27 k0_pay8 k0_pay16 k0_pay6 k0_pay28 k0_pay29 k0_pay30 k0_pay31 k0_pay18
  simp only [select_apply, andi_at, addi_at, cmpi_at, cmpf_at, extui_apply, mulf_apply, subf_apply, addf_apply, divf_apply, absf_at, floor_at, fptosi_at, sitofp_at, maxsi_at, minsi_at, broadcast_apply, bcol_apply, brow_apply, col_apply, lo_apply, hi_apply, row_apply, iota_row_apply, iota_col_apply, shapeCast_self]
  rw [iota_row_apply]
  rfl

/-- The validity column at row r. -/
theorem valid0_apply (v4 : BitVec 32) (r : Fin 1024) :
    k0_pay26 (F := Ideal) v4 (ix2 r (0 : Fin 1)) = validF v4 0#32 r := by
  unfold k0_pay26
  simp only [select_apply, andi_at, addi_at, cmpi_at, cmpf_at, extui_apply, mulf_apply, subf_apply, addf_apply, divf_apply, absf_at, floor_at, fptosi_at, sitofp_at, maxsi_at, minsi_at, broadcast_apply, bcol_apply, brow_apply, col_apply, lo_apply, hi_apply, row_apply, iota_row_apply, iota_col_apply, shapeCast_self]
  rw [iota_col_apply]
  rfl

/-- The first half's y matrix, as the store selects it, at (r, q) is the dense potential of row r's y data at bin q. -/
theorem ymat0_apply (v7 : Vec Ideal S1x512 .f32) (v11 v15 v23 v25 v27 : Vec Ideal S1x2048 .f32) (r : Fin 1024) (q : Fin 512) :
    Scalar.select
        (k0_pay42 (k0_pay5 v7) (k0_pay19 (k0_pay9 v15)) (k0_pay33 (k0_pay17 (k0_pay7 v11)) (k0_pay19 (k0_pay9 v15)))
          (k0_pay34 (k0_pay17 (k0_pay7 v11))) 507#32 k0_pay35 (ix2 r q))
        (k0_pay39 (k0_pay5 v7) (k0_pay23 (k0_pay13 v23)) (k0_pay25 (k0_pay15 v27))
          (k0_pay33 (k0_pay17 (k0_pay7 v11)) (k0_pay19 (k0_pay9 v15))) (ix2 r q))
        (Scalar.select
          (k0_pay43 (k0_pay5 v7) (k0_pay19 (k0_pay9 v15)) (k0_pay33 (k0_pay17 (k0_pay7 v11)) (k0_pay19 (k0_pay9 v15)))
            (k0_pay34 (k0_pay17 (k0_pay7 v11))) 507#32 k0_pay35 (ix2 r q))
          (k0_pay40 (k0_pay5 v7) (k0_pay19 (k0_pay9 v15)) (k0_pay24 (k0_pay14 v25)) (k0_pay25 (k0_pay15 v27))
            (k0_pay33 (k0_pay17 (k0_pay7 v11)) (k0_pay19 (k0_pay9 v15))) (ix2 r q))
          (Scalar.ofBits (F := Ideal) .f32 0x00000000#32))
      = potDense (v11 (ix2 0 (loRow r))) (v15 (ix2 0 (loRow r))) (v23 (ix2 0 (loRow r))) (v25 (ix2 0 (loRow r)))
          (v27 (ix2 0 (loRow r))) (v7 (ix2 0 q)) q := by
  unfold k0_pay42 k0_pay43 k0_pay41 k0_pay39 k0_pay40 k0_pay37 k0_pay38 k0_pay36 k0_pay33 k0_pay34 k0_pay35 k0_pay5 k0_pay19 k0_pay9 k0_pay17 k0_pay7 k0_pay23 k0_pay13 k0_pay25 k0_pay15 k0_pay24 k0_pay14
  simp only [select_apply, andi_at, addi_at, cmpi_at, cmpf_at, extui_apply, mulf_apply, subf_apply, addf_apply, divf_apply, absf_at, floor_at, fptosi_at, sitofp_at, maxsi_at, minsi_at, broadcast_apply, bcol_apply, brow_apply, col_apply, lo_apply, hi_apply, row_apply, iota_row_apply, iota_col_apply, shapeCast_self]
  rw [iota_row_apply]
  rfl

/-! ## The first half -/

theorem accHalf0_apply (v4 : BitVec 32) (v5 v7 : Vec Ideal S1x512 .f32) (v9 v11 v13 v15 v17 v19 v21 v23 v25 v27 : Vec Ideal S1x2048 .f32) (prev : Vec Ideal S512x512 .f32) (p q : Fin 512) :
    accHalf0 (F := Ideal) v4 v5 v7 v9 v11 v13 v15 v17 v19 v21 v23 v25 v27 prev (ix2 p q)
      = prev (ix2 p q) + ∑ r : Fin 1024, rowTerm (v9 (ix2 0 (loRow r))) (v11 (ix2 0 (loRow r))) (v13 (ix2 0 (loRow r))) (v15 (ix2 0 (loRow r))) (v17 (ix2 0 (loRow r))) (v19 (ix2 0 (loRow r))) (v21 (ix2 0 (loRow r))) (v23 (ix2 0 (loRow r))) (v25 (ix2 0 (loRow r))) (v27 (ix2 0 (loRow r))) (v5 (ix2 0 p)) (v7 (ix2 0 q)) (validF v4 0#32 r) p q := by
  unfold accHalf0
  refine (pay44_apply _ _ _ _ _ _ _ prev p q).trans (congrArg (prev (ix2 p q) + ·) (Finset.sum_congr rfl fun r _ => ?_))
  rw [xmat0_apply, valid0_apply, ymat0_apply]
  rfl

/-! ## The second half

The second store's payload spells the y selection out of its pieces: the bin as a float, the window's start, the
distance, the two thresholds, the bell value, the product of the two tail coefficients and the tail's offset. -/

/-- The y potential as the second store selects it from those pieces. -/
def ySel (bin st d q1 q2 bellv cb δ : EReal) : EReal :=
  Scalar.select (IntOp.andi (IntOp.andi (Ideal.cmp .oge bin st) (Ideal.cmp .olt bin (st + five))) (Ideal.cmp .olt d q1)) bellv
    (Scalar.select (IntOp.andi (IntOp.andi (Ideal.cmp .oge bin st) (Ideal.cmp .olt bin (st + five))) (Ideal.cmp .olt d q2))
      (cb * δ * δ) zero)

/-- The second half's product: the stored value at (p, q) is the loaded accumulator plus the sum over the rows of
    (x matrix · validity) times the y selection. -/
theorem pay1_apply (v212 : FVec Ideal S1024x1 .f32) (v280 : FVec Ideal S1024x512 .f32) (v297 v302 v307 : FVec Ideal S1024x1 .f32)
    (v309 : FVec Ideal S1x512 .f32) (v314 v324 v326 : FVec Ideal S1024x512 .f32) (v327 : FVec Ideal S1024x1 .f32)
    (mid : Vec Ideal S512x512 .f32) (p q : Fin 512) :
    k0_pay1 v212 v280 v297 v302 v307 v309 v314 v324 v326 v327 mid (ix2 p q)
      = mid (ix2 p q) + ∑ r : Fin 1024, (v280 (ix2 r p) * v212 (ix2 r (0 : Fin 1)))
          * ySel (v309 (ix2 (0 : Fin 1) q)) (v297 (ix2 r (0 : Fin 1))) (v314 (ix2 r q)) (v302 (ix2 r (0 : Fin 1)))
              (v307 (ix2 r (0 : Fin 1))) (v324 (ix2 r q)) (v327 (ix2 r (0 : Fin 1))) (v326 (ix2 r q)) := by
  unfold k0_pay1
  refine (congrFun (shapeCast_self _ _) _).trans ?_
  refine congrArg (mid (ix2 p q) + ·) ((dot_apply _ _ p q).trans (Finset.sum_congr rfl fun r _ => ?_))
  simp only [truncf_apply, select_apply, andi_at, addi_at, cmpi_at, cmpf_at, extui_apply, mulf_apply, subf_apply, addf_apply, divf_apply, absf_at, floor_at, fptosi_at, sitofp_at, maxsi_at, minsi_at, broadcast_apply, bcol_apply, brow_apply, col_apply, lo_apply, hi_apply, row_apply, iota_row_apply, iota_col_apply, shapeCast_self]
  rfl

/-- The second half's x matrix at (r, p) is the dense potential of row 1024 + r's x data at bin p. -/
theorem xmat1_apply (v5 : Vec Ideal S1x512 .f32) (v9 v13 v17 v19 v21 : Vec Ideal S1x2048 .f32) (r : Fin 1024) (p : Fin 512) :
    k0_pay67
        (k0_pay61 (k0_pay4 v5) (k0_pay49 (k0_pay10 v17)) (k0_pay51 (k0_pay12 v21)) (k0_pay56 (k0_pay6 v9) (k0_pay8 v13)))
        (k0_pay62 (k0_pay4 v5) (k0_pay47 (k0_pay8 v13)) (k0_pay50 (k0_pay11 v19)) (k0_pay51 (k0_pay12 v21)) (k0_pay56 (k0_pay6 v9) (k0_pay8 v13)))
        (k0_pay64 (k0_pay4 v5) (k0_pay47 (k0_pay8 v13)) (k0_pay56 (k0_pay6 v9) (k0_pay8 v13)) 507#32 (k0_pay57 (k0_pay6 v9)))
        (k0_pay65 (k0_pay4 v5) (k0_pay47 (k0_pay8 v13)) (k0_pay56 (k0_pay6 v9) (k0_pay8 v13)) 507#32 (k0_pay57 (k0_pay6 v9)))
        (k0_pay66 (F := Ideal)) (ix2 r p)
      = potDense (v9 (ix2 0 (hiRow r))) (v13 (ix2 0 (hiRow r))) (v17 (ix2 0 (hiRow r))) (v19 (ix2 0 (hiRow r)))
          (v21 (ix2 0 (hiRow r))) (v5 (ix2 0 p)) p := by
  unfold k0_pay67 k0_pay61 k0_pay62 k0_pay64 k0_pay65 k0_pay66 k0_pay63 k0_pay59 k0_pay60 k0_pay58 k0_pay56 k0_pay57 k0_pay45 k0_pay4 k0_pay49 k0_pay10 k0_pay51 k0_pay12 k0_pay6 k0_pay8 k0_pay47 k0_pay50 k0_pay11
  simp only [select_apply, andi_at, addi_at, cmpi_at, cmpf_at, extui_apply, mulf_apply, subf_apply, addf_apply, divf_apply, absf_at, floor_at, fptosi_at, sitofp_at, maxsi_at, minsi_at, broadcast_apply, bcol_apply, brow_apply, col_apply, lo_apply, hi_apply, row_apply, iota_row_apply, iota_col_apply, shapeCast_self]
  rw [iota_row_apply]
  rfl

/-- The second half's validity column at row r. -/
theorem valid1_apply (v4 : BitVec 32) (r : Fin 1024) :
    k0_pay55 (F := Ideal) v4 (ix2 r (0 : Fin 1)) = validF v4 1024#32 r := by
  unfold k0_pay55
  simp only [select_apply, andi_at, addi_at, cmpi_at, cmpf_at, extui_apply, mulf_apply, subf_apply, addf_apply, divf_apply, absf_at, floor_at, fptosi_at, sitofp_at, maxsi_at, minsi_at, broadcast_apply, bcol_apply, brow_apply, col_apply, lo_apply, hi_apply, row_apply, iota_row_apply, iota_col_apply, shapeCast_self]
  rw [iota_col_apply]
  rfl

/-- The second half's y selection at (r, q) is the dense potential of row 1024 + r's y data at bin q. -/
theorem ymat1_apply (v7 : Vec Ideal S1x512 .f32) (v11 v15 v23 v25 v27 : Vec Ideal S1x2048 .f32) (r : Fin 1024) (q : Fin 512) :
    ySel (k0_pay71 (F := Ideal) (ix2 (0 : Fin 1) q)) (k0_pay68 (k0_pay46 (k0_pay7 v11)) (ix2 r (0 : Fin 1)))
        (k0_pay72 (k0_pay5 v7) (k0_pay46 (k0_pay7 v11)) (k0_pay48 (k0_pay9 v15)) (ix2 r q))
        (k0_pay69 (k0_pay48 (k0_pay9 v15)) (ix2 r (0 : Fin 1))) (k0_pay70 (k0_pay48 (k0_pay9 v15)) (ix2 r (0 : Fin 1)))
        (k0_pay74 (k0_pay5 v7) (k0_pay46 (k0_pay7 v11)) (k0_pay48 (k0_pay9 v15)) (k0_pay52 (k0_pay13 v23)) (k0_pay54 (k0_pay15 v27)) (ix2 r q))
        (k0_pay76 (k0_pay53 (k0_pay14 v25)) (k0_pay54 (k0_pay15 v27)) (ix2 r (0 : Fin 1)))
        (k0_pay75 (k0_pay5 v7) (k0_pay46 (k0_pay7 v11)) (k0_pay48 (k0_pay9 v15)) (ix2 r q))
      = potDense (v11 (ix2 0 (hiRow r))) (v15 (ix2 0 (hiRow r))) (v23 (ix2 0 (hiRow r))) (v25 (ix2 0 (hiRow r)))
          (v27 (ix2 0 (hiRow r))) (v7 (ix2 0 q)) q := by
  unfold k0_pay74 k0_pay76 k0_pay75 k0_pay71 k0_pay68 k0_pay72 k0_pay69 k0_pay70 k0_pay73 k0_pay46 k0_pay7 k0_pay5 k0_pay48 k0_pay9 k0_pay52 k0_pay13 k0_pay54 k0_pay15 k0_pay53 k0_pay14
  simp only [select_apply, andi_at, addi_at, cmpi_at, cmpf_at, extui_apply, mulf_apply, subf_apply, addf_apply, divf_apply, absf_at, floor_at, fptosi_at, sitofp_at, maxsi_at, minsi_at, broadcast_apply, bcol_apply, brow_apply, col_apply, lo_apply, hi_apply, row_apply, iota_row_apply, iota_col_apply, shapeCast_self]
  rw [iota_row_apply]
  rfl

theorem accHalf1_apply (v4 : BitVec 32) (v5 v7 : Vec Ideal S1x512 .f32) (v9 v11 v13 v15 v17 v19 v21 v23 v25 v27 : Vec Ideal S1x2048 .f32) (mid : Vec Ideal S512x512 .f32) (p q : Fin 512) :
    accHalf1 (F := Ideal) v4 v5 v7 v9 v11 v13 v15 v17 v19 v21 v23 v25 v27 mid (ix2 p q)
      = mid (ix2 p q) + ∑ r : Fin 1024, rowTerm (v9 (ix2 0 (hiRow r))) (v11 (ix2 0 (hiRow r))) (v13 (ix2 0 (hiRow r))) (v15 (ix2 0 (hiRow r))) (v17 (ix2 0 (hiRow r))) (v19 (ix2 0 (hiRow r))) (v21 (ix2 0 (hiRow r))) (v23 (ix2 0 (hiRow r))) (v25 (ix2 0 (hiRow r))) (v27 (ix2 0 (hiRow r))) (v5 (ix2 0 p)) (v7 (ix2 0 q)) (validF v4 1024#32 r) p q := by
  unfold accHalf1
  refine (pay1_apply _ _ _ _ _ _ _ _ _ _ mid p q).trans (congrArg (mid (ix2 p q) + ·) (Finset.sum_congr rfl fun r _ => ?_))
  rw [xmat1_apply, valid1_apply, ymat1_apply]
  rfl

/-- Both halves. -/
theorem accBody_apply (v4 : BitVec 32) (v5 v7 : Vec Ideal S1x512 .f32) (v9 v11 v13 v15 v17 v19 v21 v23 v25 v27 : Vec Ideal S1x2048 .f32) (prev : Vec Ideal S512x512 .f32) (p q : Fin 512) :
    accBody (F := Ideal) v4 v5 v7 v9 v11 v13 v15 v17 v19 v21 v23 v25 v27 prev (ix2 p q)
      = (prev (ix2 p q) + ∑ r : Fin 1024, rowTerm (v9 (ix2 0 (loRow r))) (v11 (ix2 0 (loRow r))) (v13 (ix2 0 (loRow r))) (v15 (ix2 0 (loRow r))) (v17 (ix2 0 (loRow r))) (v19 (ix2 0 (loRow r))) (v21 (ix2 0 (loRow r))) (v23 (ix2 0 (loRow r))) (v25 (ix2 0 (loRow r))) (v27 (ix2 0 (loRow r))) (v5 (ix2 0 p)) (v7 (ix2 0 q)) (validF v4 0#32 r) p q)
        + ∑ r : Fin 1024, rowTerm (v9 (ix2 0 (hiRow r))) (v11 (ix2 0 (hiRow r))) (v13 (ix2 0 (hiRow r))) (v15 (ix2 0 (hiRow r))) (v17 (ix2 0 (hiRow r))) (v19 (ix2 0 (hiRow r))) (v21 (ix2 0 (hiRow r))) (v23 (ix2 0 (hiRow r))) (v25 (ix2 0 (hiRow r))) (v27 (ix2 0 (hiRow r))) (v5 (ix2 0 p)) (v7 (ix2 0 q)) (validF v4 1024#32 r) p q := by
  unfold accBody
  rw [accHalf1_apply, accHalf0_apply]

end Cert.KernelIdeal.Gen

end
-- ==== Proof.SpecArrays.lean ====
/-
  The specification read at the programs' arrays: the twelve argument arrays as `Cert.Density.Args`, the
  density map as an array of bins, and the cost — the sum over the bins of (density - target)² — as both
  programs' last host operations compute it from the density array.
-/
import proofs.«406928_j20959440404551_3_alg».proof.Proof.Spec
import Idealize.ShloMosaic.PureOps.Contract

noncomputable section

namespace Cert.Density

open Idealize.ShloMosaic Idealize.ShloMosaic.ValueIdx

abbrev T2000000 : Shape := ⟨1, ![2000000]⟩
abbrev T1000000 : Shape := ⟨1, ![1000000]⟩
abbrev T512 : Shape := ⟨1, ![512]⟩
abbrev T512x512 : Shape := ⟨2, ![512, 512]⟩
abbrev T0 : Shape := ⟨0, ![]⟩

/-- The argument arrays, in the programs' argument order, as the specification's `Args`. -/
def Args.ofArrays (a0 : FVec Ideal T2000000 .f32) (a1 a2 a3 a4 a5 a6 a7 a8 : FVec Ideal T1000000 .f32)
    (a9 a10 : FVec Ideal T512 .f32) (a11 : FVec Ideal T512x512 .f32) : Args where
  pos n := a0 (ix1 n)
  sx n := a1 (ix1 n)
  sy n := a2 (ix1 n)
  ax n := a3 (ix1 n)
  bx n := a4 (ix1 n)
  cx n := a5 (ix1 n)
  ay n := a6 (ix1 n)
  by_ n := a7 (ix1 n)
  cy n := a8 (ix1 n)
  binx p := a9 (ix1 p)
  biny q := a10 (ix1 q)
  init p q := a11 (ix2 p q)

/-- The density map as an array over the bins. -/
def Args.densityArr (A : Args) : FVec Ideal T512x512 .f32 := fun j => A.density (j 0) (j 1)

/-- The cost from a density array: subtract the target from every bin, square, and sum over all bins onto zero —
    the three host operations with which both programs end. The shape facts are propositions: any two
    witnesses give the same function. -/
def cost (hb : T0.BroadcastsInDim T512x512 (![] : Fin 0 → Fin T512x512.rank)) (hr : T512x512.ReducesTo [0, 1] T0)
    (hu : 0 < T0.numel) (D : FVec Ideal T512x512 .f32) : FVec Ideal T0 .f32 :=
  Host.reduceAdd (F := Ideal)
    (mulf (subf D (broadcastInDim T512x512 ![] hb (constant (F := Ideal) T0 .f32 0x3F666666#32)))
          (subf D (broadcastInDim T512x512 ![] hb (constant (F := Ideal) T0 .f32 0x3F666666#32))))
    (constant (F := Ideal) T0 .f32 0x00000000#32) hr hu

end Cert.Density

end
-- ==== Proof.KI.ArgsK.lean ====
/-
  The launch contents of the kernel program's twelve arguments on a core, as the specification's arrays.
-/
import proofs.«406928_j20959440404551_3_alg».proof.Proof.KI.Kit
import proofs.«406928_j20959440404551_3_alg».proof.Proof.SpecArrays

noncomputable section

namespace Cert.KernelIdeal.Gen

open Idealize.ShloMosaic Idealize.ShloMosaic.TcCoe Idealize.SL.Sem Cert.Density

/-- The launch contents of the twelve arguments on core `c`, as the specification's arrays. -/
def argsK (m : (ℓ : Loc nD τ sig) → Buf (Elt Ideal) ℓ) (c : Dev nD) : Args :=
  Args.ofArrays (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))

end Cert.KernelIdeal.Gen

end
-- ==== Proof.KI.Prefix.lean ====
/-
  What the region finds in its three input arrays. The node array is the ten per-node arrays — the two halves of
  the position array, the two sizes, the six coefficients — stacked as rows and padded on the right with zeros
  (the converted integer 0) from 1,000,000 to 1,003,520 columns; the two bin-centre arrays are reshaped to rows.
  And the node window's block at grid point t: columns t·2048 … t·2048 + 2047 of all ten rows.
-/
import proofs.«406928_j20959440404551_3_alg».proof.Proof.KI.Kit
import proofs.«406928_j20959440404551_3_alg».proof.Proof.KI.ArgsK
import proofs.«406928_j20959440404551_3_alg».proof.Proof.SpecK
import proofs.«406928_j20959440404551_3_alg».proof.Proof.SpecArrays
import Idealize.ShloMosaic.Lib.ValueIdx
import Idealize.ShloMosaic.Lib.Pipeline.Value
import Idealize.ShloMosaic.Lib.StableHlo.Run
import Idealize.ShloMosaic.Lib.KernelVsHost

set_option maxRecDepth 16384

noncomputable section

namespace Cert.KernelIdeal.Gen

open Idealize.ShloMosaic Idealize.ShloMosaic.TcCoe Idealize.ShloMosaic.ValueIdx Idealize.SL.Sem Cert.Density

variable (m : (ℓ : Loc nD τ sig) → Buf (Elt Ideal) ℓ)

/-- A per-node array as one row. -/
abbrev asRow (a : S1000000.Idx → EReal) : S1x1000000.Idx → EReal :=
  broadcastInDim S1x1000000 ![1] bcast_S1000000_S1x1000000_1 a

/-- Ten rows stacked. -/
abbrev stack (r0 r1 r2 r3 r4 r5 r6 r7 r8 r9 : S1x1000000.Idx → EReal) : S10x1000000.Idx → EReal :=
  concatenate S10x1000000 0
    [⟨S1x1000000, r0⟩, ⟨S1x1000000, r1⟩, ⟨S1x1000000, r2⟩, ⟨S1x1000000, r3⟩, ⟨S1x1000000, r4⟩,
     ⟨S1x1000000, r5⟩, ⟨S1x1000000, r6⟩, ⟨S1x1000000, r7⟩, ⟨S1x1000000, r8⟩, ⟨S1x1000000, r9⟩]
    concatenates_S1x1000000_S1x1000000_S1x1000000_S1x1000000_S1x1000000_S1x1000000_S1x1000000_S1x1000000_S1x1000000_S1x1000000_S10x1000000_d0

/-- The stack padded on the right with the converted integer zero. -/
abbrev padded (x : S10x1000000.Idx → EReal) : S10x1003520.Idx → EReal :=
  pad S10x1003520 ![0, 0] ![0, 3520] ![0, 0] x (sitofp (F := Ideal) .f32 (constantI S_ 32 0#32)) pads_S10x1000000_S10x1003520_000_035200 h_S_

/-- What the last six host operations before the region leave in the node array, from any contents before them:
    the ten row buffers stacked and padded. -/
theorem tail_v13 (F : Valuation τ sig (Elt Ideal)) :
    (StableHlo.after ((hostOps0 (F := Ideal)).drop 12 ++ hostOps0_1 ++ hostOps0_2) F (Proc.devRef .tc main_v13) : S10x1003520.Idx → EReal)
      = padded (stack (F (Proc.devRef .tc main_v2)) (F (Proc.devRef .tc main_v3)) (F (Proc.devRef .tc main_v4))
          (F (Proc.devRef .tc main_v5)) (F (Proc.devRef .tc main_v6)) (F (Proc.devRef .tc main_v7)) (F (Proc.devRef .tc main_v8))
          (F (Proc.devRef .tc main_v9)) (F (Proc.devRef .tc main_v10)) (F (Proc.devRef .tc main_v11))) := by
  show StableHlo.after [_, _, _, _, _, _] F (Proc.devRef .tc main_v13) = _
  simp only [StableHlo.TRef.unary, StableHlo.TRef.binary]
  after_results
  simp only [Matrix.cons_val_zero, Matrix.cons_val_one, Matrix.cons_val]
  rfl

/-! ## The node array: what each stretch of host operations leaves -/

theorem row0_eq (c : Dev nD) :
    (StableHlo.after ((hostOps0 (F := Ideal)).take 12) (fun b => m (c, b)) (Proc.devRef .tc main_v2) : S1x1000000.Idx → EReal)
      = asRow (extractStridedSlice S1000000 ![0] (m ((c.tc : Thread nD τ).loc main_arg0)) slices_S2000000_S1000000_0) := by
  show StableHlo.after [_, _, _, _, _, _, _, _, _, _, _, _] _ (Proc.devRef .tc main_v2) = _
  after_results

theorem row1_eq (c : Dev nD) :
    (StableHlo.after ((hostOps0 (F := Ideal)).take 12) (fun b => m (c, b)) (Proc.devRef .tc main_v3) : S1x1000000.Idx → EReal)
      = asRow (extractStridedSlice S1000000 ![1000000] (m ((c.tc : Thread nD τ).loc main_arg0)) slices_S2000000_S1000000_1000000) := by
  show StableHlo.after [_, _, _, _, _, _, _, _, _, _, _, _] _ (Proc.devRef .tc main_v3) = _
  after_results

theorem row2_eq (c : Dev nD) :
    (StableHlo.after ((hostOps0 (F := Ideal)).take 12) (fun b => m (c, b)) (Proc.devRef .tc main_v4) : S1x1000000.Idx → EReal)
      = asRow (m ((c.tc : Thread nD τ).loc main_arg1)) := by
  show StableHlo.after [_, _, _, _, _, _, _, _, _, _, _, _] _ (Proc.devRef .tc main_v4) = _
  after_results

theorem row3_eq (c : Dev nD) :
    (StableHlo.after ((hostOps0 (F := Ideal)).take 12) (fun b => m (c, b)) (Proc.devRef .tc main_v5) : S1x1000000.Idx → EReal)
      = asRow (m ((c.tc : Thread nD τ).loc main_arg2)) := by
  show StableHlo.after [_, _, _, _, _, _, _, _, _, _, _, _] _ (Proc.devRef .tc main_v5) = _
  after_results

theorem row4_eq (c : Dev nD) :
    (StableHlo.after ((hostOps0 (F := Ideal)).take 12) (fun b => m (c, b)) (Proc.devRef .tc main_v6) : S1x1000000.Idx → EReal)
      = asRow (m ((c.tc : Thread nD τ).loc main_arg3)) := by
  show StableHlo.after [_, _, _, _, _, _, _, _, _, _, _, _] _ (Proc.devRef .tc main_v6) = _
  after_results

theorem row5_eq (c : Dev nD) :
    (StableHlo.after ((hostOps0 (F := Ideal)).take 12) (fun b => m (c, b)) (Proc.devRef .tc main_v7) : S1x1000000.Idx → EReal)
      = asRow (m ((c.tc : Thread nD τ).loc main_arg4)) := by
  show StableHlo.after [_, _, _, _, _, _, _, _, _, _, _, _] _ (Proc.devRef .tc main_v7) = _
  after_results

theorem row6_eq (c : Dev nD) :
    (StableHlo.after ((hostOps0 (F := Ideal)).take 12) (fun b => m (c, b)) (Proc.devRef .tc main_v8) : S1x1000000.Idx → EReal)
      = asRow (m ((c.tc : Thread nD τ).loc main_arg5)) := by
  show StableHlo.after [_, _, _, _, _, _, _, _, _, _, _, _] _ (Proc.devRef .tc main_v8) = _
  after_results

theorem row7_eq (c : Dev nD) :
    (StableHlo.after ((hostOps0 (F := Ideal)).take 12) (fun b => m (c, b)) (Proc.devRef .tc main_v9) : S1x1000000.Idx → EReal)
      = asRow (m ((c.tc : Thread nD τ).loc main_arg6)) := by
  show StableHlo.after [_, _, _, _, _, _, _, _, _, _, _, _] _ (Proc.devRef .tc main_v9) = _
  after_results

theorem row8_eq (c : Dev nD) :
    (StableHlo.after ((hostOps0 (F := Ideal)).take 12) (fun b => m (c, b)) (Proc.devRef .tc main_v10) : S1x1000000.Idx → EReal)
      = asRow (m ((c.tc : Thread nD τ).loc main_arg7)) := by
  show StableHlo.after [_, _, _, _, _, _, _, _, _, _, _, _] _ (Proc.devRef .tc main_v10) = _
  after_results

theorem row9_eq (c : Dev nD) :
    (StableHlo.after ((hostOps0 (F := Ideal)).take 12) (fun b => m (c, b)) (Proc.devRef .tc main_v11) : S1x1000000.Idx → EReal)
      = asRow (m ((c.tc : Thread nD τ).loc main_arg8)) := by
  show StableHlo.after [_, _, _, _, _, _, _, _, _, _, _, _] _ (Proc.devRef .tc main_v11) = _
  after_results

/-- The node array as the region finds it: the ten rows stacked and padded. -/
theorem V13_eq (c : Dev nD) :
    (V m c main_v13 : S10x1003520.Idx → EReal) =
      padded (stack (asRow (extractStridedSlice S1000000 ![0] (m ((c.tc : Thread nD τ).loc main_arg0)) slices_S2000000_S1000000_0))
        (asRow (extractStridedSlice S1000000 ![1000000] (m ((c.tc : Thread nD τ).loc main_arg0)) slices_S2000000_S1000000_1000000))
        (asRow (m ((c.tc : Thread nD τ).loc main_arg1)))
        (asRow (m ((c.tc : Thread nD τ).loc main_arg2)))
        (asRow (m ((c.tc : Thread nD τ).loc main_arg3)))
        (asRow (m ((c.tc : Thread nD τ).loc main_arg4)))
        (asRow (m ((c.tc : Thread nD τ).loc main_arg5)))
        (asRow (m ((c.tc : Thread nD τ).loc main_arg6)))
        (asRow (m ((c.tc : Thread nD τ).loc main_arg7)))
        (asRow (m ((c.tc : Thread nD τ).loc main_arg8)))) := by
  have h : (V m c main_v13 : S10x1003520.Idx → EReal)
      = StableHlo.after ((hostOps0 (F := Ideal)).drop 12 ++ hostOps0_1 ++ hostOps0_2)
          (StableHlo.after ((hostOps0 (F := Ideal)).take 12) (fun b => m (c, b))) (Proc.devRef .tc main_v13) := rfl
  rw [h, tail_v13, row0_eq, row1_eq, row2_eq, row3_eq, row4_eq, row5_eq, row6_eq, row7_eq, row8_eq, row9_eq]

/-! ## Reading the stack at an index -/

/-- A row reads its array at the column. -/
theorem asRow_apply (a : S1000000.Idx → EReal) (n : Fin 1000000) : asRow a (ix2 0 n) = a (ix1 n) :=
  broadcastInDim_apply _ _ a (ix2 0 n) (ix1 n) (fun b => by
    match b with
    | ⟨0, _⟩ => show n.val = if (1000000 : ℕ) = 1 then 0 else n.val; rw [if_neg (by decide)])

/-- The first half of the position array at n is the array at n, -/
theorem slice0_apply (a0 : S2000000.Idx → EReal) (n : Fin 1000000) :
    extractStridedSlice S1000000 ![0] a0 slices_S2000000_S1000000_0 (ix1 n) = a0 (ix1 ⟨n.val, by omega⟩) :=
  extractStridedSlice_apply _ a0 _ (ix1 n) (ix1 ⟨n.val, by omega⟩) (fun b => by
    match b with
    | ⟨0, _⟩ => show n.val = 0 + n.val; omega)
/-- and the second half at n is the array at 1000000 + n. -/
theorem slice1_apply (a0 : S2000000.Idx → EReal) (n : Fin 1000000) :
    extractStridedSlice S1000000 ![1000000] a0 slices_S2000000_S1000000_1000000 (ix1 n) = a0 (ix1 ⟨1000000 + n.val, by omega⟩) :=
  extractStridedSlice_apply _ a0 _ (ix1 n) (ix1 ⟨1000000 + n.val, by omega⟩) (fun b => by
    match b with
    | ⟨0, _⟩ => show 1000000 + n.val = 1000000 + n.val; rfl)

/-- The stack at (k, n) is row k at (0, n): each row has one line, so the k rows before row k fill lines 0 … k-1. -/
theorem stack_apply (r0 r1 r2 r3 r4 r5 r6 r7 r8 r9 : S1x1000000.Idx → EReal) (k : Fin 10) (n : Fin 1000000) :
    stack r0 r1 r2 r3 r4 r5 r6 r7 r8 r9 (ix2 k n) = (![r0, r1, r2, r3, r4, r5, r6, r7, r8, r9] k) (ix2 0 n) := by
  have hi : ∀ (K : Fin 10) (b : Fin 2), b ≠ 0 → ((ix2 (0 : Fin 1) n : S1x1000000.Idx) b).val = ((ix2 K n : S10x1000000.Idx) b).val := by
    intro K b hb
    match b with
    | ⟨0, _⟩ => exact absurd rfl hb
    | ⟨1, _⟩ => rfl
  match k with
  | ⟨0, _⟩ => exact concatenate_apply_piece (t := S10x1000000) 0 _ _ _ 0 (by simp) S1x1000000 r0 rfl rfl 0 rfl (ix2 0 n) (hi _) rfl
  | ⟨1, _⟩ => exact concatenate_apply_piece (t := S10x1000000) 0 _ _ _ 1 (by simp) S1x1000000 r1 rfl rfl 1 rfl (ix2 0 n) (hi _) rfl
  | ⟨2, _⟩ => exact concatenate_apply_piece (t := S10x1000000) 0 _ _ _ 2 (by simp) S1x1000000 r2 rfl rfl 2 rfl (ix2 0 n) (hi _) rfl
  | ⟨3, _⟩ => exact concatenate_apply_piece (t := S10x1000000) 0 _ _ _ 3 (by simp) S1x1000000 r3 rfl rfl 3 rfl (ix2 0 n) (hi _) rfl
  | ⟨4, _⟩ => exact concatenate_apply_piece (t := S10x1000000) 0 _ _ _ 4 (by simp) S1x1000000 r4 rfl rfl 4 rfl (ix2 0 n) (hi _) rfl
  | ⟨5, _⟩ => exact concatenate_apply_piece (t := S10x1000000) 0 _ _ _ 5 (by simp) S1x1000000 r5 rfl rfl 5 rfl (ix2 0 n) (hi _) rfl
  | ⟨6, _⟩ => exact concatenate_apply_piece (t := S10x1000000) 0 _ _ _ 6 (by simp) S1x1000000 r6 rfl rfl 6 rfl (ix2 0 n) (hi _) rfl
  | ⟨7, _⟩ => exact concatenate_apply_piece (t := S10x1000000) 0 _ _ _ 7 (by simp) S1x1000000 r7 rfl rfl 7 rfl (ix2 0 n) (hi _) rfl
  | ⟨8, _⟩ => exact concatenate_apply_piece (t := S10x1000000) 0 _ _ _ 8 (by simp) S1x1000000 r8 rfl rfl 8 rfl (ix2 0 n) (hi _) rfl
  | ⟨9, _⟩ => exact concatenate_apply_piece (t := S10x1000000) 0 _ _ _ 9 (by simp) S1x1000000 r9 rfl rfl 9 rfl (ix2 0 n) (hi _) rfl

/-- The node array as the region finds it: the stacked, padded arrays. -/
theorem V_main_v13_apply (c : Dev nD) (k : Fin 10) (n : Fin 1003520) :
    (V m c main_v13 : S10x1003520.Idx → EReal) (ix2 k n) = (argsK m c).nodes k n := by
  rw [V13_eq]
  unfold Args.nodes
  by_cases h : n.val < 1000000
  · -- a node's column: the padded stack reads the stack, the stack its row k, the row its array at n
    rw [dif_pos h]
    refine (pad_apply_of_inside _ _ _ _ _ _ _ (ix2 k n) (ix2 k ⟨n.val, h⟩) ?_).trans ?_
    · intro a
      match a with
      | ⟨0, _⟩ => show k.val = 0 + k.val * (0 + 1); omega
      | ⟨1, _⟩ => show n.val = 0 + n.val * (0 + 1); omega
    · rw [stack_apply]
      match k with
      | ⟨0, _⟩ => exact (asRow_apply _ _).trans (slice0_apply _ _)
      | ⟨1, _⟩ => exact (asRow_apply _ _).trans (slice1_apply _ _)
      | ⟨2, _⟩ => exact asRow_apply _ _
      | ⟨3, _⟩ => exact asRow_apply _ _
      | ⟨4, _⟩ => exact asRow_apply _ _
      | ⟨5, _⟩ => exact asRow_apply _ _
      | ⟨6, _⟩ => exact asRow_apply _ _
      | ⟨7, _⟩ => exact asRow_apply _ _
      | ⟨8, _⟩ => exact asRow_apply _ _
      | ⟨9, _⟩ => exact asRow_apply _ _
  · -- a padding column: the converted integer zero
    rw [dif_neg h]
    refine (pad_apply_of_not_inside _ _ _ _ _ _ _ (ix2 k n) (1 : Fin 2) ?_).trans ?_
    · show ¬(0 ≤ n.val ∧ (n.val - 0) % (0 + 1) = 0 ∧ (n.val - 0) / (0 + 1) < 1000000)
      omega
    · show (((0#32 : BitVec 32).toInt : ℝ) : EReal) = 0
      simp

/-- The x bin-centre row as the region finds it. -/
theorem V_main_v14_apply (c : Dev nD) (p : Fin 512) :
    (V m c main_v14 : S1x512.Idx → EReal) (ix2 0 p) = (argsK m c).binx p := by
  have e : (V m c main_v14 : S1x512.Idx → EReal)
      = shapeCast S1x512 (m ((c.tc : Thread nD τ).loc main_arg9) : S512.Idx → EReal) shapeCasts_S512_S1x512 := by
    dsimp only [V, V0]
    simp only [hostOps0, hostOps0_1, hostOps0_2, StableHlo.TRef.unary, StableHlo.TRef.binary, List.flatten_cons, List.flatten_nil, List.append_nil, List.cons_append, List.nil_append]
    after_results
    rfl
  rw [e]
  refine (shapeCast_apply _ _ (ix2 0 p) (ix1 p) ?_).trans rfl
  rw [Shape.rowMajor_val_one, Shape.rowMajor_val_two]
  show p.val = 0 * _ + p.val
  omega

/-- The y bin-centre row. -/
theorem V_main_v15_apply (c : Dev nD) (q : Fin 512) :
    (V m c main_v15 : S1x512.Idx → EReal) (ix2 0 q) = (argsK m c).biny q := by
  have e : (V m c main_v15 : S1x512.Idx → EReal)
      = shapeCast S1x512 (m ((c.tc : Thread nD τ).loc main_arg10) : S512.Idx → EReal) shapeCasts_S512_S1x512 := by
    dsimp only [V, V0]
    simp only [hostOps0, hostOps0_1, hostOps0_2, StableHlo.TRef.unary, StableHlo.TRef.binary, List.flatten_cons, List.flatten_nil, List.append_nil, List.cons_append, List.nil_append]
    after_results
    rfl
  rw [e]
  refine (shapeCast_apply _ _ (ix2 0 q) (ix1 q) ?_).trans rfl
  rw [Shape.rowMajor_val_one, Shape.rowMajor_val_two]
  show q.val = 0 * _ + q.val
  omega

/-- The printed index maps over the grid: the node window's block index is (0, t); the bin windows' is (0, 0). -/
theorem idx_facts : ∀ t : Fin cfg0.N, win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The node window's block at point `t`: row k, column j of the block is column t·2048 + j of the array. -/
theorem iblk0_apply (c : Dev nD) (t : Fin cfg0.N) (k : Fin 10) (j : Fin 2048) (ht : t.val * 2048 + j.val < 1003520) :
    (iblk m c 0 t : S10x2048.Idx → EReal) (ix2 k j) = (V m c main_v13 : S10x1003520.Idx → EReal) (ix2 k ⟨t.val * 2048 + j.val, ht⟩) := by
  obtain ⟨e0, e1, -, -, -, -⟩ := idx_facts t
  show (V m c main_v13 : S10x1003520.Idx → EReal) (((cfg0.win 0).blk t).view.emb (ix2 k j)) = _
  refine congrArg _ (funext fun a => Fin.ext ?_)
  match a with
  | ⟨0, _⟩ => show win0_0.index t (0 : Fin 2) * 10 + 1 * k.val = k.val; omega
  | ⟨1, _⟩ => show win0_0.index t (1 : Fin 2) * 2048 + 1 * j.val = t.val * 2048 + j.val; omega

/-- The bin-centre windows' blocks are the whole rows, at every point. -/
theorem iblk1_apply (c : Dev nD) (t : Fin cfg0.N) (p : Fin 512) :
    (iblk m c 1 t : S1x512.Idx → EReal) (ix2 0 p) = (V m c main_v14 : S1x512.Idx → EReal) (ix2 0 p) := by
  obtain ⟨-, -, e0, e1, -, -⟩ := idx_facts t
  show (V m c main_v14 : S1x512.Idx → EReal) (((cfg0.win 1).blk t).view.emb (ix2 0 p)) = _
  refine congrArg _ (funext fun a => Fin.ext ?_)
  match a with
  | ⟨0, _⟩ => show win0_1.index t (0 : Fin 2) * 1 + 1 * 0 = 0; omega
  | ⟨1, _⟩ => show win0_1.index t (1 : Fin 2) * 512 + 1 * p.val = p.val; omega
theorem iblk2_apply (c : Dev nD) (t : Fin cfg0.N) (q : Fin 512) :
    (iblk m c 2 t : S1x512.Idx → EReal) (ix2 0 q) = (V m c main_v15 : S1x512.Idx → EReal) (ix2 0 q) := by
  obtain ⟨-, -, -, -, e0, e1⟩ := idx_facts t
  show (V m c main_v15 : S1x512.Idx → EReal) (((cfg0.win 2).blk t).view.emb (ix2 0 q)) = _
  refine congrArg _ (funext fun a => Fin.ext ?_)
  match a with
  | ⟨0, _⟩ => show win0_2.index t (0 : Fin 2) * 1 + 1 * 0 = 0; omega
  | ⟨1, _⟩ => show win0_2.index t (1 : Fin 2) * 512 + 1 * q.val = q.val; omega

end Cert.KernelIdeal.Gen

end
-- ==== Proof.SpecK2.lean ====
/-
  A grid point's contribution as a function of a natural number (zero past the grid), so that a fold over a run of
  points can be stated without bounds.
-/
import proofs.«406928_j20959440404551_3_alg».proof.Proof.SpecK

noncomputable section

namespace Cert.Density

/-- Point `n`'s contribution to bin (p, q); zero for `n` past the 490 points. -/
def Args.pointTermN (A : Args) (n : ℕ) (p q : Fin 512) : EReal :=
  if h : n < 490 then A.pointTerm ⟨n, h⟩ p q else 0

theorem Args.pointTermN_of_lt (A : Args) (n : ℕ) (h : n < 490) (p q : Fin 512) :
    A.pointTermN n p q = A.pointTerm ⟨n, h⟩ p q := dif_pos h

end Cert.Density

end
-- ==== Proof.KI.Accumulate.lean ====
/-
  The accumulation, over the extended reals. One grid point's update of the accumulator adds, bin by bin, the
  point's contribution — both half-chunks' rows, read from the stacked and padded node array — to what the accumulator
  held; the accumulator is zero after the reset at a row's first point; so after the point at offset j of its row it
  holds the sum of the contributions of the row's points 0 … j, and the output block stored at the row's last point
  holds the whole row's.
-/
import proofs.«406928_j20959440404551_3_alg».proof.Proof.KI.Pieces
import proofs.«406928_j20959440404551_3_alg».proof.Proof.KI.BodyValue
import proofs.«406928_j20959440404551_3_alg».proof.Proof.KI.Prefix
import proofs.«406928_j20959440404551_3_alg».proof.Proof.SpecK2
import Idealize.ShloMosaic.Lib.IdealHost

set_option maxRecDepth 16384

noncomputable section

namespace Cert.KernelIdeal.Gen

open Idealize.ShloMosaic Idealize.ShloMosaic.TcCoe Idealize.ShloMosaic.ValueIdx Idealize.SL.Sem Cert.Density
open Idealize.ShloMosaic.Pipeline (Dat)

/-! ## Loads through a staging buffer that holds a block -/

section Loads
variable {F : FTy → Type} [FloatOps F]

theorem ldBin_eq (arg : Memref sig .tc .vmem S1x512 .f32) (harg : arg.IsWhole) (x : Vec F S1x512 .f32) : ldBin arg harg x = x := by
  show View.ld (arg.view.read (Elt F) (harg.unread x)) _ = _
  rw [harg.read_unread]
  exact View.ld_unit_zero (S := S1x512) hz2 _ x

theorem ldRow0_apply (arg2 : Memref sig .tc .vmem S10x2048 .f32) (harg2 : arg2.IsWhole) (x0 : Vec F S10x2048 .f32) (j : Fin 2048) :
    ldRow0 arg2 harg2 x0 (ix2 0 j) = x0 (ix2 0 j) := by
  show View.ld (arg2.view.read (Elt F) (harg2.unread x0)) _ _ = _
  rw [harg2.read_unread]
  show x0 _ = x0 _
  congr 1; funext a; fin_cases a <;> apply Fin.ext <;> simp [Rect.unit, ix2]
theorem ldRow1_apply (arg2 : Memref sig .tc .vmem S10x2048 .f32) (harg2 : arg2.IsWhole) (x0 : Vec F S10x2048 .f32) (j : Fin 2048) :
    ldRow1 arg2 harg2 x0 (ix2 0 j) = x0 (ix2 1 j) := by
  show View.ld (arg2.view.read (Elt F) (harg2.unread x0)) _ _ = _
  rw [harg2.read_unread]
  show x0 _ = x0 _
  congr 1; funext a; fin_cases a <;> apply Fin.ext <;> simp [Rect.unit, ix2]
theorem ldRow2_apply (arg2 : Memref sig .tc .vmem S10x2048 .f32) (harg2 : arg2.IsWhole) (x0 : Vec F S10x2048 .f32) (j : Fin 2048) :
    ldRow2 arg2 harg2 x0 (ix2 0 j) = x0 (ix2 2 j) := by
  show View.ld (arg2.view.read (Elt F) (harg2.unread x0)) _ _ = _
  rw [harg2.read_unread]
  show x0 _ = x0 _
  congr 1; funext a; fin_cases a <;> apply Fin.ext <;> simp [Rect.unit, ix2]
theorem ldRow3_apply (arg2 : Memref sig .tc .vmem S10x2048 .f32) (harg2 : arg2.IsWhole) (x0 : Vec F S10x2048 .f32) (j : Fin 2048) :
    ldRow3 arg2 harg2 x0 (ix2 0 j) = x0 (ix2 3 j) := by
  show View.ld (arg2.view.read (Elt F) (harg2.unread x0)) _ _ = _
  rw [harg2.read_unread]
  show x0 _ = x0 _
  congr 1; funext a; fin_cases a <;> apply Fin.ext <;> simp [Rect.unit, ix2]
theorem ldRow4_apply (arg2 : Memref sig .tc .vmem S10x2048 .f32) (harg2 : arg2.IsWhole) (x0 : Vec F S10x2048 .f32) (j : Fin 2048) :
    ldRow4 arg2 harg2 x0 (ix2 0 j) = x0 (ix2 4 j) := by
  show View.ld (arg2.view.read (Elt F) (harg2.unread x0)) _ _ = _
  rw [harg2.read_unread]
  show x0 _ = x0 _
  congr 1; funext a; fin_cases a <;> apply Fin.ext <;> simp [Rect.unit, ix2]
theorem ldRow5_apply (arg2 : Memref sig .tc .vmem S10x2048 .f32) (harg2 : arg2.IsWhole) (x0 : Vec F S10x2048 .f32) (j : Fin 2048) :
    ldRow5 arg2 harg2 x0 (ix2 0 j) = x0 (ix2 5 j) := by
  show View.ld (arg2.view.read (Elt F) (harg2.unread x0)) _ _ = _
  rw [harg2.read_unread]
  show x0 _ = x0 _
  congr 1; funext a; fin_cases a <;> apply Fin.ext <;> simp [Rect.unit, ix2]
theorem ldRow6_apply (arg2 : Memref sig .tc .vmem S10x2048 .f32) (harg2 : arg2.IsWhole) (x0 : Vec F S10x2048 .f32) (j : Fin 2048) :
    ldRow6 arg2 harg2 x0 (ix2 0 j) = x0 (ix2 6 j) := by
  show View.ld (arg2.view.read (Elt F) (harg2.unread x0)) _ _ = _
  rw [harg2.read_unread]
  show x0 _ = x0 _
  congr 1; funext a; fin_cases a <;> apply Fin.ext <;> simp [Rect.unit, ix2]
theorem ldRow7_apply (arg2 : Memref sig .tc .vmem S10x2048 .f32) (harg2 : arg2.IsWhole) (x0 : Vec F S10x2048 .f32) (j : Fin 2048) :
    ldRow7 arg2 harg2 x0 (ix2 0 j) = x0 (ix2 7 j) := by
  show View.ld (arg2.view.read (Elt F) (harg2.unread x0)) _ _ = _
  rw [harg2.read_unread]
  show x0 _ = x0 _
  congr 1; funext a; fin_cases a <;> apply Fin.ext <;> simp [Rect.unit, ix2]
theorem ldRow8_apply (arg2 : Memref sig .tc .vmem S10x2048 .f32) (harg2 : arg2.IsWhole) (x0 : Vec F S10x2048 .f32) (j : Fin 2048) :
    ldRow8 arg2 harg2 x0 (ix2 0 j) = x0 (ix2 8 j) := by
  show View.ld (arg2.view.read (Elt F) (harg2.unread x0)) _ _ = _
  rw [harg2.read_unread]
  show x0 _ = x0 _
  congr 1; funext a; fin_cases a <;> apply Fin.ext <;> simp [Rect.unit, ix2]
theorem ldRow9_apply (arg2 : Memref sig .tc .vmem S10x2048 .f32) (harg2 : arg2.IsWhole) (x0 : Vec F S10x2048 .f32) (j : Fin 2048) :
    ldRow9 arg2 harg2 x0 (ix2 0 j) = x0 (ix2 9 j) := by
  show View.ld (arg2.view.read (Elt F) (harg2.unread x0)) _ _ = _
  rw [harg2.read_unread]
  show x0 _ = x0 _
  congr 1; funext a; fin_cases a <;> apply Fin.ext <;> simp [Rect.unit, ix2]

end Loads

variable (m : (ℓ : Loc nD τ sig) → Buf (Elt Ideal) ℓ)

/-- The three input blocks at a point, at their literal types. -/
abbrev nblk (c : Dev nD) (t : Fin cfg0.N) : Vec Ideal S10x2048 .f32 := iblk m c 0 t
abbrev bxblk (c : Dev nD) (t : Fin cfg0.N) : Vec Ideal S1x512 .f32 := iblk m c 1 t
abbrev byblk (c : Dev nD) (t : Fin cfg0.N) : Vec Ideal S1x512 .f32 := iblk m c 2 t

theorem nblk_apply (c : Dev nD) (t : Fin cfg0.N) (k : Fin 10) (j : Fin 2048) (ht : t.val * 2048 + j.val < 1003520) :
    nblk m c t (ix2 k j) = (V m c main_v13 : S10x1003520.Idx → EReal) (ix2 k ⟨t.val * 2048 + j.val, ht⟩) := iblk0_apply m c t k j ht
theorem bxblk_apply (c : Dev nD) (t : Fin cfg0.N) (p : Fin 512) : bxblk m c t (ix2 0 p) = (argsK m c).binx p :=
  (iblk1_apply m c t p).trans (V_main_v14_apply m c p)
theorem byblk_apply (c : Dev nD) (t : Fin cfg0.N) (q : Fin 512) : byblk m c t (ix2 0 q) = (argsK m c).biny q :=
  (iblk2_apply m c t q).trans (V_main_v15_apply m c q)

/-- The chunk word of point `t` is `t`. -/
theorem chunkW_coords : ∀ t : Fin cfg0.N, chunkW (grid0.coords t) = BitVec.ofNat 32 t.val :=
  (by decide +kernel : ∀ t : Fin grid0.N, chunkW (grid0.coords t) = BitVec.ofNat 32 t.val)

/-- ONE POINT, for any loaded values that are the point's blocks of the stacked node array and the bin-centre rows: the
    body's update adds the point's contribution, bin by bin. -/
theorem point_generic (A : Args) (g : Fin 490) (v4 : BitVec 32) (hv4 : v4 = BitVec.ofNat 32 g.val)
    (b1 b2 : Vec Ideal S1x512 .f32) (r0 r1 r2 r3 r4 r5 r6 r7 r8 r9 : Vec Ideal S1x2048 .f32)
    (hb1 : ∀ p : Fin 512, b1 (ix2 0 p) = A.binx p) (hb2 : ∀ q : Fin 512, b2 (ix2 0 q) = A.biny q)
    (h0 : ∀ (j : Fin 2048) (n : Fin 1003520), n.val = g.val * 2048 + j.val → r0 (ix2 0 j) = A.nodes 0 n)
    (h1 : ∀ (j : Fin 2048) (n : Fin 1003520), n.val = g.val * 2048 + j.val → r1 (ix2 0 j) = A.nodes 1 n)
    (h2 : ∀ (j : Fin 2048) (n : Fin 1003520), n.val = g.val * 2048 + j.val → r2 (ix2 0 j) = A.nodes 2 n)
    (h3 : ∀ (j : Fin 2048) (n : Fin 1003520), n.val = g.val * 2048 + j.val → r3 (ix2 0 j) = A.nodes 3 n)
    (h4 : ∀ (j : Fin 2048) (n : Fin 1003520), n.val = g.val * 2048 + j.val → r4 (ix2 0 j) = A.nodes 4 n)
    (h5 : ∀ (j : Fin 2048) (n : Fin 1003520), n.val = g.val * 2048 + j.val → r5 (ix2 0 j) = A.nodes 5 n)
    (h6 : ∀ (j : Fin 2048) (n : Fin 1003520), n.val = g.val * 2048 + j.val → r6 (ix2 0 j) = A.nodes 6 n)
    (h7 : ∀ (j : Fin 2048) (n : Fin 1003520), n.val = g.val * 2048 + j.val → r7 (ix2 0 j) = A.nodes 7 n)
    (h8 : ∀ (j : Fin 2048) (n : Fin 1003520), n.val = g.val * 2048 + j.val → r8 (ix2 0 j) = A.nodes 8 n)
    (h9 : ∀ (j : Fin 2048) (n : Fin 1003520), n.val = g.val * 2048 + j.val → r9 (ix2 0 j) = A.nodes 9 n)
    (prev : Vec Ideal S512x512 .f32) (p q : Fin 512) :
    accBody (F := Ideal) v4 b1 b2 r0 r1 r2 r3 r4 r5 r6 r7 r8 r9 prev (ix2 p q) = prev (ix2 p q) + A.pointTerm g p q := by
  subst hv4
  rw [accBody_apply, add_assoc]
  congr 1
  unfold Args.pointTerm
  rw [Fin.sum_univ_two]
  refine congrArg₂ (fun a b : EReal => a + b) ?_ ?_
  · refine Finset.sum_congr rfl fun r _ => ?_
    have hlo : (col g 0 r).val = g.val * 2048 + (loRow r).val := by
      show g.val * 2048 + (0 : Fin 2).val * 1024 + r.val = g.val * 2048 + r.val
      simp
    rw [hb1 p, hb2 q, h0 (loRow r) (col g 0 r) hlo, h1 (loRow r) (col g 0 r) hlo, h2 (loRow r) (col g 0 r) hlo, h3 (loRow r) (col g 0 r) hlo, h4 (loRow r) (col g 0 r) hlo, h5 (loRow r) (col g 0 r) hlo, h6 (loRow r) (col g 0 r) hlo, h7 (loRow r) (col g 0 r) hlo, h8 (loRow r) (col g 0 r) hlo, h9 (loRow r) (col g 0 r) hlo]
    rfl
  · refine Finset.sum_congr rfl fun r _ => ?_
    have hhi : (col g 1 r).val = g.val * 2048 + (hiRow r).val := by
      show g.val * 2048 + (1 : Fin 2).val * 1024 + r.val = g.val * 2048 + (1024 + r.val)
      simp; omega
    rw [hb1 p, hb2 q, h0 (hiRow r) (col g 1 r) hhi, h1 (hiRow r) (col g 1 r) hhi, h2 (hiRow r) (col g 1 r) hhi, h3 (hiRow r) (col g 1 r) hhi, h4 (hiRow r) (col g 1 r) hhi, h5 (hiRow r) (col g 1 r) hhi, h6 (hiRow r) (col g 1 r) hhi, h7 (hiRow r) (col g 1 r) hhi, h8 (hiRow r) (col g 1 r) hhi, h9 (hiRow r) (col g 1 r) hhi]
    rfl

set_option maxHeartbeats 1600000 in
/-- ONE POINT: the body's update at point `t` adds the point's contribution, bin by bin. -/
theorem point_apply (c : Dev nD) (t : Fin cfg0.N) (prev : Vec Ideal S512x512 .f32) (p q : Fin 512) :
    (accBody (chunkW (grid0.coords t)) (ldBin (ms0_1 t) (hs0_1 t) (bxblk m c t)) (ldBin (ms0_2 t) (hs0_2 t) (byblk m c t)) (ldRow0 (ms0_0 t) (hs0_0 t) (nblk m c t)) (ldRow1 (ms0_0 t) (hs0_0 t) (nblk m c t)) (ldRow2 (ms0_0 t) (hs0_0 t) (nblk m c t)) (ldRow3 (ms0_0 t) (hs0_0 t) (nblk m c t)) (ldRow4 (ms0_0 t) (hs0_0 t) (nblk m c t)) (ldRow5 (ms0_0 t) (hs0_0 t) (nblk m c t)) (ldRow6 (ms0_0 t) (hs0_0 t) (nblk m c t)) (ldRow7 (ms0_0 t) (hs0_0 t) (nblk m c t)) (ldRow8 (ms0_0 t) (hs0_0 t) (nblk m c t)) (ldRow9 (ms0_0 t) (hs0_0 t) (nblk m c t)) prev) (ix2 p q)
      = prev (ix2 p q) + (argsK m c).pointTermN t.val p q := by
  have hN : t.val < 490 := lt_of_lt_of_eq t.isLt (show cfg0.N = 490 from N_0)
  have hb1 : ∀ p' : Fin 512, (ldBin (ms0_1 t) (hs0_1 t) (bxblk m c t) : S1x512.Idx → EReal) (ix2 0 p') = (argsK m c).binx p' := fun p' => by
    rw [ldBin_eq (F := Ideal) (ms0_1 t) (hs0_1 t) (bxblk m c t)]; exact bxblk_apply m c t p'
  have hb2 : ∀ q' : Fin 512, (ldBin (ms0_2 t) (hs0_2 t) (byblk m c t) : S1x512.Idx → EReal) (ix2 0 q') = (argsK m c).biny q' := fun q' => by
    rw [ldBin_eq (F := Ideal) (ms0_2 t) (hs0_2 t) (byblk m c t)]; exact byblk_apply m c t q'
  have hr0 : ∀ (j : Fin 2048) (n : Fin 1003520), n.val = t.val * 2048 + j.val →
      (ldRow0 (ms0_0 t) (hs0_0 t) (nblk m c t) : S1x2048.Idx → EReal) (ix2 0 j) = (argsK m c).nodes 0 n := fun j n hn => by
    have e1 := ldRow0_apply (F := Ideal) (ms0_0 t) (hs0_0 t) (nblk m c t) j
    have e2 := nblk_apply m c t 0 j (by rw [← hn]; exact n.isLt)
    have e3 := V_main_v13_apply m c 0 ⟨t.val * 2048 + j.val, by rw [← hn]; exact n.isLt⟩
    have e4 : (⟨t.val * 2048 + j.val, by rw [← hn]; exact n.isLt⟩ : Fin 1003520) = n := Fin.ext hn.symm
    rw [e1, e2, e3, e4]
  have hr1 : ∀ (j : Fin 2048) (n : Fin 1003520), n.val = t.val * 2048 + j.val →
      (ldRow1 (ms0_0 t) (hs0_0 t) (nblk m c t) : S1x2048.Idx → EReal) (ix2 0 j) = (argsK m c).nodes 1 n := fun j n hn => by
    have e1 := ldRow1_apply (F := Ideal) (ms0_0 t) (hs0_0 t) (nblk m c t) j
    have e2 := nblk_apply m c t 1 j (by rw [← hn]; exact n.isLt)
    have e3 := V_main_v13_apply m c 1 ⟨t.val * 2048 + j.val, by rw [← hn]; exact n.isLt⟩
    have e4 : (⟨t.val * 2048 + j.val, by rw [← hn]; exact n.isLt⟩ : Fin 1003520) = n := Fin.ext hn.symm
    rw [e1, e2, e3, e4]
  have hr2 : ∀ (j : Fin 2048) (n : Fin 1003520), n.val = t.val * 2048 + j.val →
      (ldRow2 (ms0_0 t) (hs0_0 t) (nblk m c t) : S1x2048.Idx → EReal) (ix2 0 j) = (argsK m c).nodes 2 n := fun j n hn => by
    have e1 := ldRow2_apply (F := Ideal) (ms0_0 t) (hs0_0 t) (nblk m c t) j
    have e2 := nblk_apply m c t 2 j (by rw [← hn]; exact n.isLt)
    have e3 := V_main_v13_apply m c 2 ⟨t.val * 2048 + j.val, by rw [← hn]; exact n.isLt⟩
    have e4 : (⟨t.val * 2048 + j.val, by rw [← hn]; exact n.isLt⟩ : Fin 1003520) = n := Fin.ext hn.symm
    rw [e1, e2, e3, e4]
  have hr3 : ∀ (j : Fin 2048) (n : Fin 1003520), n.val = t.val * 2048 + j.val →
      (ldRow3 (ms0_0 t) (hs0_0 t) (nblk m c t) : S1x2048.Idx → EReal) (ix2 0 j) = (argsK m c).nodes 3 n := fun j n hn => by
    have e1 := ldRow3_apply (F := Ideal) (ms0_0 t) (hs0_0 t) (nblk m c t) j
    have e2 := nblk_apply m c t 3 j (by rw [← hn]; exact n.isLt)
    have e3 := V_main_v13_apply m c 3 ⟨t.val * 2048 + j.val, by rw [← hn]; exact n.isLt⟩
    have e4 : (⟨t.val * 2048 + j.val, by rw [← hn]; exact n.isLt⟩ : Fin 1003520) = n := Fin.ext hn.symm
    rw [e1, e2, e3, e4]
  have hr4 : ∀ (j : Fin 2048) (n : Fin 1003520), n.val = t.val * 2048 + j.val →
      (ldRow4 (ms0_0 t) (hs0_0 t) (nblk m c t) : S1x2048.Idx → EReal) (ix2 0 j) = (argsK m c).nodes 4 n := fun j n hn => by
    have e1 := ldRow4_apply (F := Ideal) (ms0_0 t) (hs0_0 t) (nblk m c t) j
    have e2 := nblk_apply m c t 4 j (by rw [← hn]; exact n.isLt)
    have e3 := V_main_v13_apply m c 4 ⟨t.val * 2048 + j.val, by rw [← hn]; exact n.isLt⟩
    have e4 : (⟨t.val * 2048 + j.val, by rw [← hn]; exact n.isLt⟩ : Fin 1003520) = n := Fin.ext hn.symm
    rw [e1, e2, e3, e4]
  have hr5 : ∀ (j : Fin 2048) (n : Fin 1003520), n.val = t.val * 2048 + j.val →
      (ldRow5 (ms0_0 t) (hs0_0 t) (nblk m c t) : S1x2048.Idx → EReal) (ix2 0 j) = (argsK m c).nodes 5 n := fun j n hn => by
    have e1 := ldRow5_apply (F := Ideal) (ms0_0 t) (hs0_0 t) (nblk m c t) j
    have e2 := nblk_apply m c t 5 j (by rw [← hn]; exact n.isLt)
    have e3 := V_main_v13_apply m c 5 ⟨t.val * 2048 + j.val, by rw [← hn]; exact n.isLt⟩
    have e4 : (⟨t.val * 2048 + j.val, by rw [← hn]; exact n.isLt⟩ : Fin 1003520) = n := Fin.ext hn.symm
    rw [e1, e2, e3, e4]
  have hr6 : ∀ (j : Fin 2048) (n : Fin 1003520), n.val = t.val * 2048 + j.val →
      (ldRow6 (ms0_0 t) (hs0_0 t) (nblk m c t) : S1x2048.Idx → EReal) (ix2 0 j) = (argsK m c).nodes 6 n := fun j n hn => by
    have e1 := ldRow6_apply (F := Ideal) (ms0_0 t) (hs0_0 t) (nblk m c t) j
    have e2 := nblk_apply m c t 6 j (by rw [← hn]; exact n.isLt)
    have e3 := V_main_v13_apply m c 6 ⟨t.val * 2048 + j.val, by rw [← hn]; exact n.isLt⟩
    have e4 : (⟨t.val * 2048 + j.val, by rw [← hn]; exact n.isLt⟩ : Fin 1003520) = n := Fin.ext hn.symm
    rw [e1, e2, e3, e4]
  have hr7 : ∀ (j : Fin 2048) (n : Fin 1003520), n.val = t.val * 2048 + j.val →
      (ldRow7 (ms0_0 t) (hs0_0 t) (nblk m c t) : S1x2048.Idx → EReal) (ix2 0 j) = (argsK m c).nodes 7 n := fun j n hn => by
    have e1 := ldRow7_apply (F := Ideal) (ms0_0 t) (hs0_0 t) (nblk m c t) j
    have e2 := nblk_apply m c t 7 j (by rw [← hn]; exact n.isLt)
    have e3 := V_main_v13_apply m c 7 ⟨t.val * 2048 + j.val, by rw [← hn]; exact n.isLt⟩
    have e4 : (⟨t.val * 2048 + j.val, by rw [← hn]; exact n.isLt⟩ : Fin 1003520) = n := Fin.ext hn.symm
    rw [e1, e2, e3, e4]
  have hr8 : ∀ (j : Fin 2048) (n : Fin 1003520), n.val = t.val * 2048 + j.val →
      (ldRow8 (ms0_0 t) (hs0_0 t) (nblk m c t) : S1x2048.Idx → EReal) (ix2 0 j) = (argsK m c).nodes 8 n := fun j n hn => by
    have e1 := ldRow8_apply (F := Ideal) (ms0_0 t) (hs0_0 t) (nblk m c t) j
    have e2 := nblk_apply m c t 8 j (by rw [← hn]; exact n.isLt)
    have e3 := V_main_v13_apply m c 8 ⟨t.val * 2048 + j.val, by rw [← hn]; exact n.isLt⟩
    have e4 : (⟨t.val * 2048 + j.val, by rw [← hn]; exact n.isLt⟩ : Fin 1003520) = n := Fin.ext hn.symm
    rw [e1, e2, e3, e4]
  have hr9 : ∀ (j : Fin 2048) (n : Fin 1003520), n.val = t.val * 2048 + j.val →
      (ldRow9 (ms0_0 t) (hs0_0 t) (nblk m c t) : S1x2048.Idx → EReal) (ix2 0 j) = (argsK m c).nodes 9 n := fun j n hn => by
    have e1 := ldRow9_apply (F := Ideal) (ms0_0 t) (hs0_0 t) (nblk m c t) j
    have e2 := nblk_apply m c t 9 j (by rw [← hn]; exact n.isLt)
    have e3 := V_main_v13_apply m c 9 ⟨t.val * 2048 + j.val, by rw [← hn]; exact n.isLt⟩
    have e4 : (⟨t.val * 2048 + j.val, by rw [← hn]; exact n.isLt⟩ : Fin 1003520) = n := Fin.ext hn.symm
    rw [e1, e2, e3, e4]
  rw [Args.pointTermN_of_lt _ _ hN]
  exact point_generic (argsK m c) ⟨t.val, hN⟩ (chunkW (grid0.coords t)) (chunkW_coords t)
    (ldBin (ms0_1 t) (hs0_1 t) (bxblk m c t)) (ldBin (ms0_2 t) (hs0_2 t) (byblk m c t))
    (ldRow0 (ms0_0 t) (hs0_0 t) (nblk m c t)) (ldRow1 (ms0_0 t) (hs0_0 t) (nblk m c t)) (ldRow2 (ms0_0 t) (hs0_0 t) (nblk m c t)) (ldRow3 (ms0_0 t) (hs0_0 t) (nblk m c t)) (ldRow4 (ms0_0 t) (hs0_0 t) (nblk m c t)) (ldRow5 (ms0_0 t) (hs0_0 t) (nblk m c t)) (ldRow6 (ms0_0 t) (hs0_0 t) (nblk m c t)) (ldRow7 (ms0_0 t) (hs0_0 t) (nblk m c t)) (ldRow8 (ms0_0 t) (hs0_0 t) (nblk m c t)) (ldRow9 (ms0_0 t) (hs0_0 t) (nblk m c t))
    hb1 hb2 hr0 hr1 hr2 hr3 hr4 hr5 hr6 hr7 hr8 hr9 prev p q

/-- The zero array the reset stores is zero at every bin. -/
theorem pay3_apply (i : S512x512.Idx) : (k0_pay3 (F := Ideal)) i = 0 := by
  show Ideal.ofBits .f32 0x00000000#32 = 0
  exact Ideal.ofBits_zero_f32

/-- What the accumulator holds after each point. -/
def accOf (c : Dev nD) (n : ℕ) (h : n < cfg0.N) : Vec Ideal S512x512 .f32 := (outsAt0 m c n h).2

/-- The reset value and the step of the fold. -/
def accReset (c : Dev nD) (n : ℕ) (h : n < cfg0.N) : S512x512.Idx → EReal :=
  accBody (chunkW (grid0.coords ⟨n, h⟩)) (ldBin (ms0_1 ⟨n, h⟩) (hs0_1 ⟨n, h⟩) (bxblk m c ⟨n, h⟩)) (ldBin (ms0_2 ⟨n, h⟩) (hs0_2 ⟨n, h⟩) (byblk m c ⟨n, h⟩)) (ldRow0 (ms0_0 ⟨n, h⟩) (hs0_0 ⟨n, h⟩) (nblk m c ⟨n, h⟩)) (ldRow1 (ms0_0 ⟨n, h⟩) (hs0_0 ⟨n, h⟩) (nblk m c ⟨n, h⟩)) (ldRow2 (ms0_0 ⟨n, h⟩) (hs0_0 ⟨n, h⟩) (nblk m c ⟨n, h⟩)) (ldRow3 (ms0_0 ⟨n, h⟩) (hs0_0 ⟨n, h⟩) (nblk m c ⟨n, h⟩)) (ldRow4 (ms0_0 ⟨n, h⟩) (hs0_0 ⟨n, h⟩) (nblk m c ⟨n, h⟩)) (ldRow5 (ms0_0 ⟨n, h⟩) (hs0_0 ⟨n, h⟩) (nblk m c ⟨n, h⟩)) (ldRow6 (ms0_0 ⟨n, h⟩) (hs0_0 ⟨n, h⟩) (nblk m c ⟨n, h⟩)) (ldRow7 (ms0_0 ⟨n, h⟩) (hs0_0 ⟨n, h⟩) (nblk m c ⟨n, h⟩)) (ldRow8 (ms0_0 ⟨n, h⟩) (hs0_0 ⟨n, h⟩) (nblk m c ⟨n, h⟩)) (ldRow9 (ms0_0 ⟨n, h⟩) (hs0_0 ⟨n, h⟩) (nblk m c ⟨n, h⟩)) (k0_pay3 (F := Ideal))
def accStep (c : Dev nD) (n : ℕ) (h : n < cfg0.N) (prev : S512x512.Idx → EReal) : S512x512.Idx → EReal :=
  accBody (chunkW (grid0.coords ⟨n, h⟩)) (ldBin (ms0_1 ⟨n, h⟩) (hs0_1 ⟨n, h⟩) (bxblk m c ⟨n, h⟩)) (ldBin (ms0_2 ⟨n, h⟩) (hs0_2 ⟨n, h⟩) (byblk m c ⟨n, h⟩)) (ldRow0 (ms0_0 ⟨n, h⟩) (hs0_0 ⟨n, h⟩) (nblk m c ⟨n, h⟩)) (ldRow1 (ms0_0 ⟨n, h⟩) (hs0_0 ⟨n, h⟩) (nblk m c ⟨n, h⟩)) (ldRow2 (ms0_0 ⟨n, h⟩) (hs0_0 ⟨n, h⟩) (nblk m c ⟨n, h⟩)) (ldRow3 (ms0_0 ⟨n, h⟩) (hs0_0 ⟨n, h⟩) (nblk m c ⟨n, h⟩)) (ldRow4 (ms0_0 ⟨n, h⟩) (hs0_0 ⟨n, h⟩) (nblk m c ⟨n, h⟩)) (ldRow5 (ms0_0 ⟨n, h⟩) (hs0_0 ⟨n, h⟩) (nblk m c ⟨n, h⟩)) (ldRow6 (ms0_0 ⟨n, h⟩) (hs0_0 ⟨n, h⟩) (nblk m c ⟨n, h⟩)) (ldRow7 (ms0_0 ⟨n, h⟩) (hs0_0 ⟨n, h⟩) (nblk m c ⟨n, h⟩)) (ldRow8 (ms0_0 ⟨n, h⟩) (hs0_0 ⟨n, h⟩) (nblk m c ⟨n, h⟩)) (ldRow9 (ms0_0 ⟨n, h⟩) (hs0_0 ⟨n, h⟩) (nblk m c ⟨n, h⟩)) prev

theorem accOf_reset (c : Dev nD) (n : ℕ) (h : n < cfg0.N) (h0 : n % 245 = 0) : accOf m c n h = accReset m c n h := by
  unfold accOf accReset
  rw [outsAt0_A m c ⟨n, h⟩ h0 (by show ¬ n % 245 = 244; omega)]
  dsimp only
  exact sout0_A_0_eq (F := Ideal) c _ _ _ _ _ _ _ _ _ _ _ _ _ _ _ _

theorem accOf_step (c : Dev nD) (n : ℕ) (h : n + 1 < cfg0.N) (h0 : ¬(n + 1) % 245 = 0) :
    accOf m c (n + 1) h = accStep m c (n + 1) h (accOf m c n (Nat.lt_of_succ_lt h)) := by
  unfold accOf accStep
  by_cases h1 : (n + 1) % 245 = 244
  · rw [outsAt0_C m c ⟨n + 1, h⟩ h0 h1]
    dsimp only
    exact sout0_C_0_eq (F := Ideal) c _ _ _ _ _ _ _ _ _ _ _ _ _ _ _ _ _
  · rw [outsAt0_B m c ⟨n + 1, h⟩ h0 h1]
    dsimp only
    exact sout0_B_0_eq (F := Ideal) c _ _ _ _ _ _ _ _ _ _ _ _ _ _ _ _ _

/-- THE FOLD: after the point at offset `t % 245` of its row the accumulator holds the contributions of the row's points
    up to it. -/
theorem accOf_apply (c : Dev nD) (t : Fin cfg0.N) (p q : Fin 512) :
    accOf m c t.val t.isLt (ix2 p q) = ∑ s ∈ Finset.range (t.val % 245 + 1), (argsK m c).pointTermN (245 * (t.val / 245) + s) p q := by
  have hN : cfg0.N = 490 := N_0
  have h' : 245 * (t.val / 245) + t.val % 245 < cfg0.N := by rw [Nat.div_add_mod]; exact t.isLt
  rw [Pipeline.eq_accAt_of_mod (accOf m c) 245 (accReset m c) (accStep m c) (accOf_reset m c) (accOf_step m c) (by decide) t.val t.isLt h']
  rw [Pipeline.accAt_add_apply (accReset m c) (accStep m c) (fun _ => (0 : EReal)) (fun n i => (argsK m c).pointTermN n (i 0) (i 1))
    (245 * (t.val / 245)) 244
    (fun h i => by
      obtain ⟨p', q', rfl⟩ : ∃ (p' q' : Fin 512), i = ix2 p' q' := ⟨i 0, i 1, eq_ix2 i⟩
      unfold accReset
      rw [point_apply m c ⟨_, h⟩ _ p' q', pay3_apply])
    (fun n h acc i _ _ => by
      obtain ⟨p', q', rfl⟩ : ∃ (p' q' : Fin 512), i = ix2 p' q' := ⟨i 0, i 1, eq_ix2 i⟩
      unfold accStep
      exact point_apply m c ⟨n, h⟩ acc p' q')
    (t.val % 245) (by have := Nat.mod_lt t.val (show 0 < 245 by decide); omega) h' (ix2 p q)]
  rw [zero_add]

/-- The output block stored at a row's last point holds the whole row's contributions. -/
theorem out_apply (c : Dev nD) (t : Fin cfg0.N) (h1 : t.val % 245 = 244) (p q : Fin 512) :
    ((outsAt0 m c t.val t.isLt).1 : S1x512x512.Idx → EReal) (ix3 0 p q)
      = ∑ s ∈ Finset.range 245, (argsK m c).pointTermN (t.val - 244 + s) p q := by
  have h0 : ¬ t.val % 245 = 0 := by omega
  have e : (outsAt0 m c t.val t.isLt).1 = k0_pay2 (accOf m c t.val t.isLt) := by
    unfold accOf
    rw [outsAt0_C m c t h0 h1]
    dsimp only
    exact (out0_C_3_eq (F := Ideal) c _ _ _ _ _ _ _ _ _ _ _ _ _ _ _ _ _).trans (congrArg k0_pay2 (sout0_C_0_eq (F := Ideal) c _ _ _ _ _ _ _ _ _ _ _ _ _ _ _ _ _).symm)
  rw [e]
  have e2 : (k0_pay2 (F := Ideal) (accOf m c t.val t.isLt) : S1x512x512.Idx → EReal) (ix3 0 p q) = accOf m c t.val t.isLt (ix2 p q) := by
    unfold k0_pay2
    exact shapeCast_apply _ _ (ix3 0 p q) (ix2 p q) (by
      rw [Shape.rowMajor_val_two, Shape.rowMajor_val_three]
      show p.val * 512 + q.val = ((0 : Fin 1).val * 512 + p.val) * 512 + q.val
      simp)
  rw [e2, accOf_apply, h1]
  have : 245 * (t.val / 245) = t.val - 244 := by omega
  rw [this]

end Cert.KernelIdeal.Gen

end
-- ==== Proof.KI.Final.lean ====
/-
  From the accumulation to the result. At the last point of core-row c₀ the output block holds the sum of that row's
  245 points' contributions, bin by bin; the pipeline writes block c₀ of the output array back there and nowhere
  else, so the output array at (c₀, p, q) is that sum; the host then adds the two rows' maps onto zero, adds the
  initial map — which is the specification's density, all 490 points' contributions being the nodes' products — and
  computes the cost from it.
-/
import proofs.«406928_j20959440404551_3_alg».proof.Proof.KI.Frame
import proofs.«406928_j20959440404551_3_alg».proof.Proof.KI.ArgsK
import proofs.«406928_j20959440404551_3_alg».proof.Proof.SpecK2
import proofs.«406928_j20959440404551_3_alg».proof.Proof.SpecArrays
import Idealize.ShloMosaic.Lib.ValueIdx
import Idealize.ShloMosaic.Lib.IdealHost
import Idealize.ShloMosaic.Lib.Pipeline.Value
import Idealize.ShloMosaic.Lib.StableHlo.Run
import Idealize.ShloMosaic.PureOps.Ideal.Laws

set_option maxRecDepth 16384

noncomputable section

namespace Cert.KernelIdeal.Gen

open Idealize.ShloMosaic Idealize.ShloMosaic.TcCoe Idealize.ShloMosaic.ValueIdx Idealize.SL.Sem Cert.Density
open Idealize.ShloMosaic.Pipeline (Dat)

variable (m : (ℓ : Loc nD τ sig) → Buf (Elt Ideal) ℓ)

/-! ## The host operations after the region -/

/-- The density array the host computes: the output array's two slabs summed onto zero, plus the initial map. -/
def tailD (W : S2x512x512.Idx → EReal) (I : S512x512.Idx → EReal) : S512x512.Idx → EReal :=
  addf (Host.reduceAdd (F := Ideal) W (constant (F := Ideal) S_ .f32 0x00000000#32) reducesTo_S2x512x512_S512x512_d0 h_S_) I

/-- The result buffer at the end is the cost of that density array, of the output array after the run and the
    initial map as launched: the last three host operations are the cost's. -/
theorem tail_unfold (c : Dev nD) :
    (Pipeline.afterTail₀ cfgs (dats m) 0 (V0 m) [hostOps1] c main_v22 : S_.Idx → EReal)
      = cost bcast_S_S512x512 reducesTo_S512x512_S_d0_1 h_S_
          (tailD ((dats m 0 c).arrAt 3 cfg0.N) (m ((c : Thread nD τ).loc main_arg11))) := by
  have e16 : Pipeline.withArrays (cfgs 0).spec c (V0 m c) (fun w => (dats m 0 c).arrAt w (cfgs 0).N)
      (Proc.devRef .tc main_v16) = (dats m 0 c).arrAt 3 cfg0.N :=
    Pipeline.withArrays_arr spec0 launch0.win.arr_inj c _ _ 3
  have e11 : Pipeline.withArrays (cfgs 0).spec c (V0 m c) (fun w => (dats m 0 c).arrAt w (cfgs 0).N)
      (Proc.devRef .tc main_arg11) = m ((c : Thread nD τ).loc main_arg11) :=
    (Pipeline.withArrays_of_ne spec0 c (V0 m c) _ main_arg11 (by intro w; fin_cases w <;> decide)).trans (V_main_arg11 m c)
  unfold Pipeline.afterTail₀
  show StableHlo.after hostOps1 _ (Proc.devRef .tc main_v22) = _
  after_results
  rw [e16, e11]
  rfl

/-! ## The host's sum over the two slabs -/

/-- The sum over the leading axis of a [2, 512, 512] array, from the zero literal, at (p, q): the two slabs' entries. -/
theorem reduce0_apply (W : S2x512x512.Idx → EReal) (p q : Fin 512) :
    Host.reduceAdd (F := Ideal) W (constant (F := Ideal) S_ .f32 0x00000000#32) reducesTo_S2x512x512_S512x512_d0 h_S_ (ix2 p q)
      = W (ix3 (0 : Fin 2) p q) + W (ix3 (1 : Fin 2) p q) := by
  have h : S2x512x512.Reduces [0] S512x512 := by decide
  rw [hostReduceAdd_apply]
  refine (Ideal.hostReduceAdd_single reducesTo_S2x512x512_S512x512_d0 h W _ (ix2 p q)).trans ?_
  have e0 : h.lift (ix2 p q) (0 : Fin 2) = ix3 (0 : Fin 2) p q := by
    funext a; apply Fin.ext; match a with | ⟨0, _⟩ => rfl | ⟨1, _⟩ => rfl | ⟨2, _⟩ => rfl
  have e1 : h.lift (ix2 p q) (1 : Fin 2) = ix3 (1 : Fin 2) p q := by
    funext a; apply Fin.ext; match a with | ⟨0, _⟩ => rfl | ⟨1, _⟩ => rfl | ⟨2, _⟩ => rfl
  show Ideal.ofBits .f32 0x00000000#32 + ∑ k : Fin 2, W (h.lift (ix2 p q) k) = _
  rw [Fin.sum_univ_two, e0, e1, Ideal.ofBits_zero_f32, zero_add]

/-! ## The output array after the run -/

/-- What the output array ends holding at (c₀, p, q): the contributions of core-row c₀'s 245 points to bin (p, q). -/
def rowSums (A : Args) (i : S2x512x512.Idx) : EReal :=
  ∑ s ∈ Finset.range 245, A.pointTermN (245 * (i 0).val + s) ⟨(i 1).val, (i 1).isLt⟩ ⟨(i 2).val, (i 2).isLt⟩

theorem rowSums_ix3 (A : Args) (c₀ : Fin 2) (p q : Fin 512) :
    rowSums A (ix3 c₀ p q) = ∑ s ∈ Finset.range 245, A.pointTermN (245 * c₀.val + s) p q := rfl

/-- The output window's block index at point t: the core-row of the point, and nothing else moves. -/
theorem out_index : ∀ t : Fin cfg0.N, win0_3.index t (0 : Fin 3) = t.val / 245
    ∧ win0_3.index t (1 : Fin 3) = 0 ∧ win0_3.index t (2 : Fin 3) = 0 :=
  (by decide +kernel : ∀ t : Fin grid0.N, _)

/-- What a row's last point writes back is its block of those sums. -/
theorem flushed3_eq (c : Dev nD)
    (hacc : ∀ (t : Fin cfg0.N), t.val % 245 = 244 → ∀ p q : Fin 512,
      ((outsAt0 m c t.val t.isLt).1 : S1x512x512.Idx → EReal) (ix3 0 p q)
        = ∑ s ∈ Finset.range 245, (argsK m c).pointTermN (t.val - 244 + s) p q)
    (t : Fin cfg0.N) (hf : (cfg0.win 3).flush t = true) :
    (dats m 0 c).flushed 3 t = ((cfg0.win 3).blk t).view.read (Elt Ideal) (rowSums (argsK m c)) := by
  have h244 : t.val % 245 = 244 := (flush0_3 t).mp hf
  have hN : t.val < 490 := lt_of_lt_of_eq t.isLt (show cfg0.N = 490 from N_0)
  obtain ⟨e0, e1, e2⟩ := out_index t
  show (cfg0.win 3).cut (grid0.coords t) ((dats m 0 c).after 3 t) = _
  rw [after0_3]
  funext y
  have h0 : (y 0).val < 1 := (y 0).isLt
  have h1 : (y 1).val < 512 := (y 1).isLt
  have h2 : (y 2).val < 512 := (y 2).isLt
  have hy : (cfg0.win 3).xinj (grid0.coords t) y
      = ix3 (0 : Fin 1) (⟨(y 1).val, h1⟩ : Fin 512) (⟨(y 2).val, h2⟩ : Fin 512) := by
    funext a; apply Fin.ext
    match a with
    | ⟨0, _⟩ => show (y 0).val = 0; omega
    | ⟨1, _⟩ => rfl
    | ⟨2, _⟩ => rfl
  have hemb : ((cfg0.win 3).blk t).view.emb y
      = ix3 (⟨t.val / 245, by omega⟩ : Fin 2) (⟨(y 1).val, h1⟩ : Fin 512) (⟨(y 2).val, h2⟩ : Fin 512) := by
    funext a; apply Fin.ext
    match a with
    | ⟨0, _⟩ => show win0_3.index t (0 : Fin 3) * 1 + 1 * (y 0).val = t.val / 245; omega
    | ⟨1, _⟩ => show win0_3.index t (1 : Fin 3) * 512 + 1 * (y 1).val = (y 1).val; omega
    | ⟨2, _⟩ => show win0_3.index t (2 : Fin 3) * 512 + 1 * (y 2).val = (y 2).val; omega
  show ((outsAt0 m c t.val t.isLt).1 : S1x512x512.Idx → EReal) ((cfg0.win 3).xinj (grid0.coords t) y)
    = rowSums (argsK m c) (((cfg0.win 3).blk t).view.emb y)
  rw [hy, hemb, hacc t h244, rowSums_ix3]
  show _ = ∑ s ∈ Finset.range 245, (argsK m c).pointTermN (245 * (t.val / 245) + s) _ _
  rw [show t.val - 244 = 245 * (t.val / 245) by omega]

/-- An index of the output array is in point t's block iff its leading coordinate is the point's core-row. -/
theorem mem_blk3 (t : Fin cfg0.N) (i : S2x512x512.Idx) :
    i ∈ ((cfg0.win 3).blk t).view.set ↔ ∀ a : Fin 3, win0_3.index t a * S1x512x512.size a ≤ (i a).val
      ∧ (i a).val < win0_3.index t a * S1x512x512.size a + S1x512x512.size a := by
  show i ∈ ((View.whole main_v16).slice (win0_3.rect t)).set ↔ _
  rw [View.set_slice_whole, Rect.mem_set_unit]
  exact Iff.rfl

/-- THE OUTPUT ARRAY after the run: the two core-rows' sums, the rows' last points covering it. -/
theorem arr3_eq (c : Dev nD)
    (hacc : ∀ (t : Fin cfg0.N), t.val % 245 = 244 → ∀ p q : Fin 512,
      ((outsAt0 m c t.val t.isLt).1 : S1x512x512.Idx → EReal) (ix3 0 p q)
        = ∑ s ∈ Finset.range 245, (argsK m c).pointTermN (t.val - 244 + s) p q) :
    (dats m 0 c).arrAt 3 cfg0.N = rowSums (argsK m c) :=
  (dats m 0 c).arrAt_eq_of_cover 3 (rowSums (argsK m c)) (flushed3_eq m c hacc) fun i => by
    have hi0 : (i 0).val < 2 := (i 0).isLt
    have hi1 : (i 1).val < 512 := (i 1).isLt
    have hi2 : (i 2).val < 512 := (i 2).isLt
    have hlt : 245 * (i 0).val + 244 < cfg0.N := by rw [show cfg0.N = 490 from N_0]; omega
    refine ⟨⟨245 * (i 0).val + 244, hlt⟩, (flush0_3 _).mpr (by show (245 * (i 0).val + 244) % 245 = 244; omega), ?_⟩
    rw [mem_blk3]
    obtain ⟨e0, e1, e2⟩ := out_index ⟨245 * (i 0).val + 244, hlt⟩
    intro a
    match a with
    | ⟨0, _⟩ =>
      show win0_3.index ⟨245 * (i 0).val + 244, hlt⟩ (0 : Fin 3) * 1 ≤ (i 0).val
        ∧ (i 0).val < win0_3.index ⟨245 * (i 0).val + 244, hlt⟩ (0 : Fin 3) * 1 + 1
      rw [e0]; show (245 * (i 0).val + 244) / 245 * 1 ≤ (i 0).val ∧ (i 0).val < (245 * (i 0).val + 244) / 245 * 1 + 1
      omega
    | ⟨1, _⟩ =>
      show win0_3.index ⟨245 * (i 0).val + 244, hlt⟩ (1 : Fin 3) * 512 ≤ (i 1).val
        ∧ (i 1).val < win0_3.index ⟨245 * (i 0).val + 244, hlt⟩ (1 : Fin 3) * 512 + 512
      omega
    | ⟨2, _⟩ =>
      show win0_3.index ⟨245 * (i 0).val + 244, hlt⟩ (2 : Fin 3) * 512 ≤ (i 2).val
        ∧ (i 2).val < win0_3.index ⟨245 * (i 0).val + 244, hlt⟩ (2 : Fin 3) * 512 + 512
      omega

/-! ## All the points' contributions -/

/-- The 490 points' contributions are the two core-rows' sums. -/
theorem pointTerm_rows (A : Args) (p q : Fin 512) :
    ∑ g : Fin 490, A.pointTerm g p q
      = ∑ s ∈ Finset.range 245, A.pointTermN (245 * 0 + s) p q
        + ∑ s ∈ Finset.range 245, A.pointTermN (245 * 1 + s) p q := by
  have e : ∑ g : Fin 490, A.pointTerm g p q = ∑ g : Fin 490, A.pointTermN g.val p q :=
    Finset.sum_congr rfl fun g _ => (A.pointTermN_of_lt g.val g.isLt p q).symm
  rw [e, Fin.sum_univ_eq_sum_range (fun n => A.pointTermN n p q) 490]
  exact Finset.sum_range_add (fun n => A.pointTermN n p q) 245 245

/-! ## The result -/

/-- The result buffer at the end of the program is the cost of the specification's density array, given what the
    output block holds at each row's last point. -/
theorem final_value (c : Dev nD)
    (hacc : ∀ (t : Fin cfg0.N), t.val % 245 = 244 → ∀ p q : Fin 512,
      ((outsAt0 m c t.val t.isLt).1 : S1x512x512.Idx → EReal) (ix3 0 p q)
        = ∑ s ∈ Finset.range 245, (argsK m c).pointTermN (t.val - 244 + s) p q) :
    (Pipeline.afterTail₀ cfgs (dats m) 0 (V0 m) [hostOps1] c main_v22 : S_.Idx → EReal)
      = cost bcast_S_S512x512 reducesTo_S512x512_S_d0_1 h_S_ (argsK m c).densityArr := by
  rw [tail_unfold, arr3_eq m c hacc]
  refine congrArg (cost bcast_S_S512x512 reducesTo_S512x512_S_d0_1 h_S_) ?_
  funext j
  obtain ⟨p, q, rfl⟩ : ∃ (p q : Fin 512), j = ix2 p q := ⟨j 0, j 1, eq_ix2 j⟩
  show Host.reduceAdd (F := Ideal) (rowSums (argsK m c)) (constant (F := Ideal) S_ .f32 0x00000000#32)
      reducesTo_S2x512x512_S512x512_d0 h_S_ (ix2 p q) + (argsK m c).init p q
    = (argsK m c).init p q + ∑ n : Fin 1000000, (argsK m c).px n p * (argsK m c).py n q
  rw [reduce0_apply, rowSums_ix3, rowSums_ix3, ← pointTerm_sum, pointTerm_rows, add_comm]
  rfl

end Cert.KernelIdeal.Gen

end
-- ==== Proof.KI.ValueClaim.lean ====
/-
  The idealized kernel program's run with its result: every execution terminates, the result is the cost of the
  specification's density array of the launch contents of the arguments, and the arguments end as launched.
-/
import proofs.«406928_j20959440404551_3_alg».proof.Proof.KI.FrameClaim
import proofs.«406928_j20959440404551_3_alg».proof.Proof.KI.Accumulate
import proofs.«406928_j20959440404551_3_alg».proof.Proof.KI.Final

set_option maxRecDepth 16384

noncomputable section

namespace Cert.KernelIdeal.Gen

open Idealize.ShloMosaic Idealize.ShloMosaic.TcCoe Idealize.SL.Sem Cert.Density
open Idealize.ShloMosaic.Pipeline (Dat)

variable (m : (ℓ : Loc nD τ sig) → Buf (Elt Ideal) ℓ) (ρ : Dev nD → PrngReg)

theorem value_run : θ_run (defs (F := Ideal)) (onTc (τ := τ) (main (F := Ideal))) ⟨m, fun _ => 0, ρ⟩ (fun r => ∀ c : Dev nD,
      r.2.mem ((c.tc : Thread nD τ).loc main_v22) = cost bcast_S_S512x512 reducesTo_S512x512_S_d0_1 h_S_ (argsK m c).densityArr
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨((h c).2 main_v22 (Pipeline.mem_restRefs_of main_v22 rfl (fun w => by fin_cases w <;> decide))).trans (final_value m c (out_apply m c)),
      ((h c).2 main_arg0 (Pipeline.mem_restRefs_of main_arg0 rfl (fun w => by fin_cases w <;> decide))).trans (tail_main_arg0 m (dats m) c),
      ((h c).2 main_arg1 (Pipeline.mem_restRefs_of main_arg1 rfl (fun w => by fin_cases w <;> decide))).trans (tail_main_arg1 m (dats m) c),
      ((h c).2 main_arg2 (Pipeline.mem_restRefs_of main_arg2 rfl (fun w => by fin_cases w <;> decide))).trans (tail_main_arg2 m (dats m) c),
      ((h c).2 main_arg3 (Pipeline.mem_restRefs_of main_arg3 rfl (fun w => by fin_cases w <;> decide))).trans (tail_main_arg3 m (dats m) c),
      ((h c).2 main_arg4 (Pipeline.mem_restRefs_of main_arg4 rfl (fun w => by fin_cases w <;> decide))).trans (tail_main_arg4 m (dats m) c),
      ((h c).2 main_arg5 (Pipeline.mem_restRefs_of main_arg5 rfl (fun w => by fin_cases w <;> decide))).trans (tail_main_arg5 m (dats m) c),
      ((h c).2 main_arg6 (Pipeline.mem_restRefs_of main_arg6 rfl (fun w => by fin_cases w <;> decide))).trans (tail_main_arg6 m (dats m) c),
      ((h c).2 main_arg7 (Pipeline.mem_restRefs_of main_arg7 rfl (fun w => by fin_cases w <;> decide))).trans (tail_main_arg7 m (dats m) c),
      ((h c).2 main_arg8 (Pipeline.mem_restRefs_of main_arg8 rfl (fun w => by fin_cases w <;> decide))).trans (tail_main_arg8 m (dats m) c),
      ((h c).2 main_arg9 (Pipeline.mem_restRefs_of main_arg9 rfl (fun w => by fin_cases w <;> decide))).trans (tail_main_arg9 m (dats m) c),
      ((h c).2 main_arg10 (Pipeline.mem_restRefs_of main_arg10 rfl (fun w => by fin_cases w <;> decide))).trans (tail_main_arg10 m (dats m) c),
      ((h c).2 main_arg11 (Pipeline.mem_restRefs_of main_arg11 rfl (fun w => by fin_cases w <;> decide))).trans (tail_main_arg11 m (dats m) c)⟩) (run_main m ρ)

end Cert.KernelIdeal.Gen

end
-- ==== Proof.SlotSum.lean ====
/-
  The reference adds, for every node and every pair of slots (a, b) of its two windows, the product of the two
  windowed potentials into the bin the pair names. Collected bin by bin this is the sum over the nodes of the
  product of the two DENSE potentials: a node has at most one pair of slots naming a given bin (p, q) — the pair
  (p - start_x, q - start_y) when both differences are slots, where the dense forms are the windowed ones — and
  otherwise one of its dense potentials at (p, q) is zero.
-/
import proofs.«406928_j20959440404551_3_alg».proof.Proof.Spec

noncomputable section

namespace Cert.Density

open Idealize.ShloMosaic

/-- The bin of the x axis that slot `k` of node `n` names, as an index of the bin-centre row. -/
def Args.binOfX (A : Args) (n : Fin 1000000) (k : Fin 5) : Fin 512 := ⟨(slotBin (A.x n) k).toNat, (slotBin_toNat (A.x n) k).2⟩
def Args.binOfY (A : Args) (n : Fin 1000000) (k : Fin 5) : Fin 512 := ⟨(slotBin (A.y n) k).toNat, (slotBin_toNat (A.y n) k).2⟩

/-- Node `n`'s windowed potential at slot `k` of its x window: the reference reads the bin centre the slot names. -/
def Args.slotX (A : Args) (n : Fin 1000000) (k : Fin 5) : EReal :=
  potSlot (A.x n) (A.sx n) (A.ax n) (A.bx n) (A.cx n) (A.binx (A.binOfX n k))
def Args.slotY (A : Args) (n : Fin 1000000) (k : Fin 5) : EReal :=
  potSlot (A.y n) (A.sy n) (A.ay n) (A.by_ n) (A.cy n) (A.biny (A.binOfY n k))

/-- The flat bin a pair of slots names: row-major in a 512 × 512 map. -/
def Args.flat (A : Args) (n : Fin 1000000) (a b : Fin 5) : ℕ := (A.binOfX n a).val * 512 + (A.binOfY n b).val

/-- One node: the pairs of its slots naming bin (p, q) contribute the product of its dense potentials there. -/
theorem node_sum (A : Args) (n : Fin 1000000) (p q : Fin 512) :
    (∑ a : Fin 5, ∑ b : Fin 5,
        if A.flat n a b = p.val * 512 + q.val then A.slotX n a * A.slotY n b else 0)
      = A.px n p * A.py n q := by
  have hX : ∀ a : Fin 5, (A.binOfX n a).val = (start (A.x n)).toNat + a.val :=
    fun a => (slotBin_toNat (A.x n) a).1
  have hY : ∀ b : Fin 5, (A.binOfY n b).val = (start (A.y n)).toNat + b.val :=
    fun b => (slotBin_toNat (A.y n) b).1
  -- a flat index determines its row and its column, both being below 512
  have hflat : ∀ a b, A.flat n a b = p.val * 512 + q.val ↔
      (A.binOfX n a).val = p.val ∧ (A.binOfY n b).val = q.val := by
    intro a b
    unfold Args.flat
    have h1 := (A.binOfX n a).isLt
    have h2 := (A.binOfY n b).isLt
    have h3 := p.isLt
    have h4 := q.isLt
    omega
  by_cases hx : ∃ a₀ : Fin 5, p.val = (start (A.x n)).toNat + a₀.val
  · by_cases hy : ∃ b₀ : Fin 5, q.val = (start (A.y n)).toNat + b₀.val
    · -- both coordinates lie in the windows: exactly one pair of slots names the bin
      obtain ⟨a₀, ha₀⟩ := hx
      obtain ⟨b₀, hb₀⟩ := hy
      have hpx : A.px n p = A.slotX n a₀ := by
        have hbin : A.binOfX n a₀ = p := Fin.ext (by rw [hX]; exact ha₀.symm)
        unfold Args.px Args.slotX
        rw [hbin]
        exact potSlot_eq_potDense _ _ _ _ _ _ p a₀ ha₀
      have hpy : A.py n q = A.slotY n b₀ := by
        have hbin : A.binOfY n b₀ = q := Fin.ext (by rw [hY]; exact hb₀.symm)
        unfold Args.py Args.slotY
        rw [hbin]
        exact potSlot_eq_potDense _ _ _ _ _ _ q b₀ hb₀
      rw [Fintype.sum_eq_single a₀, Fintype.sum_eq_single b₀]
      · rw [if_pos ((hflat a₀ b₀).mpr ⟨by rw [hX]; omega, by rw [hY]; omega⟩), hpx, hpy]
      · intro b hb
        rw [if_neg]
        rw [hflat]
        rintro ⟨_, h2⟩
        apply hb
        apply Fin.ext
        rw [hY] at h2
        omega
      · intro a ha
        apply Finset.sum_eq_zero
        intro b _
        rw [if_neg]
        rw [hflat]
        rintro ⟨h1, _⟩
        apply ha
        apply Fin.ext
        rw [hX] at h1
        omega
    · -- the column is outside the y window: no pair names the bin and the y potential vanishes
      have hpy : A.py n q = 0 := by
        unfold Args.py
        rw [potDense_eq_zero _ _ _ _ _ _ q hy, zero_eq]
      rw [hpy, mul_zero]
      apply Finset.sum_eq_zero
      intro a _
      apply Finset.sum_eq_zero
      intro b _
      rw [if_neg]
      rw [hflat]
      rintro ⟨_, h2⟩
      exact hy ⟨b, by rw [hY] at h2; omega⟩
  · -- the row is outside the x window: no pair names the bin and the x potential vanishes
    have hpx : A.px n p = 0 := by
      unfold Args.px
      rw [potDense_eq_zero _ _ _ _ _ _ p hx, zero_eq]
    rw [hpx, zero_mul]
    apply Finset.sum_eq_zero
    intro a _
    apply Finset.sum_eq_zero
    intro b _
    rw [if_neg]
    rw [hflat]
    rintro ⟨h1, _⟩
    exact hx ⟨a, by rw [hX] at h1; omega⟩

/-- THE COLLECTION: the updates landing on bin (p, q) sum to the nodes' dense products there. -/
theorem slot_sum (A : Args) (p q : Fin 512) :
    ∑ j ∈ (Finset.univ : Finset (Fin 1000000 × Fin 5 × Fin 5)).filter (fun j => A.flat j.1 j.2.1 j.2.2 = p.val * 512 + q.val),
        A.slotX j.1 j.2.1 * A.slotY j.1 j.2.2
      = ∑ n : Fin 1000000, A.px n p * A.py n q := by
  rw [Finset.sum_filter, Fintype.sum_prod_type]
  apply Finset.sum_congr rfl
  intro n _
  rw [Fintype.sum_prod_type]
  exact node_sum A n p q

end Cert.Density

end
-- ==== Proof.Ref.Nodes.lean ====
/-
  The reference, node by node: for node n and slot k of its window on an axis, the bin the slot names is
  start + k, and the potential the reference computes there — from the bin centre it gathers at that bin — is
  the windowed form of the specification.
-/
import proofs.«406928_j20959440404551_3_alg».proof.Proof.Gen.ReferenceIdeal.Read
import proofs.«406928_j20959440404551_3_alg».proof.Proof.SlotSum
import proofs.«406928_j20959440404551_3_alg».proof.Proof.SpecArrays
import Idealize.ShloMosaic.Lib.ValueIdx

noncomputable section

namespace Cert.ReferenceIdeal.RefValue

open Cert.ReferenceIdeal Cert.ReferenceIdeal.Gen Cert.ReferenceIdeal.Read Cert.Density
open Idealize.ShloMosaic Idealize.ShloMosaic.ValueIdx

variable (x0 : FVec Ideal S2000000 .f32) (x1 x2 x3 x4 x5 x6 x7 x8 : FVec Ideal S1000000 .f32) (x9 x10 : FVec Ideal S512 .f32) (x11 : FVec Ideal S512x512 .f32)

local notation "AA" => (Args.ofArrays x0 x1 x2 x3 x4 x5 x6 x7 x8 x9 x10 x11)

/-! ## The x axis -/

/-- The x half of the positions: the slice's element m is the array's element m. -/
theorem v0_apply (m : Fin 1000000) :
    val_main_v0 (F := Ideal) x0 (ix1 m) = Args.x AA m := by
  rw [val_main_v0_apply]
  have e : idx_main_v0 (ix1 m) = ix1 (⟨m.val, by omega⟩ : Fin 2000000) := by
    funext a; match a with | ⟨0, _⟩ => rfl
  rw [e]
  rfl

/-- The clamped start of node m's x window. -/
theorem v13_apply (m : Fin 1000000) :
    val_main_v13 (F := Ideal) x0 (ix1 m) = start (Args.x AA m) := by
  rw [val_main_v13_apply, val_main_call0_v4_apply, val_main_call0_v3_apply, val_main_c_3_apply,
    val_main_call0_v2_apply, val_main_call0_v1_apply, val_main_call0_v0_apply, val_main_c_apply,
    val_main_v12_apply, val_main_v11_apply, val_main_v10_apply, val_main_v8_apply, val_main_v9_apply,
    val_main_cst_2_apply, val_main_v6_apply, val_main_v7_apply, val_main_cst_1_apply, val_main_v5_apply,
    val_main_cst_0_apply, v0_apply x0 x1 x2 x3 x4 x5 x6 x7 x8 x9 x10 x11]
  rfl

/-- The bin that slot `k` of node `n`'s x window names. -/
theorem v19_apply (n : Fin 1000000) (k : Fin 5) :
    val_main_v19 (F := Ideal) x0 (ix2 n k) = slotBin ((Args.ofArrays x0 x1 x2 x3 x4 x5 x6 x7 x8 x9 x10 x11).x n) k := by
  rw [val_main_v19_apply, val_main_v17_apply, val_main_v14_apply, val_main_v18_apply, val_main_v16_apply,
    val_main_v15_apply]
  have e : idx_main_v14 (idx_main_v17 (ix2 n k)) = ix1 n := by
    funext a; match a with | ⟨0, _⟩ => rfl
  rw [e, v13_apply x0 x1 x2 x3 x4 x5 x6 x7 x8 x9 x10 x11]
  rfl

/-- The index the gather reads is the slot's bin: it is not negative, so the wrap of negative indices leaves it. -/
theorem v26_apply (n : Fin 1000000) (k : Fin 5) :
    val_main_v26 (F := Ideal) x0 (takeIdx (ix2 n k)) = slotBin (Args.x AA n) k := by
  rw [val_main_v26_apply]
  have e : idx_main_v26 (takeIdx (ix2 n k)) = ix2 n k := by
    funext a; match a with | ⟨0, _⟩ => rfl | ⟨1, _⟩ => rfl
  rw [e, val_main_v25_apply, val_main_v22_apply, val_main_v21_apply, val_main_c_4_apply,
    v19_apply x0 x1 x2 x3 x4 x5 x6 x7 x8 x9 x10 x11, slotBin_not_neg, select_zero]

/-- The gathered bin centre is the centre of the slot's bin: the index is in range, so the clamp leaves it. -/
theorem v27_apply (n : Fin 1000000) (k : Fin 5) :
    val_main_v27 (F := Ideal) x0 x9 (ix2 n k) = Args.binx AA (Args.binOfX AA n k) := by
  unfold val_main_v27
  refine (gather_take_apply (N := 512) (R := 1000000) (C := 5) (by decide)
    Facts₀.gather_S512_S1000000x5x1_S1000000x5_n_0_n_n_0_2_1_wf x9 (val_main_v26 (F := Ideal) x0) (ix2 n k)).trans ?_
  refine congrArg x9 (congrArg ix1 (Fin.ext ?_))
  show min (val_main_v26 (F := Ideal) x0 (takeIdx (ix2 n k))).toInt.toNat (512 - 1) = (slotBin (Args.x AA n) k).toNat
  rw [v26_apply x0 x1 x2 x3 x4 x5 x6 x7 x8 x9 x10 x11]
  obtain ⟨_, h⟩ := slotBin_toNat (Args.x AA n) k
  rw [BitVec.toInt_eq_toNat_of_lt (by omega), Int.toNat_natCast]
  omega

/-- The node's centre on the x axis. -/
theorem v4_apply (m : Fin 1000000) :
    val_main_v4 (F := Ideal) x0 x1 (ix1 m) = Args.x AA m + half * Args.sx AA m := by
  rw [val_main_v4_apply, val_main_v3_apply, val_main_v2_apply, val_main_cst_apply, v0_apply x0 x1 x2 x3 x4 x5 x6 x7 x8 x9 x10 x11]
  rfl

/-- The distance of the node's centre from the centre of the slot's bin. -/
theorem v30_apply (n : Fin 1000000) (k : Fin 5) :
    val_main_v30 (F := Ideal) x0 x1 x9 (ix2 n k)
      = dist (Args.x AA n) (Args.sx AA n) (Args.binx AA (Args.binOfX AA n k)) := by
  rw [val_main_v30_apply, val_main_v29_apply, v27_apply x0 x1 x2 x3 x4 x5 x6 x7 x8 x9 x10 x11, val_main_v28_apply, val_main_v20_apply]
  have e : idx_main_v20 (idx_main_v28 (ix2 n k)) = ix1 n := by
    funext a; match a with | ⟨0, _⟩ => rfl
  rw [e, v4_apply x0 x1 x2 x3 x4 x5 x6 x7 x8 x9 x10 x11]
  rfl

/-- The bell branch's bound, size/2 + 1. -/
theorem v41_apply (n : Fin 1000000) (k : Fin 5) :
    val_main_v41 (F := Ideal) x1 (ix2 n k) = p1 (Args.sx AA n) := by
  rw [val_main_v41_apply, val_main_v35_apply]
  have e : idx_main_v35 (idx_main_v41 (ix2 n k)) = ix1 n := by
    funext a; match a with | ⟨0, _⟩ => rfl
  rw [e, val_main_v34_apply, val_main_v32_apply, val_main_v31_apply, val_main_cst_6_apply, val_main_v33_apply,
    val_main_cst_7_apply]
  rfl

/-- The tail branch's bound, size/2 + 2. -/
theorem v39_apply (m : Fin 1000000) :
    val_main_v39 (F := Ideal) x1 (ix1 m) = p2 (Args.sx AA m) := by
  rw [val_main_v39_apply, val_main_v37_apply, val_main_v36_apply, val_main_cst_8_apply, val_main_v38_apply,
    val_main_cst_9_apply]
  rfl

theorem v52_apply (n : Fin 1000000) (k : Fin 5) :
    val_main_v52 (F := Ideal) x1 (ix2 n k) = p2 (Args.sx AA n) := by
  rw [val_main_v52_apply, val_main_v40_apply]
  have e : idx_main_v40 (idx_main_v52 (ix2 n k)) = ix1 n := by
    funext a; match a with | ⟨0, _⟩ => rfl
  rw [e, v39_apply x0 x1 x2 x3 x4 x5 x6 x7 x8 x9 x10 x11]

theorem v56_apply (n : Fin 1000000) (k : Fin 5) :
    val_main_v56 (F := Ideal) x1 (ix2 n k) = p2 (Args.sx AA n) := by
  rw [val_main_v56_apply, val_main_v40_apply]
  have e : idx_main_v40 (idx_main_v56 (ix2 n k)) = ix1 n := by
    funext a; match a with | ⟨0, _⟩ => rfl
  rw [e, v39_apply x0 x1 x2 x3 x4 x5 x6 x7 x8 x9 x10 x11]

/-- The bell branch. -/
theorem v51_apply (n : Fin 1000000) (k : Fin 5) :
    val_main_v51 (F := Ideal) x0 x1 x3 x5 x9 (ix2 n k)
      = bell (Args.ax AA n) (Args.cx AA n) (dist (Args.x AA n) (Args.sx AA n) (Args.binx AA (Args.binOfX AA n k))) := by
  rw [val_main_v51_apply, val_main_v50_apply, val_main_v43_apply, val_main_v49_apply, val_main_v48_apply,
    val_main_cst_10_apply, val_main_v47_apply, val_main_v46_apply, val_main_v45_apply, val_main_v44_apply,
    v30_apply x0 x1 x2 x3 x4 x5 x6 x7 x8 x9 x10 x11]
  have e1 : idx_main_v43 (idx_main_v50 (ix2 n k)) = ix1 n := by
    funext a; match a with | ⟨0, _⟩ => rfl
  have e2 : idx_main_v44 (idx_main_v45 (ix2 n k)) = ix1 n := by
    funext a; match a with | ⟨0, _⟩ => rfl
  rw [e1, e2]
  rfl

/-- The tail branch. -/
theorem v60_apply (n : Fin 1000000) (k : Fin 5) :
    val_main_v60 (F := Ideal) x0 x1 x4 x5 x9 (ix2 n k)
      = tailR (Args.bx AA n) (Args.cx AA n) (Args.sx AA n)
          (dist (Args.x AA n) (Args.sx AA n) (Args.binx AA (Args.binOfX AA n k))) := by
  rw [val_main_v60_apply, val_main_v59_apply, val_main_v55_apply, val_main_v54_apply, val_main_v58_apply,
    val_main_v57_apply, v30_apply x0 x1 x2 x3 x4 x5 x6 x7 x8 x9 x10 x11, v56_apply x0 x1 x2 x3 x4 x5 x6 x7 x8 x9 x10 x11]
  have e : idx_main_v55 (idx_main_v59 (ix2 n k)) = ix1 n := by
    funext a; match a with | ⟨0, _⟩ => rfl
  rw [e]
  rfl

/-- Node `n`'s x potential at slot `k`. -/
theorem v63_apply (n : Fin 1000000) (k : Fin 5) :
    val_main_v63 (F := Ideal) x0 x1 x3 x4 x5 x9 (ix2 n k) = (Args.ofArrays x0 x1 x2 x3 x4 x5 x6 x7 x8 x9 x10 x11).slotX n k := by
  rw [val_main_v63_apply, val_main_v42_apply, val_main_v62_apply, val_main_v53_apply, val_main_v61_apply,
    val_main_cst_11_apply, v30_apply x0 x1 x2 x3 x4 x5 x6 x7 x8 x9 x10 x11, v41_apply x0 x1 x2 x3 x4 x5 x6 x7 x8 x9 x10 x11, v52_apply x0 x1 x2 x3 x4 x5 x6 x7 x8 x9 x10 x11, v51_apply x0 x1 x2 x3 x4 x5 x6 x7 x8 x9 x10 x11,
    v60_apply x0 x1 x2 x3 x4 x5 x6 x7 x8 x9 x10 x11]
  rfl

/-! ## The y axis: the same operations on the second half of the positions and the y arrays -/

/-- The y half of the positions: the slice's element m is the array's element 1000000 + m. -/
theorem v1_apply (m : Fin 1000000) :
    val_main_v1 (F := Ideal) x0 (ix1 m) = Args.y AA m := by
  rw [val_main_v1_apply]
  have e : idx_main_v1 (ix1 m) = ix1 (⟨1000000 + m.val, by omega⟩ : Fin 2000000) := by
    funext a; match a with | ⟨0, _⟩ => rfl
  rw [e]
  rfl

/-- The clamped start of node m's y window. -/
theorem v75_apply (m : Fin 1000000) :
    val_main_v75 (F := Ideal) x0 (ix1 m) = start (Args.y AA m) := by
  rw [val_main_v75_apply, val_main_call3_v4_apply, val_main_call3_v3_apply, val_main_c_17_apply,
    val_main_call3_v2_apply, val_main_call3_v1_apply, val_main_call3_v0_apply, val_main_c_16_apply,
    val_main_v74_apply, val_main_v73_apply, val_main_v72_apply, val_main_v70_apply, val_main_v71_apply,
    val_main_cst_15_apply, val_main_v68_apply, val_main_v69_apply, val_main_cst_14_apply, val_main_v67_apply,
    val_main_cst_13_apply, v1_apply x0 x1 x2 x3 x4 x5 x6 x7 x8 x9 x10 x11]
  rfl

/-- The bin that slot `k` of node `n`'s y window names. -/
theorem v81_apply (n : Fin 1000000) (k : Fin 5) :
    val_main_v81 (F := Ideal) x0 (ix2 n k) = slotBin ((Args.ofArrays x0 x1 x2 x3 x4 x5 x6 x7 x8 x9 x10 x11).y n) k := by
  rw [val_main_v81_apply, val_main_v79_apply, val_main_v76_apply, val_main_v80_apply, val_main_v78_apply,
    val_main_v77_apply]
  have e : idx_main_v76 (idx_main_v79 (ix2 n k)) = ix1 n := by
    funext a; match a with | ⟨0, _⟩ => rfl
  rw [e, v75_apply x0 x1 x2 x3 x4 x5 x6 x7 x8 x9 x10 x11]
  rfl

/-- The index the gather reads is the slot's bin: it is not negative, so the wrap of negative indices leaves it. -/
theorem v88_apply (n : Fin 1000000) (k : Fin 5) :
    val_main_v88 (F := Ideal) x0 (takeIdx (ix2 n k)) = slotBin (Args.y AA n) k := by
  rw [val_main_v88_apply]
  have e : idx_main_v88 (takeIdx (ix2 n k)) = ix2 n k := by
    funext a; match a with | ⟨0, _⟩ => rfl | ⟨1, _⟩ => rfl
  rw [e, val_main_v87_apply, val_main_v84_apply, val_main_v83_apply, val_main_c_18_apply,
    v81_apply x0 x1 x2 x3 x4 x5 x6 x7 x8 x9 x10 x11, slotBin_not_neg, select_zero]

/-- The gathered bin centre is the centre of the slot's bin: the index is in range, so the clamp leaves it. -/
theorem v89_apply (n : Fin 1000000) (k : Fin 5) :
    val_main_v89 (F := Ideal) x0 x10 (ix2 n k) = Args.biny AA (Args.binOfY AA n k) := by
  unfold val_main_v89
  refine (gather_take_apply (N := 512) (R := 1000000) (C := 5) (by decide)
    Facts₀.gather_S512_S1000000x5x1_S1000000x5_n_0_n_n_0_2_1_wf x10 (val_main_v88 (F := Ideal) x0) (ix2 n k)).trans ?_
  refine congrArg x10 (congrArg ix1 (Fin.ext ?_))
  show min (val_main_v88 (F := Ideal) x0 (takeIdx (ix2 n k))).toInt.toNat (512 - 1) = (slotBin (Args.y AA n) k).toNat
  rw [v88_apply x0 x1 x2 x3 x4 x5 x6 x7 x8 x9 x10 x11]
  obtain ⟨_, h⟩ := slotBin_toNat (Args.y AA n) k
  rw [BitVec.toInt_eq_toNat_of_lt (by omega), Int.toNat_natCast]
  omega

/-- The node's centre on the y axis. -/
theorem v66_apply (m : Fin 1000000) :
    val_main_v66 (F := Ideal) x0 x2 (ix1 m) = Args.y AA m + half * Args.sy AA m := by
  rw [val_main_v66_apply, val_main_v65_apply, val_main_v64_apply, val_main_cst_12_apply, v1_apply x0 x1 x2 x3 x4 x5 x6 x7 x8 x9 x10 x11]
  rfl

/-- The distance of the node's centre from the centre of the slot's bin. -/
theorem v92_apply (n : Fin 1000000) (k : Fin 5) :
    val_main_v92 (F := Ideal) x0 x2 x10 (ix2 n k)
      = dist (Args.y AA n) (Args.sy AA n) (Args.biny AA (Args.binOfY AA n k)) := by
  rw [val_main_v92_apply, val_main_v91_apply, v89_apply x0 x1 x2 x3 x4 x5 x6 x7 x8 x9 x10 x11, val_main_v90_apply, val_main_v82_apply]
  have e : idx_main_v82 (idx_main_v90 (ix2 n k)) = ix1 n := by
    funext a; match a with | ⟨0, _⟩ => rfl
  rw [e, v66_apply x0 x1 x2 x3 x4 x5 x6 x7 x8 x9 x10 x11]
  rfl

/-- The bell branch's bound, size/2 + 1. -/
theorem v103_apply (n : Fin 1000000) (k : Fin 5) :
    val_main_v103 (F := Ideal) x2 (ix2 n k) = p1 (Args.sy AA n) := by
  rw [val_main_v103_apply, val_main_v97_apply]
  have e : idx_main_v97 (idx_main_v103 (ix2 n k)) = ix1 n := by
    funext a; match a with | ⟨0, _⟩ => rfl
  rw [e, val_main_v96_apply, val_main_v94_apply, val_main_v93_apply, val_main_cst_20_apply, val_main_v95_apply,
    val_main_cst_21_apply]
  rfl

/-- The tail branch's bound, size/2 + 2. -/
theorem v101_apply (m : Fin 1000000) :
    val_main_v101 (F := Ideal) x2 (ix1 m) = p2 (Args.sy AA m) := by
  rw [val_main_v101_apply, val_main_v99_apply, val_main_v98_apply, val_main_cst_22_apply, val_main_v100_apply,
    val_main_cst_23_apply]
  rfl

theorem v114_apply (n : Fin 1000000) (k : Fin 5) :
    val_main_v114 (F := Ideal) x2 (ix2 n k) = p2 (Args.sy AA n) := by
  rw [val_main_v114_apply, val_main_v102_apply]
  have e : idx_main_v102 (idx_main_v114 (ix2 n k)) = ix1 n := by
    funext a; match a with | ⟨0, _⟩ => rfl
  rw [e, v101_apply x0 x1 x2 x3 x4 x5 x6 x7 x8 x9 x10 x11]

theorem v118_apply (n : Fin 1000000) (k : Fin 5) :
    val_main_v118 (F := Ideal) x2 (ix2 n k) = p2 (Args.sy AA n) := by
  rw [val_main_v118_apply, val_main_v102_apply]
  have e : idx_main_v102 (idx_main_v118 (ix2 n k)) = ix1 n := by
    funext a; match a with | ⟨0, _⟩ => rfl
  rw [e, v101_apply x0 x1 x2 x3 x4 x5 x6 x7 x8 x9 x10 x11]

/-- The bell branch. -/
theorem v113_apply (n : Fin 1000000) (k : Fin 5) :
    val_main_v113 (F := Ideal) x0 x2 x6 x8 x10 (ix2 n k)
      = bell (Args.ay AA n) (Args.cy AA n) (dist (Args.y AA n) (Args.sy AA n) (Args.biny AA (Args.binOfY AA n k))) := by
  rw [val_main_v113_apply, val_main_v112_apply, val_main_v105_apply, val_main_v111_apply, val_main_v110_apply,
    val_main_cst_24_apply, val_main_v109_apply, val_main_v108_apply, val_main_v107_apply, val_main_v106_apply,
    v92_apply x0 x1 x2 x3 x4 x5 x6 x7 x8 x9 x10 x11]
  have e1 : idx_main_v105 (idx_main_v112 (ix2 n k)) = ix1 n := by
    funext a; match a with | ⟨0, _⟩ => rfl
  have e2 : idx_main_v106 (idx_main_v107 (ix2 n k)) = ix1 n := by
    funext a; match a with | ⟨0, _⟩ => rfl
  rw [e1, e2]
  rfl

/-- The tail branch. -/
theorem v122_apply (n : Fin 1000000) (k : Fin 5) :
    val_main_v122 (F := Ideal) x0 x2 x7 x8 x10 (ix2 n k)
      = tailR (Args.by_ AA n) (Args.cy AA n) (Args.sy AA n)
          (dist (Args.y AA n) (Args.sy AA n) (Args.biny AA (Args.binOfY AA n k))) := by
  rw [val_main_v122_apply, val_main_v121_apply, val_main_v117_apply, val_main_v116_apply, val_main_v120_apply,
    val_main_v119_apply, v92_apply x0 x1 x2 x3 x4 x5 x6 x7 x8 x9 x10 x11, v118_apply x0 x1 x2 x3 x4 x5 x6 x7 x8 x9 x10 x11]
  have e : idx_main_v117 (idx_main_v121 (ix2 n k)) = ix1 n := by
    funext a; match a with | ⟨0, _⟩ => rfl
  rw [e]
  rfl

/-- Node `n`'s y potential at slot `k`. -/
theorem v125_apply (n : Fin 1000000) (k : Fin 5) :
    val_main_v125 (F := Ideal) x0 x2 x6 x7 x8 x10 (ix2 n k) = (Args.ofArrays x0 x1 x2 x3 x4 x5 x6 x7 x8 x9 x10 x11).slotY n k := by
  rw [val_main_v125_apply, val_main_v104_apply, val_main_v124_apply, val_main_v115_apply, val_main_v123_apply,
    val_main_cst_25_apply, v92_apply x0 x1 x2 x3 x4 x5 x6 x7 x8 x9 x10 x11, v103_apply x0 x1 x2 x3 x4 x5 x6 x7 x8 x9 x10 x11, v114_apply x0 x1 x2 x3 x4 x5 x6 x7 x8 x9 x10 x11, v113_apply x0 x1 x2 x3 x4 x5 x6 x7 x8 x9 x10 x11,
    v122_apply x0 x1 x2 x3 x4 x5 x6 x7 x8 x9 x10 x11]
  rfl

end Cert.ReferenceIdeal.RefValue

end
-- ==== Proof.Ref.Scatter.lean ====
/-
  The reference's density map: the initial map with, added at the flat bin each (node, slot, slot) triple
  names, the product of the node's two windowed potentials. Bin by bin this is the specification's density
  (the collection lemma `slot_sum`), so the stage the cost is computed from is the specification's array.
-/
import proofs.«406928_j20959440404551_3_alg».proof.Proof.Gen.ReferenceIdeal.Read
import proofs.«406928_j20959440404551_3_alg».proof.Proof.SlotSum
import proofs.«406928_j20959440404551_3_alg».proof.Proof.SpecArrays
import Idealize.ShloMosaic.Lib.ValueIdx

noncomputable section

namespace Cert.ReferenceIdeal.RefValue

open Cert.ReferenceIdeal Cert.ReferenceIdeal.Gen Cert.ReferenceIdeal.Read Cert.Density
open Idealize.ShloMosaic Idealize.ShloMosaic.ValueIdx

variable (x0 : FVec Ideal S2000000 .f32) (x1 x2 x3 x4 x5 x6 x7 x8 : FVec Ideal S1000000 .f32) (x9 x10 : FVec Ideal S512 .f32) (x11 : FVec Ideal S512x512 .f32)

/-! ## The scatter's dimension numbers, read: a rank-one operand, one scalar index per update, no window -/

/-- The scatter-indices index an update index reads: its one coordinate, then the index vector's only place. -/
abbrev scatIdx (j : S25000000.Idx) : S25000000x1.Idx :=
  fun a => match a with | ⟨0, _⟩ => ⟨(j 0).val, (j 0).isLt⟩ | ⟨1, _⟩ => ⟨0, Nat.one_pos⟩

/-- The window of update `j` starts, on the operand's one axis, at the word the scatter indices hold for `j`,
    read signed. -/
theorem scatter_start (j : S25000000.Idx) {w : Nat} (idx : IVec S25000000x1 w) (a : Fin S262144.rank) :
    scatter_S262144_S25000000x1_S25000000_n_0_0_1.start j idx a = (idx (scatIdx j)).toInt := by
  obtain rfl : a = 0 := Subsingleton.elim _ _
  unfold ScatterDims.start
  rw [dif_pos (show (0 : Fin 1) ∈ scatter_S262144_S25000000x1_S25000000_n_0_0_1.scatterDimsToOperandDims from List.mem_singleton.mpr rfl)]
  have hsi : scatter_S262144_S25000000x1_S25000000_n_0_0_1.siIdx j
      ⟨List.idxOf (0 : Fin 1) scatter_S262144_S25000000x1_S25000000_n_0_0_1.scatterDimsToOperandDims,
        List.idxOf_lt_length_iff.2 (List.mem_singleton.mpr rfl)⟩ = scatIdx j := by
    funext b; refine Fin.ext ?_
    match b with
    | ⟨0, _⟩ => rfl
    | ⟨1, _⟩ => rfl
  rw [hsi]

/-- The updates have no window axes: the window coordinate is zero. -/
theorem scatter_window (j : S25000000.Idx) (a : Fin S262144.rank) :
    scatter_S262144_S25000000x1_S25000000_n_0_0_1.window j a = 0 := by
  obtain rfl : a = 0 := Subsingleton.elim _ _
  unfold ScatterDims.window
  rw [dif_neg (by decide)]

/-- Update `j` lands on element `i` exactly when the word the scatter indices hold for `j`, read signed, is `i`'s
    coordinate. -/
theorem scatter_resultIdx_iff (j : S25000000.Idx) {w : Nat} (idx : IVec S25000000x1 w) (i : S262144.Idx) :
    scatter_S262144_S25000000x1_S25000000_n_0_0_1.resultIdx? j idx = some i ↔ (idx (scatIdx j)).toInt = ((i 0).val : ℤ) := by
  have hs : ∀ a, scatter_S262144_S25000000x1_S25000000_n_0_0_1.start j idx a
      + (scatter_S262144_S25000000x1_S25000000_n_0_0_1.window j a : ℤ) = (idx (scatIdx j)).toInt := by
    intro a; rw [scatter_start, scatter_window]; simp
  have hi : (i 0).val < 262144 := (i 0).isLt
  unfold ScatterDims.resultIdx?
  split_ifs with h
  · constructor
    · intro h'
      have h1 := congrArg Fin.val (congrFun (Option.some.inj h') 0)
      have h2 := h 0
      rw [hs 0] at h2
      simp only [hs 0] at h1
      omega
    · intro hv
      congr 1
      funext a
      obtain rfl : a = 0 := Subsingleton.elim _ _
      refine Fin.ext ?_
      show (scatter_S262144_S25000000x1_S25000000_n_0_0_1.start j idx 0
        + (scatter_S262144_S25000000x1_S25000000_n_0_0_1.window j 0 : ℤ)).toNat = (i 0).val
      rw [hs 0, hv]
      simp
  · constructor
    · intro h'; cases h'
    · intro hv
      exfalso
      apply h
      intro a
      obtain rfl : a = 0 := Subsingleton.elim _ _
      rw [hs 0, hv]
      constructor
      · omega
      · show ((i 0).val : ℤ) < ((262144 : ℕ) : ℤ)
        omega

/-! ## The update indices are the (node, slot, slot) triples, row-major -/

/-- The node an update index belongs to: j / 25. -/
def nodeOf (j : S25000000.Idx) : Fin 1000000 :=
  ⟨(j 0).val / 25, by have h0 : (j 0).val < 25000000 := (j 0).isLt; omega⟩
/-- Its slot on the x axis: (j / 5) mod 5. -/
def slotAOf (j : S25000000.Idx) : Fin 5 := ⟨(j 0).val / 5 % 5, Nat.mod_lt _ (by decide)⟩
/-- Its slot on the y axis: j mod 5. -/
def slotBOf (j : S25000000.Idx) : Fin 5 := ⟨(j 0).val % 5, Nat.mod_lt _ (by decide)⟩

/-- The update indices are the triples: j = (n · 5 + a) · 5 + b. -/
def triEquiv : S25000000.Idx ≃ Fin 1000000 × Fin 5 × Fin 5 where
  toFun j := (nodeOf j, slotAOf j, slotBOf j)
  invFun t := ix1 ⟨t.1.val * 25 + t.2.1.val * 5 + t.2.2.val, by
    have h1 := t.1.isLt; have h2 := t.2.1.isLt; have h3 := t.2.2.isLt; omega⟩
  left_inv j := by
    funext d
    match d with
    | ⟨0, _⟩ =>
      refine Fin.ext ?_
      have h0 : (j 0).val < 25000000 := (j 0).isLt
      show (j 0).val / 25 * 25 + (j 0).val / 5 % 5 * 5 + (j 0).val % 5 = (j 0).val
      omega
  right_inv t := by
    obtain ⟨n, a, b⟩ := t
    have h1 := n.isLt; have h2 := a.isLt; have h3 := b.isLt
    refine Prod.ext (Fin.ext ?_) (Prod.ext (Fin.ext ?_) (Fin.ext ?_))
    · show (n.val * 25 + a.val * 5 + b.val) / 25 = n.val
      omega
    · show (n.val * 25 + a.val * 5 + b.val) / 5 % 5 = a.val
      omega
    · show (n.val * 25 + a.val * 5 + b.val) % 5 = b.val
      omega

/-! ## The index chain: the word the scatter reads for an update -/

/-- The flat index the reference forms for update `j`: the x bin times 512 plus the y bin, in 32-bit words. -/
theorem word_at (A : Args)
    (h19 : ∀ (n : Fin 1000000) (k : Fin 5), val_main_v19 (F := Ideal) x0 (ix2 n k) = slotBin (A.x n) k)
    (h81 : ∀ (n : Fin 1000000) (k : Fin 5), val_main_v81 (F := Ideal) x0 (ix2 n k) = slotBin (A.y n) k)
    (j : S25000000.Idx) :
    val_main_v133 (F := Ideal) x0 j
      = IntOp.addi (IntOp.muli (slotBin (A.x (nodeOf j)) (slotAOf j)) 512#32) (slotBin (A.y (nodeOf j)) (slotBOf j)) := by
  have e1 : idx_main_v126 (idx_main_v130 (idx_main_v133 j)) = ix2 (nodeOf j) (slotAOf j) := by
    funext c; match c with | ⟨0, _⟩ => rfl | ⟨1, _⟩ => rfl
  have e2 : idx_main_v129 (idx_main_v131 (idx_main_v133 j)) = ix2 (nodeOf j) (slotBOf j) := by
    funext c; match c with | ⟨0, _⟩ => rfl | ⟨1, _⟩ => rfl
  rw [val_main_v133_apply, val_main_v132_apply, val_main_v130_apply, val_main_v128_apply, val_main_v126_apply,
    val_main_v127_apply, val_main_c_26_apply, val_main_v131_apply, val_main_v129_apply, e1, e2, h19, h81]

/-- That word is the flat bin of the pair of slots: neither the product nor the sum wraps, both bins being below 512. -/
theorem word_toNat (A : Args) (n : Fin 1000000) (a b : Fin 5) :
    (IntOp.addi (IntOp.muli (slotBin (A.x n) a) 512#32) (slotBin (A.y n) b)).toNat = A.flat n a b
      ∧ A.flat n a b < 262144 := by
  obtain ⟨_, hx⟩ := slotBin_toNat (A.x n) a
  obtain ⟨_, hy⟩ := slotBin_toNat (A.y n) b
  have h512 : (512#32 : BitVec 32).toNat = 512 := by decide
  unfold Args.flat Args.binOfX Args.binOfY IntOp.addi IntOp.muli
  rw [BitVec.toNat_add, BitVec.toNat_mul, h512]
  simp only
  omega

/-- A word below 262144 is not negative as a signed word. -/
theorem not_neg_of_lt (w : BitVec 32) (h : w.toNat < 262144) : IntOp.cmpi .slt w 0#32 = 0#1 := by
  have h0 : (0#32 : BitVec 32).toInt = 0 := by decide
  have hs : w.slt 0#32 = false := by
    rw [BitVec.slt_eq_decide, decide_eq_false_iff_not, h0, BitVec.toInt_eq_toNat_of_lt (by omega)]
    omega
  unfold IntOp.cmpi
  simp only [hs]
  rfl

/-- Update `j` lands on bin (p, q) exactly when its pair of slots names that bin: the wrap of negative indices leaves
    the word alone, and read signed it is the flat bin. -/
theorem lands_iff (A : Args)
    (h19 : ∀ (n : Fin 1000000) (k : Fin 5), val_main_v19 (F := Ideal) x0 (ix2 n k) = slotBin (A.x n) k)
    (h81 : ∀ (n : Fin 1000000) (k : Fin 5), val_main_v81 (F := Ideal) x0 (ix2 n k) = slotBin (A.y n) k)
    (j : S25000000.Idx) (p q : Fin 512) :
    scatter_S262144_S25000000x1_S25000000_n_0_0_1.resultIdx? j (val_main_v146 (F := Ideal) x0) = some (idx_main_v148 (ix2 p q))
      ↔ A.flat (nodeOf j) (slotAOf j) (slotBOf j) = p.val * 512 + q.val := by
  have hj : idx_main_v146 (scatIdx j) = j := by
    funext c; match c with | ⟨0, _⟩ => rfl
  obtain ⟨hw, hlt⟩ := word_toNat A (nodeOf j) (slotAOf j) (slotBOf j)
  have h133 := word_at x0 A h19 h81 j
  have h145 : val_main_v145 (F := Ideal) x0 j = val_main_v133 (F := Ideal) x0 j := by
    rw [val_main_v145_apply, val_main_v142_apply, val_main_v141_apply, val_main_c_27_apply,
      not_neg_of_lt _ (by rw [h133, hw]; exact hlt), select_zero]
  rw [scatter_resultIdx_iff, val_main_v146_apply, hj, h145, h133,
    BitVec.toInt_eq_toNat_of_lt (by rw [hw]; omega), hw]
  show ((A.flat (nodeOf j) (slotAOf j) (slotBOf j) : ℕ) : ℤ) = ((p.val * 512 + q.val : ℕ) : ℤ) ↔ _
  exact Nat.cast_inj

/-! ## The value chain: what update `j` adds -/

/-- Update `j` is the product of its node's two windowed potentials at its two slots. -/
theorem upd_at (A : Args)
    (h63 : ∀ (n : Fin 1000000) (k : Fin 5), val_main_v63 (F := Ideal) x0 x1 x3 x4 x5 x9 (ix2 n k) = A.slotX n k)
    (h125 : ∀ (n : Fin 1000000) (k : Fin 5), val_main_v125 (F := Ideal) x0 x2 x6 x7 x8 x10 (ix2 n k) = A.slotY n k)
    (j : S25000000.Idx) :
    val_main_v139 (F := Ideal) x0 x1 x2 x3 x4 x5 x6 x7 x8 x9 x10 j
      = A.slotX (nodeOf j) (slotAOf j) * A.slotY (nodeOf j) (slotBOf j) := by
  have e1 : idx_main_v134 (idx_main_v136 (idx_main_v139 j)) = ix2 (nodeOf j) (slotAOf j) := by
    funext c; match c with | ⟨0, _⟩ => rfl | ⟨1, _⟩ => rfl
  have e2 : idx_main_v135 (idx_main_v137 (idx_main_v139 j)) = ix2 (nodeOf j) (slotBOf j) := by
    funext c; match c with | ⟨0, _⟩ => rfl | ⟨1, _⟩ => rfl
  rw [val_main_v139_apply, val_main_v138_apply, val_main_v136_apply, val_main_v134_apply, val_main_v137_apply,
    val_main_v135_apply, e1, e2, h63, h125, Ideal.mulf_def]

/-- The scatter's operand at the flat bin of (p, q) is the initial map at (p, q). -/
theorem operand_at (p q : Fin 512) :
    val_main_v140 (F := Ideal) x11 (idx_main_v148 (ix2 p q)) = x11 (ix2 p q) := by
  have hp := p.isLt
  have hq := q.isLt
  rw [val_main_v140_apply]
  congr 1
  funext c
  match c with
  | ⟨0, _⟩ =>
    refine Fin.ext ?_
    show (p.val * 512 + q.val) / 512 = p.val
    omega
  | ⟨1, _⟩ =>
    refine Fin.ext ?_
    show (p.val * 512 + q.val) % 512 = q.val
    omega

/-! ## The assembly -/

/-- The stage before the cost is the specification's density array, given the four per-node stages. -/
theorem v148_eq
    (h19 : ∀ (n : Fin 1000000) (k : Fin 5), val_main_v19 (F := Ideal) x0 (ix2 n k) = slotBin ((Args.ofArrays x0 x1 x2 x3 x4 x5 x6 x7 x8 x9 x10 x11).x n) k)
    (h81 : ∀ (n : Fin 1000000) (k : Fin 5), val_main_v81 (F := Ideal) x0 (ix2 n k) = slotBin ((Args.ofArrays x0 x1 x2 x3 x4 x5 x6 x7 x8 x9 x10 x11).y n) k)
    (h63 : ∀ (n : Fin 1000000) (k : Fin 5), val_main_v63 (F := Ideal) x0 x1 x3 x4 x5 x9 (ix2 n k) = (Args.ofArrays x0 x1 x2 x3 x4 x5 x6 x7 x8 x9 x10 x11).slotX n k)
    (h125 : ∀ (n : Fin 1000000) (k : Fin 5), val_main_v125 (F := Ideal) x0 x2 x6 x7 x8 x10 (ix2 n k) = (Args.ofArrays x0 x1 x2 x3 x4 x5 x6 x7 x8 x9 x10 x11).slotY n k) :
    val_main_v148 (F := Ideal) x0 x1 x2 x3 x4 x5 x6 x7 x8 x9 x10 x11 = (Args.ofArrays x0 x1 x2 x3 x4 x5 x6 x7 x8 x9 x10 x11).densityArr := by
  funext i
  obtain ⟨p, q, rfl⟩ : ∃ (p q : Fin 512), i = ix2 p q := ⟨i 0, i 1, eq_ix2 i⟩
  generalize hA : (Args.ofArrays x0 x1 x2 x3 x4 x5 x6 x7 x8 x9 x10 x11) = A at h19 h81 h63 h125 ⊢
  have hinit : x11 (ix2 p q) = A.init p q := by rw [← hA]; rfl
  rw [val_main_v148_apply]
  unfold val_main_v147 Host.scatterAdd
  rw [Ideal.hostScatterAdd_def]
  unfold Ideal.hostScatterAdd
  rw [operand_at, hinit, Finset.sum_filter]
  show _ = A.init p q + ∑ n : Fin 1000000, A.px n p * A.py n q
  rw [← slot_sum A p q, Finset.sum_filter]
  refine congrArg (fun s => A.init p q + s) ?_
  refine Fintype.sum_equiv triEquiv _ _ (fun j => ?_)
  show _ = (if A.flat (nodeOf j) (slotAOf j) (slotBOf j) = p.val * 512 + q.val
    then A.slotX (nodeOf j) (slotAOf j) * A.slotY (nodeOf j) (slotBOf j) else 0)
  rw [upd_at x0 x1 x2 x3 x4 x5 x6 x7 x8 x9 x10 A h63 h125 j]
  exact if_congr (lands_iff x0 A h19 h81 j p q) rfl rfl

/-- The reference's result is the cost of the stage before it: its last operations are the cost's. -/
theorem v152_eq_cost :
    val_main_v152 (F := Ideal) x0 x1 x2 x3 x4 x5 x6 x7 x8 x9 x10 x11
      = cost bcast_S_S512x512 reducesTo_S512x512_S_d0_1 h_S_ (val_main_v148 (F := Ideal) x0 x1 x2 x3 x4 x5 x6 x7 x8 x9 x10 x11) := by
  unfold val_main_v152 val_main_v151 val_main_v150 val_main_v149 val_main_cst_29 val_main_cst_30 cost
  rfl

end Cert.ReferenceIdeal.RefValue

end
-- ==== Proof.Ref.Value.lean ====
/-
  The reference's run: every execution terminates with the result at the cost of the specification's density
  array of the launch contents of the arguments, and the arguments unchanged. In particular it runs and leaves
  its arguments alone (its frame).
-/
import proofs.«406928_j20959440404551_3_alg».proof.Proof.Ref.Nodes
import proofs.«406928_j20959440404551_3_alg».proof.Proof.Ref.Scatter

noncomputable section

namespace Cert.ReferenceIdeal.RefValue

open Cert.ReferenceIdeal Cert.ReferenceIdeal.Gen Cert.ReferenceIdeal.Read Cert.Density
open Idealize.ShloMosaic Idealize.ShloMosaic.TcCoe Idealize.SL.Sem

/-- The launch contents of the twelve arguments on core `c`, as the specification's arrays. -/
def argsR (m : (ℓ : Loc nD τ sig) → Buf (Elt Ideal) ℓ) (c : Dev nD) : Args :=
  Args.ofArrays (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))

theorem ref_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v152) = cost bcast_S_S512x512 reducesTo_S512x512_S_d0_1 h_S_ (argsR m c).densityArr
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine (θ_run (defs (F := Ideal)) _ _).mono (fun _ h c => ⟨(h c).1.trans ?_, (h c).2⟩) (Value.run (F := Ideal) m ρ)
  -- the run's term is the last stage; the last stage is the cost of the stage before it; that stage is the density array
  refine (val_main_v152_eq m c).trans ((v152_eq_cost _ _ _ _ _ _ _ _ _ _ _ _).trans ?_)
  refine congrArg (cost bcast_S_S512x512 reducesTo_S512x512_S_d0_1 h_S_) ?_
  exact v148_eq _ _ _ _ _ _ _ _ _ _ _ _
    (fun n k => v19_apply _ _ _ _ _ _ _ _ _ _ _ _ n k) (fun n k => v81_apply _ _ _ _ _ _ _ _ _ _ _ _ n k)
    (fun n k => v63_apply _ _ _ _ _ _ _ _ _ _ _ _ n k) (fun n k => v125_apply _ _ _ _ _ _ _ _ _ _ _ _ n k)

/-- The reference's frame: every execution terminates with the arguments unchanged. -/
theorem ref_frame (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run (defs (F := Ideal)) _ _).mono (fun _ h c => (h c).2) (ref_value m ρ)

end Cert.ReferenceIdeal.RefValue

end
-- ==== Proof.lean ====
/-
  The certificate of the density-map kernel against its reference: over the extended reals both programs return
  the cost ∑ over the 512 × 512 bins of (density - target)², where the density at a bin is the initial map plus the sum
  over the 1,000,000 nodes of the product of the node's two axis potentials at the bin.

  The reference scatters, for every node, the 5 × 5 products of its windowed potentials into the bins its two windows
  name; the kernel builds, per chunk of 2048 nodes, the two dense 1024 × 512 matrices of potentials that vanish outside
  the windows (twice: two halves), multiplies one by the rows' validity, contracts them over the rows on the matrix
  unit, and accumulates over the 245 chunks of each of two cores; the host adds the two cores' maps and the initial
  map. Bin by bin both are the same sum: a dense potential outside its window is zero and zero times anything is zero
  on the extended reals, inside the window it is the windowed one (the product's association differs, which is
  immaterial), the padded rows contribute zero, and a sum may be taken in any order.

  The three frames: each program runs to the end from any memory and leaves its arguments as launched. The kernel's
  idealization rewrites nothing, so there is nothing to preserve.
-/
import proofs.«406928_j20959440404551_3_alg».proof.Defs
import proofs.«406928_j20959440404551_3_alg».proof.Proof.Gen.Kernel
import proofs.«406928_j20959440404551_3_alg».proof.Proof.Gen.KernelIdeal
import proofs.«406928_j20959440404551_3_alg».proof.Proof.Gen.ReferenceIdeal
import proofs.«406928_j20959440404551_3_alg».proof.Proof.Gen.Pre_finite_inputs
import proofs.«406928_j20959440404551_3_alg».proof.Proof.K.FrameClaim
import proofs.«406928_j20959440404551_3_alg».proof.Proof.KI.FrameClaim
import proofs.«406928_j20959440404551_3_alg».proof.Proof.KI.ValueClaim
import proofs.«406928_j20959440404551_3_alg».proof.Proof.Ref.Value

noncomputable section

namespace Cert.Proof

open Idealize.ShloMosaic Idealize.SL.Sem

theorem frame_k : Cert.frame_Kernel := fun m ρ _ => Cert.Kernel.Gen.frame (F := Bits) m ρ
theorem frame_ki : Cert.frame_KernelIdeal := fun m ρ _ => Cert.KernelIdeal.Gen.frame (F := Ideal) m ρ
theorem frame_ri : Cert.frame_ReferenceIdeal := fun m ρ _ => Cert.ReferenceIdeal.RefValue.ref_frame m ρ

/-- Both programs end at the cost of the specification's density array of their (agreeing) arguments. -/
theorem algebraic : Cert.algebraic_KernelIdeal_ReferenceIdeal := by
  intro m ρ m' ρ' _ hagree
  refine ⟨_, Cert.KernelIdeal.Gen.value_run m ρ, ?_⟩
  refine (θ_run Cert.ReferenceIdeal.defs _ _).mono (fun _ h c => ⟨(h c).1.trans ?_, (h c).2⟩)
    (Cert.ReferenceIdeal.RefValue.ref_value m' ρ')
  unfold Cert.ReferenceIdeal.RefValue.argsR Cert.KernelIdeal.Gen.argsK
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
